-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x600000 : Shape := ⟨2, ![2, 600000]⟩
abbrev S50000 : Shape := ⟨1, ![50000]⟩
abbrev S3x128 : Shape := ⟨2, ![3, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg9 : FVec F S128x5 .f32) (main_arg10 : FVec F S5 .f32) (main_v33 : IVec S_ 1) : IVec S_ 1 :=
  let main_v34 : FVec F S128x5 .f32 := Host.absf main_arg9
  let main_cst_12 : FVec F S_ .f32 := constant S_ .f32 0x7F800000#32
  let main_v35 : FVec F S128x5 .f32 := broadcastInDim S128x5 ![] bcast_S_S128x5 main_cst_12
  let main_v36 : IVec S128x5 1 := cmpf .olt main_v34 main_v35
  let main_c_13 : IVec S_ 1 := constantI S_ 1 1#1
  let main_v37 : IVec S_ 1 := (fun x v => Host.reduce IntOp.andi x v reducesTo_S128x5_S_d0_1 h_S_) main_v36 main_c_13
  let main_v38 : IVec S_ 1 := andi main_v33 main_v37
  let main_v39 : FVec F S5 .f32 := Host.absf main_arg10
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x5 .f32) (main_arg10 : FVec F S5 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x3 .f32) (main_arg1 : IVec S2x600000 32) (main_arg2 : IVec S50000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128x5 .f32) (main_arg10 : FVec F S5 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x3 : Shape := ⟨2, ![50000, 3]⟩
abbrev S2x600000 : Shape := ⟨2, ![2, 600000]⟩
abbrev S50000 : Shape := ⟨1, ![50000]⟩
abbrev S3x128 : Shape := ⟨2, ![3, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S2000x3 : Shape := ⟨2, ![2000, 3]⟩
abbrev S2000x128 : Shape := ⟨2, ![2000, 128]⟩
abbrev S650000x128 : Shape := ⟨2, ![650000, 128]⟩
abbrev S1x128 : Shape := ⟨2, ![1, 128]⟩
abbrev S50000x1 : Shape := ⟨2, ![50000, 1]⟩
abbrev S128x1 : Shape := ⟨2, ![128, 1]⟩
abbrev S2000x1 : Shape := ⟨2, ![2000, 1]⟩
abbrev S1x5 : Shape := ⟨2, ![1, 5]⟩

abbrev nBuf : Space → Nat
  | .hbm => 113
  | .vmem => 27
  | .smem => 0
  | _ => 0

abbrev bufTy : (tb : Table) → Fin (tcTables nBuf tb) → BufTy
  | .hbm, ⟨0, _⟩ => ⟨S50000x3, .f32⟩
  | .hbm, ⟨1, _⟩ => ⟨S2x600000, .i32⟩
  | .hbm, ⟨2, _⟩ => ⟨S50000, .i32⟩
  | .hbm, ⟨3, _⟩ => ⟨S3x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x5, .f32⟩
  | .hbm, ⟨10, _⟩ => ⟨S5, .f32⟩
  | .hbm, ⟨11, _⟩ => ⟨S50000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S_, .f32⟩
  | .hbm, ⟨19, _⟩ => ⟨S650000, .f32⟩
  | .hbm, ⟨20, _⟩ => ⟨S_, .f32⟩
  | .hbm, ⟨21, _⟩ => ⟨S50000, .f32⟩
  | .hbm, ⟨22, _⟩ => ⟨S650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S650000, .i32⟩
  | .hbm, ⟨37, _⟩ => ⟨S650000, .i1⟩
  | .hbm, ⟨38, _⟩ => ⟨S_, .i32⟩
  | .hbm, ⟨39, _⟩ => ⟨S650000, .i32⟩
  | .hbm, ⟨40, _⟩ => ⟨S650000, .i32⟩
  | .hbm, ⟨41, _⟩ => ⟨S650000, .i32⟩
  | .hbm, ⟨42, _⟩ => ⟨S650000x1, .i32⟩
  | .hbm, ⟨43, _⟩ => ⟨S650000, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000, .f32⟩
  | .hbm, ⟨53, _⟩ => ⟨S650000, .f32⟩
  | .hbm, ⟨54, _⟩ => ⟨S50000x128, .f32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x128, .f32⟩
  | .hbm, ⟨64, _⟩ => ⟨S650000x1, .f32⟩
  | .hbm, ⟨65, _⟩ => ⟨S650000x128, .f32⟩
  | .hbm, ⟨66, _⟩ => ⟨S650000x128, .f32⟩
  | .hbm, ⟨67, _⟩ => ⟨S_, .f32⟩
  | .hbm, ⟨68, _⟩ => ⟨S50000x128, .f32⟩
  | .hbm, ⟨69, _⟩ => ⟨S650000x1, .i32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x128, .f32⟩
  | .hbm, ⟨81, _⟩ => ⟨S650000x1, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S50000x128, .f32⟩
  | .hbm, ⟨89, _⟩ => ⟨S_, .i32⟩
  | .hbm, ⟨90, _⟩ => ⟨S650000, .i32⟩
  | .hbm, ⟨91, _⟩ => ⟨S650000, .i1⟩
  | .hbm, ⟨92, _⟩ => ⟨S_, .i32⟩
  | .hbm, ⟨93, _⟩ => ⟨S650000, .i32⟩
  | .hbm, ⟨94, _⟩ => ⟨S650000, .i32⟩
  | .hbm, ⟨95, _⟩ => ⟨S650000, .i32⟩
  | .hbm, ⟨96, _⟩ => ⟨S650000x1, .i32⟩
  | .hbm, ⟨97, _⟩ => ⟨S650000x128, .f32⟩
  | .hbm, ⟨98, _⟩ => ⟨S650000x1, .f32⟩
  | .hbm, ⟨99, _⟩ => ⟨S650000x128, .f32⟩
  | .hbm, ⟨100, _⟩ => ⟨S650000x128, .f32⟩
  | .hbm, ⟨101, _⟩ => ⟨S_, .f32⟩
  | .hbm, ⟨102, _⟩ => ⟨S50000x128, .f32⟩
  | .hbm, ⟨103, _⟩ => ⟨S650000x1, .i32⟩
  | .hbm, ⟨104, _⟩ => ⟨S50000x128, .f32⟩
  | .hbm, ⟨105, _⟩ => ⟨S128, .i32⟩
  | .hbm, ⟨106, _⟩ => ⟨S50000x1, .i32⟩
  | .hbm, ⟨107, _⟩ => ⟨S1x128, .i32⟩
  | .hbm, ⟨108, _⟩ => ⟨S50000x128, .i32⟩
  | .hbm, ⟨109, _⟩ => ⟨S50000x128, .i32⟩
  | .hbm, ⟨110, _⟩ => ⟨S50000x128, .i1⟩
  | .hbm, ⟨111, _⟩ => ⟨S50000x128, .bf16⟩
  | .hbm, ⟨112, _⟩ => ⟨S128x5, .f32⟩
  | .local _ .vmem, ⟨0, _⟩ => ⟨S2000x3, .f32⟩
  | .local _ .vmem, ⟨1, _⟩ => ⟨S2000x3, .f32⟩
  | .local _ .vmem, ⟨2, _⟩ => ⟨S3x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128, .f32⟩
  | .local _ .vmem, ⟨20, _⟩ => ⟨S2000x128, .bf16⟩
  | .local _ .vmem, ⟨21, _⟩ => ⟨S2000x128, .bf16⟩
  | .local _ .vmem, ⟨22, _⟩ => ⟨S128x5, .f32⟩
  | .local _ .vmem, ⟨23, _⟩ => ⟨S5, .f32⟩
  | .local _ .vmem, ⟨24, _⟩ => ⟨S128x5, .f32⟩
  | .local _ .vmem, ⟨25, _⟩ => ⟨S128x128, .f32⟩
  | .local _ .vmem, ⟨26, _⟩ => ⟨S128x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_scratch0 : Ref sig .tc := ⟨.vmem, 25, rfl⟩
abbrev cc3_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_16 : BitVec 32 := 0#32
  let v29 : BitVec 1 := Scalar.cmpi .ne v28 c0_i32_16
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S5 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x5 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S2000x128_S2000x128_0_0 : ∀ a, (![0, 0] : Fin 2 → Nat) a + S2000x128.size a ≤ S2000x128.size a
  h_S2000x128 : 0 < S2000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x5_S128x5_0_0 : ∀ a, (![0, 0] : Fin 2 → Nat) a + S128x5.size a ≤ S128x5.size a
  h_S128x5 : 0 < S128x5.numel
  inb_S5_S5_0 : ∀ a, (![0] : Fin 1 → Nat) a + S5.size a ≤ S5.size a
  h_S5 : 0 < S5.numel
  shapeCasts_S5_S1x5 : S5.ShapeCasts S1x5
  broadcasts_S1x5_S128x5 : S1x5.Broadcasts S128x5
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x3_S3x128_S2000x128_1_0_0_1_n_n_wf : DotDims.WF S2000x3 S3x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  dot_S2000x128_S2000x1_S128x1_0_0_1_1_n_n_wf : DotDims.WF S2000x128 S2000x1 S128x1 [0] [0] [1] [1] [] []
  dot_S128x128_S128x5_S128x5_1_0_0_1_n_n_wf : DotDims.WF S128x128 S128x5 S128x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S50000x3.size a
  hwx0_0 : ∀ i : grid0.Coords, EltTy.bits .f32 = 32 ∨ (Rect.block (s := S50000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .bf16 = 32 ∨ (Rect.block (s := S50000x128) S2000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x5.size a ≤ S128x5.size a
  hwx3_3 : ∀ i : grid3.Coords, EltTy.bits .f32 = 32 ∨ (Rect.block (s := S128x5) S128x5.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S5.size a ≤ S5.size a
  hwx3_4 : ∀ i : grid3.Coords, EltTy.bits .f32 = 32 ∨ (Rect.block (s := S5) S5.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x5.size a ≤ S128x5.size a
  hwx3_5 : ∀ i : grid3.Coords, EltTy.bits .f32 = 32 ∨ (Rect.block (s := S128x5) S128x5.size (cc3_transform_5 i) (hinb3_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x3_S3x128_S2000x128_1_0_0_1_n_n : DotDims S2000x3 S3x128 S2000x128 where
  lhsContracting := [1]
  rhsContracting := [0]
  lhsNonContracting := [0]
  rhsNonContracting := [1]
  lhsBatch := []
  rhsBatch := []
  wf := dot_S2000x3_S3x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S2000x128_S2000x1_S128x1_0_0_1_1_n_n : DotDims S2000x128 S2000x1 S128x1 where
  lhsContracting := [0]
  rhsContracting := [0]
  lhsNonContracting := [1]
  rhsNonContracting := [1]
  lhsBatch := []
  rhsBatch := []
  wf := dot_S2000x128_S2000x1_S128x1_0_0_1_1_n_n_wf
def dot_S128x128_S128x5_S128x5_1_0_0_1_n_n : DotDims S128x128 S128x5 S128x5 where
  lhsContracting := [1]
  rhsContracting := [0]
  lhsNonContracting := [0]
  rhsNonContracting := [1]
  lhsBatch := []
  rhsBatch := []
  wf := dot_S128x128_S128x5_S128x5_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x5.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S5.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S128x5.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000x3 : Shape := ⟨2, ![50000, 3]⟩
abbrev S2x600000 : Shape := ⟨2, ![2, 600000]⟩
abbrev S50000 : Shape := ⟨1, ![50000]⟩
abbrev S3x128 : Shape := ⟨2, ![3, 128]⟩
abbrev S128 : Shape := ⟨1, ![128]⟩
abbrev S128x128 : Shape := ⟨2, ![128, 128]⟩
abbrev S128x5 : Shape := ⟨2, ![128, 5]⟩
abbrev S5 : Shape := ⟨1, ![5]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S650000x128 : Shape := ⟨2, ![650000, 128]⟩
abbrev S1x128 : Shape := ⟨2, ![1, 128]⟩
abbrev S50000x1 : Shape := ⟨2, ![50000, 1]⟩
abbrev S128x1 : Shape := ⟨2, ![128, 1]⟩
abbrev S1x5 : Shape := ⟨2, ![1, 5]⟩

abbrev nBuf : Space → Nat
  | .hbm => 143
  | .vmem => 0
  | .smem => 0
  | _ => 0

abbrev hbmTy0_0 (i : Nat) : BufTy := match i % 128 with
  | 0 => ⟨S50000x3, .f32⟩
  | 1 => ⟨S2x600000, .i32⟩
  | 2 => ⟨S50000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x5, .f32⟩
  | 10 => ⟨S5, .f32⟩
  | 11 => ⟨S50000, .i32⟩
  | 12 => ⟨S1x600000, .i32⟩
  | 13 => ⟨S600000, .i32⟩
  | 14 => ⟨S650000, .i32⟩
  | 15 => ⟨S1x600000, .i32⟩
  | 16 => ⟨S600000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x1, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S650000, .i32⟩
  | 80 => ⟨S650000, .i1⟩
  | 81 => ⟨S_, .i32⟩
  | 82 => ⟨S650000, .i32⟩
  | 83 => ⟨S650000, .i32⟩
  | 84 => ⟨S650000, .i32⟩
  | 85 => ⟨S650000x1, .i32⟩
  | 86 => ⟨S650000x128, .f32⟩
  | 87 => ⟨S650000x1, .f32⟩
  | 88 => ⟨S650000x128, .f32⟩
  | 89 => ⟨S650000x128, .f32⟩
  | 90 => ⟨S_, .f32⟩
  | 91 => ⟨S50000x128, .f32⟩
  | 92 => ⟨S650000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000x128, .f32⟩
  | 110 => ⟨S650000x1, .f32⟩
  | 111 => ⟨S650000x128, .f32⟩
  | 112 => ⟨S650000x128, .f32⟩
  | 113 => ⟨S_, .f32⟩
  | 114 => ⟨S50000x128, .f32⟩
  | 115 => ⟨S650000x1, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S128x128, .f32⟩
  | 125 => ⟨S50000x1, .i32⟩
  | 126 => ⟨S128x128, .f32⟩
  | 127 => ⟨S_, .f32⟩
  | _ => ⟨S50000x3, .f32⟩

abbrev hbmTy0_1 (i : Nat) : BufTy := match i % 128 with
  | 0 => ⟨S50000, .f32⟩
  | 1 => ⟨S_, .f32⟩
  | 2 => ⟨S128, .f32⟩
  | 3 => ⟨S50000x1, .i32⟩
  | 4 => ⟨S128, .f32⟩
  | 5 => ⟨S_, .f32⟩
  | 6 => ⟨S128, .f32⟩
  | 7 => ⟨S128, .f32⟩
  | 8 => ⟨S128x1, .f32⟩
  | 9 => ⟨S128x128, .f32⟩
  | 10 => ⟨S128x128, .f32⟩
  | 11 => ⟨S128x5, .f32⟩
  | 12 => ⟨S1x5, .f32⟩
  | 13 => ⟨S128x5, .f32⟩
  | 14 => ⟨S128x5, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S5_S1x5_1 : S5.BroadcastsInDim S1x5 (![1] : Fin 1 → Fin S1x5.rank)
  bcast_S1x5_S128x5_0_1 : S1x5.BroadcastsInDim S128x5 (![0, 1] : Fin 2 → Fin S128x5.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x3_S3x128_S50000x128_1_0_0_1_n_n_wf : DotDims.WF S50000x3 S3x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x5_S128x5_1_0_0_1_n_n_wf : DotDims.WF S128x128 S128x5 S128x5 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x5_S128x5_1_0_0_1_n_n : DotDims S128x128 S128x5 S128x5 where
  lhsContracting := [1]
  rhsContracting := [0]
  lhsNonContracting := [0]
  rhsNonContracting := [1]
  lhsBatch := []
  rhsBatch := []
  wf := dot_S128x128_S128x5_S128x5_1_0_0_1_n_n_wf

class Facts : Prop extends Facts₀ where

variable [Facts]
-- ==== Proof.KRg0.lean ====
/- Region 0 of @main: the first layer's dense map, one 2000-row block of the node features times the whole
   3×128 weight matrix per grid point. Stated at the buffer contents `V` the region is entered with: each window's
   block at a point, what the body leaves in the output block (its one store, over the payload of the two loaded
   blocks), the body's triple, the pipeline's proof data and the body obligation at every point. -/
import proofs.«429345_j86552180949235_1_alg».proof.Proof.Gen.Kernel.Launch
import proofs.«429345_j86552180949235_1_alg».proof.Proof.Gen.Kernel.Skeleton
import proofs.«429345_j86552180949235_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Rg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows 2000·t … 2000·t+1999 of the features (window 0) and of the result
    (window 2), the whole weight matrix (window 1), read off the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S2000x3 := Rect.unit (s := S2000x3) ![0, 0] S2000x3.size inb_S2000x3_S2000x3_0_0
abbrev rW : Rect S3x128 := Rect.unit (s := S3x128) ![0, 0] S3x128.size inb_S3x128_S3x128_0_0
abbrev rO : Rect S2000x128 := Rect.unit (s := S2000x128) ![0, 0] S2000x128.size inb_S2000x128_S2000x128_0_0

/-- The output block after the body: its one whole-block store of the product of the feature block and the weights. -/
def out0_2 (x0 : Vec F S2000x3 .f32) (x1 : Vec F S3x128 .f32) : Vec F S2000x128 .f32 :=
  View.canon [⟨rO, k0_pay1 (View.ld x0 rX) (View.ld x1 rW)⟩]

/-- The one store covers the output block. -/
theorem cover0_2 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

set_option maxHeartbeats 1000000 in
/-- The body on whole staging buffers: the two inputs keep their contents, the output ends at `out0_2` of them. -/
theorem sound_kernel0 (c : Dev nD) (E : Set ℕ) (i : grid0.Coords)
    (arg1 : Memref sig .tc .vmem S2000x3 .f32) (harg1 : arg1.IsWhole) (arg2 : Memref sig .tc .vmem S3x128 .f32) (harg2 : arg2.IsWhole)
    (arg3 : Memref sig .tc .vmem S2000x128 .f32) (harg3 : arg3.IsWhole)
    (x0 : Vec F S2000x3 .f32) (x1 : Vec F S3x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's
    buffer still at its block and the output's at `out0_2` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- An input's current staging buffer holds its block at every point, fetched there or not: where it is not fetched
    its block index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Rg0

end
-- ==== Proof.KRg1.lean ====
/- Region 1 of @main: the second layer's dense map with the first layer's bias and rectifier fused into its load:
   one 2000-row block of the aggregated features, plus the whole bias row, clipped below at zero, times the whole
   128×128 weight matrix, per grid point. Stated at the buffer contents `V` the region is entered with: each
   window's block at a point, what the body leaves in the output block, the body's triple, the pipeline's proof data
   and the body obligation at every point. -/
import proofs.«429345_j86552180949235_1_alg».proof.Proof.Gen.Kernel.Launch
import proofs.«429345_j86552180949235_1_alg».proof.Proof.Gen.Kernel.Skeleton
import proofs.«429345_j86552180949235_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Rg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows 2000·t … 2000·t+1999 of the aggregated features (window 0) and of the
    result (window 3), the whole bias row (window 1) and weight matrix (window 2), read off the arrays as the region
    finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rA : Rect S2000x128 := Rect.unit (s := S2000x128) ![0, 0] S2000x128.size inb_S2000x128_S2000x128_0_0
abbrev rB : Rect S128 := Rect.unit (s := S128) ![0] S128.size inb_S128_S128_0
abbrev rW : Rect S128x128 := Rect.unit (s := S128x128) ![0, 0] S128x128.size inb_S128x128_S128x128_0_0

/-- The output block after the body: its one whole-block store of the product of the rectified, biased block and
    the weights. -/
def out1_3 (x0 : Vec F S2000x128 .f32) (x1 : Vec F S128 .f32) (x2 : Vec F S128x128 .f32) : Vec F S2000x128 .f32 :=
  View.canon [⟨rA, k1_pay1 (View.ld x0 rA) (View.ld x1 rB) (View.ld x2 rW)⟩]

/-- The one store covers the output block. -/
theorem cover1_3 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging buffers: the three inputs keep their contents, the output ends at `out1_3` of them. -/
theorem sound_kernel1 (c : Dev nD) (E : Set ℕ) (i : grid1.Coords)
    (arg1 : Memref sig .tc .vmem S2000x128 .f32) (harg1 : arg1.IsWhole) (arg2 : Memref sig .tc .vmem S128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fused_kernel i arg1 harg1 arg2 harg2 arg3 harg3 arg4 harg4) K := by
  simp only [cc1__fused_kernel_eq_skeleton]; unfold cc1__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's
    buffer still at its block and the output's at `out1_3` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- An input's current staging buffer holds its block at every point, fetched there or not: where it is not fetched
    its block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Rg1

end
-- ==== Proof.KRg2.lean ====
/- Region 2 of @main: the third layer's dense map with the second layer's bias and rectifier fused into its load:
   one 2000-row block of the aggregated features, plus the whole bias row, clipped below at zero, times the whole
   128×128 weight matrix, per grid point. Stated at the buffer contents `V` the region is entered with: each
   window's block at a point, what the body leaves in the output block, the body's triple, the pipeline's proof data
   and the body obligation at every point. -/
import proofs.«429345_j86552180949235_1_alg».proof.Proof.Gen.Kernel.Launch
import proofs.«429345_j86552180949235_1_alg».proof.Proof.Gen.Kernel.Skeleton
import proofs.«429345_j86552180949235_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Rg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows 2000·t … 2000·t+1999 of the aggregated features (window 0) and of the
    result (window 3), the whole bias row (window 1) and weight matrix (window 2), read off the arrays as the region
    finds them. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rA : Rect S2000x128 := Rect.unit (s := S2000x128) ![0, 0] S2000x128.size inb_S2000x128_S2000x128_0_0
abbrev rB : Rect S128 := Rect.unit (s := S128) ![0] S128.size inb_S128_S128_0
abbrev rW : Rect S128x128 := Rect.unit (s := S128x128) ![0, 0] S128x128.size inb_S128x128_S128x128_0_0

/-- The output block after the body: its one whole-block store of the product of the rectified, biased block and
    the weights. -/
def out2_3 (x0 : Vec F S2000x128 .f32) (x1 : Vec F S128 .f32) (x2 : Vec F S128x128 .f32) : Vec F S2000x128 .f32 :=
  View.canon [⟨rA, k2_pay1 (View.ld x0 rA) (View.ld x1 rB) (View.ld x2 rW)⟩]

/-- The one store covers the output block. -/
theorem cover2_3 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging buffers: the three inputs keep their contents, the output ends at `out2_3` of them. -/
theorem sound_kernel2 (c : Dev nD) (E : Set ℕ) (i : grid2.Coords)
    (arg1 : Memref sig .tc .vmem S2000x128 .f32) (harg1 : arg1.IsWhole) (arg2 : Memref sig .tc .vmem S128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__fused_kernel i arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body each input's
    buffer still at its block and the output's at `out2_3` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- An input's current staging buffer holds its block at every point, fetched there or not: where it is not fetched
    its block index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the kernel's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Rg2

end
-- ==== Proof.KRg3Defs.lean ====
import proofs.«429345_j86552180949235_1_alg».proof.Proof.Gen.Kernel.Launch
import proofs.«429345_j86552180949235_1_alg».proof.Proof.Gen.Kernel.Skeleton
import proofs.«429345_j86552180949235_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
# Region 3, the pooling kernel: the blocks and the two accumulators

The pure data of the region at the contents `V` it is entered with: each window's block at a grid point, the
128×128 sum and the 128×1 count after each point as a fold over the points, and what the last point stores into
the output window.
-/

set_option maxRecDepth 16384

noncomputable section

namespace Cert.Kernel.Rg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The grid point of position `n` (position 0 for a number that is no position). -/
def ptOf (n : ℕ) : Fin cfg3.N := if h : n < cfg3.N then ⟨n, h⟩ else ⟨0, by decide⟩

theorem ptOf_val (t : Fin cfg3.N) : ptOf t.val = t := by
  unfold ptOf; rw [dif_pos t.isLt]

/-! ## The two accumulators, point by point -/

/-- The 128×128 sum after point `n`: reset and added to at point 0, added to at every later point. -/
def poolS (c : Dev nD) : ℕ → Vec F S128x128 .f32
  | 0 => k3_pay4 (iblk3 V c 0 (ptOf 0)) (iblk3 V c 1 (ptOf 0)) (iblk3 V c 2 (ptOf 0)) k3_pay1
  | n + 1 => k3_pay4 (iblk3 V c 0 (ptOf (n + 1))) (iblk3 V c 1 (ptOf (n + 1))) (iblk3 V c 2 (ptOf (n + 1))) (poolS c n)

/-- The 128×1 count after point `n`. -/
def poolC (c : Dev nD) : ℕ → Vec F S128x1 .f32
  | 0 => k3_pay5 (iblk3 V c 2 (ptOf 0)) k3_pay2
  | n + 1 => k3_pay5 (iblk3 V c 2 (ptOf (n + 1))) (poolC c n)

/-- What the last point stores into the output window. -/
def outV (c : Dev nD) : Vec F S128x5 .f32 :=
  k3_pay6 (poolS V c 24) (poolC V c 24) (iblk3 V c 3 (ptOf 24)) (iblk3 V c 4 (ptOf 24))

end Cert.Kernel.Rg3

end
-- ==== Proof.KRg3Runs.lean ====
import proofs.«429345_j86552180949235_1_alg».proof.Proof.Gen.Kernel.Launch
import proofs.«429345_j86552180949235_1_alg».proof.Proof.Gen.Kernel.Skeleton
import proofs.«429345_j86552180949235_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
# Region 3, the pooling kernel: its body run whole, case by case

The body branches twice on the grid coordinate: it resets the two scratch accumulators at the first point and stores
the output window at the last. On a grid of 25 points that is three cases — first, middle, last — and in each the
body, handed whole staging memrefs at known contents, runs to a continuation holding the inputs as they were and
the accumulators (at the last point also the output window) at closed forms over the payloads.
-/

set_option maxRecDepth 16384

noncomputable section

namespace Cert.Kernel.Rg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The first branch's condition (reset the accumulators), from the grid coordinate. -/
abbrev isFirst (i : grid3.Coords) : Prop :=
  (Scalar.cmpi .ne (Scalar.extui (Scalar.cmpi .eq (BitVec.ofNat 32 (i 0).val) 0#32)) 0#32) = 1#1
/-- It holds at point 0 only: decided over the 25 points. -/
theorem isFirst_iff : ∀ t : Fin cfg3.N, isFirst (grid3.coords t) ↔ t.val = 0 :=
  (by decide +kernel : ∀ t : Fin grid3.N, isFirst (grid3.coords t) ↔ t.val = 0)

/-- The second branch's condition (store the output). -/
abbrev isLast (i : grid3.Coords) : Prop := k3_cond2 i = 1#1
/-- It holds at point 24 only. -/
theorem isLast_iff : ∀ t : Fin cfg3.N, isLast (grid3.coords t) ↔ t.val = 24 :=
  (by decide +kernel : ∀ t : Fin grid3.N, isLast (grid3.coords t) ↔ t.val = 24)

/-! ## Loads and stores through a buffer's full rectangle -/

theorem zeros1 : (![0] : Fin 1 → ℕ) = fun _ => 0 := by funext a; fin_cases a; rfl
theorem zeros2 : (![0, 0] : Fin 2 → ℕ) = fun _ => 0 := by funext a; fin_cases a <;> rfl

/-- A load of a whole memref through its full rectangle reads what the memref reads. -/
theorem readAt_full {sh : Shape} {e : EltTy} (m : Memref sig .tc .vmem sh e) (hm : m.IsWhole)
    {off : Fin sh.rank → ℕ} (hoff : off = fun _ => 0) (inb : ∀ a, off a + sh.size a ≤ sh.size a) (x : sh.Idx → Elt F e) :
    View.readAt (Elt F) m.view (Rect.unit off sh.size inb).toLoadRect (hm.unread x) = x := by
  show View.ld (m.view.read (Elt F) (hm.unread x)) (Rect.unit off sh.size inb) = x
  rw [hm.read_unread, View.ld_unit_zero hoff]

/-- After a store through the full rectangle, whatever was stored before, any view of the shape reads the payload. -/
theorem read_writes_full {sh : Shape} {e : EltTy} (v : View sig .tc .vmem sh e) (f : v.ty.Contents (Elt F))
    {off : Fin sh.rank → ℕ} (hoff : off = fun _ => 0) (inb : ∀ a, off a + sh.size a ≤ sh.size a) (w : sh.Idx → Elt F e)
    (L : List (View.Piece (Elt F) sh e)) :
    v.read (Elt F) (v.writes (Elt F) f (⟨Rect.unit off sh.size inb, w⟩ :: L)) = w := by
  rw [View.read_writes_eq_canon _ _ _ (fun y => ⟨_, List.mem_cons_self, View.mem_set_unit_zero hoff inb y⟩),
    View.canon_cons_unit_zero hoff]

/-! ## The body, run whole -/

set_option maxHeartbeats 1000000 in
/-- THE FIRST POINT: the reset branch taken, the output branch not. Whatever the two scratch memrefs held, they end at
    the accumulation payloads over the reset values; the three inputs read are handed back as they were. The other
    three windows' memrefs are not touched and do not appear. -/
theorem run_first (c : Dev nD) (i : grid3.Coords)
    (a1 : Memref sig .tc .vmem S2000x128 .f32) (h1 : a1.IsWhole) (a2 : Memref sig .tc .vmem S128 .f32) (h2 : a2.IsWhole)
    (a3 : Memref sig .tc .vmem S2000x128 .bf16) (h3 : a3.IsWhole) (a4 : Memref sig .tc .vmem S128x5 .f32) (h4 : a4.IsWhole)
    (a5 : Memref sig .tc .vmem S5 .f32) (h5 : a5.IsWhole) (a6 : Memref sig .tc .vmem S128x5 .f32) (h6 : a6.IsWhole)
    (s0 : Memref sig .tc .vmem S128x128 .f32) (hs0 : s0.IsWhole) (s1 : Memref sig .tc .vmem S128x1 .f32) (hs1 : s1.IsWhole)
    (hc0 : isFirst i) (hc2 : ¬isLast i)
    (x1 : Vec F S2000x128 .f32) (x2 : Vec F S128 .f32) (x3 : Vec F S2000x128 .bf16)
    (E : Set ℕ) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) s0 fullShare d) ∗ (∃ d, owns (c : Thread nD τ) s1 fullShare d)
        ∗ (iprop(owns (c : Thread nD τ) a1 fullShare x1 ∗ owns (c : Thread nD τ) a2 fullShare x2 ∗ owns (c : Thread nD τ) a3 fullShare x3
            ∗ owns (c : Thread nD τ) s0 fullShare (k3_pay4 x1 x2 x3 k3_pay1) ∗ owns (c : Thread nD τ) s1 fullShare (k3_pay5 x3 k3_pay2)) -∗ K ⟨⟩))
      ⊢ wp frame (wpE (defs₀ (F := F)) Variants.none c none) E (cc3__pool_kernel i a1 h1 a2 h2 a3 h3 a4 h4 a5 h5 a6 h6 s0 hs0 s1 hs1) K := by
  simp only [cc3__pool_kernel_eq_skeleton]; unfold cc3__pool_kernel_skel
  unfold owns
  iintro ⟨⟨%f1, %hf1, H1⟩, ⟨%f2, %hf2, H2⟩, ⟨%f3, %hf3, H3⟩, ⟨%d0, %g0, -, S0⟩, ⟨%d1, %g1, -, S1⟩, Hk⟩
  obtain rfl := h1.eq_unread hf1; obtain rfl := h2.eq_unread hf2; obtain rfl := h3.eq_unread hf3
  sl_exec (disch := first | exact hc0 | exact hc2)
  sl_step
  unfold run_first.sl.v14 run_first.sl.v21
  unfold run_first.sl.S0_1 run_first.sl.S1_1
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [S0]
  · iexists _; isplitr
    swap; · iexact S0
    ipureintro
    rw [read_writes_full _ _ zeros2, readAt_full a1 h1 zeros2, readAt_full a2 h2 zeros1, readAt_full a3 h3 zeros2,
      View.readCov_unit_zero s0.view zeros2]
  iexists _; isplitr
  swap; · iexact S1
  ipureintro
  rw [read_writes_full _ _ zeros2, readAt_full a3 h3 zeros2, View.readCov_unit_zero s1.view zeros2]

set_option maxHeartbeats 1000000 in
/-- A MIDDLE POINT: neither branch taken. The scratch memrefs, at what the point before left, end at the accumulation
    payloads over those contents. -/
theorem run_mid (c : Dev nD) (i : grid3.Coords)
    (a1 : Memref sig .tc .vmem S2000x128 .f32) (h1 : a1.IsWhole) (a2 : Memref sig .tc .vmem S128 .f32) (h2 : a2.IsWhole)
    (a3 : Memref sig .tc .vmem S2000x128 .bf16) (h3 : a3.IsWhole) (a4 : Memref sig .tc .vmem S128x5 .f32) (h4 : a4.IsWhole)
    (a5 : Memref sig .tc .vmem S5 .f32) (h5 : a5.IsWhole) (a6 : Memref sig .tc .vmem S128x5 .f32) (h6 : a6.IsWhole)
    (s0 : Memref sig .tc .vmem S128x128 .f32) (hs0 : s0.IsWhole) (s1 : Memref sig .tc .vmem S128x1 .f32) (hs1 : s1.IsWhole)
    (hc0 : ¬isFirst i) (hc2 : ¬isLast i)
    (x1 : Vec F S2000x128 .f32) (x2 : Vec F S128 .f32) (x3 : Vec F S2000x128 .bf16)
    (y0 : Vec F S128x128 .f32) (y1 : Vec F S128x1 .f32) (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) s0 fullShare y0 ∗ owns (c : Thread nD τ) s1 fullShare y1
        ∗ (iprop(owns (c : Thread nD τ) a1 fullShare x1 ∗ owns (c : Thread nD τ) a2 fullShare x2 ∗ owns (c : Thread nD τ) a3 fullShare x3
            ∗ owns (c : Thread nD τ) s0 fullShare (k3_pay4 x1 x2 x3 y0) ∗ owns (c : Thread nD τ) s1 fullShare (k3_pay5 x3 y1)) -∗ K ⟨⟩))
      ⊢ wp frame (wpE (defs₀ (F := F)) Variants.none c none) E (cc3__pool_kernel i a1 h1 a2 h2 a3 h3 a4 h4 a5 h5 a6 h6 s0 hs0 s1 hs1) K := by
  simp only [cc3__pool_kernel_eq_skeleton]; unfold cc3__pool_kernel_skel
  unfold owns
  iintro ⟨⟨%f1, %hf1, H1⟩, ⟨%f2, %hf2, H2⟩, ⟨%f3, %hf3, H3⟩, ⟨%g0, %hg0, S0⟩, ⟨%g1, %hg1, S1⟩, Hk⟩
  obtain rfl := h1.eq_unread hf1; obtain rfl := h2.eq_unread hf2; obtain rfl := h3.eq_unread hf3
  obtain rfl := hs0.eq_unread hg0; obtain rfl := hs1.eq_unread hg1
  sl_exec (disch := first | exact hc0 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [S0]
  · iexists _; isplitr
    swap; · iexact S0
    ipureintro
    rw [read_writes_full _ _ zeros2, readAt_full a1 h1 zeros2, readAt_full a2 h2 zeros1, readAt_full a3 h3 zeros2,
      readAt_full s0 hs0 zeros2]
  iexists _; isplitr
  swap; · iexact S1
  ipureintro
  rw [read_writes_full _ _ zeros2, readAt_full a3 h3 zeros2, readAt_full s1 hs1 zeros2]

set_option maxHeartbeats 1000000 in
/-- THE LAST POINT: the reset branch not taken, the output branch taken. The scratch memrefs end as at a middle point,
    and the output window's memref, whatever it held, ends at the output payload over those final accumulators and
    the two classifier windows. -/
theorem run_last (c : Dev nD) (i : grid3.Coords)
    (a1 : Memref sig .tc .vmem S2000x128 .f32) (h1 : a1.IsWhole) (a2 : Memref sig .tc .vmem S128 .f32) (h2 : a2.IsWhole)
    (a3 : Memref sig .tc .vmem S2000x128 .bf16) (h3 : a3.IsWhole) (a4 : Memref sig .tc .vmem S128x5 .f32) (h4 : a4.IsWhole)
    (a5 : Memref sig .tc .vmem S5 .f32) (h5 : a5.IsWhole) (a6 : Memref sig .tc .vmem S128x5 .f32) (h6 : a6.IsWhole)
    (s0 : Memref sig .tc .vmem S128x128 .f32) (hs0 : s0.IsWhole) (s1 : Memref sig .tc .vmem S128x1 .f32) (hs1 : s1.IsWhole)
    (hc0 : ¬isFirst i) (hc2 : isLast i)
    (x1 : Vec F S2000x128 .f32) (x2 : Vec F S128 .f32) (x3 : Vec F S2000x128 .bf16) (x4 : Vec F S128x5 .f32) (x5 : Vec F S5 .f32)
    (y0 : Vec F S128x128 .f32) (y1 : Vec F S128x1 .f32) (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ owns (c : Thread nD τ) s0 fullShare y0 ∗ owns (c : Thread nD τ) s1 fullShare y1
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (k3_pay6 (k3_pay4 x1 x2 x3 y0) (k3_pay5 x3 y1) x4 x5)
            ∗ owns (c : Thread nD τ) s0 fullShare (k3_pay4 x1 x2 x3 y0) ∗ owns (c : Thread nD τ) s1 fullShare (k3_pay5 x3 y1)) -∗ K ⟨⟩))
      ⊢ wp frame (wpE (defs₀ (F := F)) Variants.none c none) E (cc3__pool_kernel i a1 h1 a2 h2 a3 h3 a4 h4 a5 h5 a6 h6 s0 hs0 s1 hs1) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, S0⟩, ⟨%g1, %hg1, S1⟩, Hk⟩
  obtain rfl := h1.eq_unread hf1; obtain rfl := h2.eq_unread hf2; obtain rfl := h3.eq_unread hf3
  obtain rfl := h4.eq_unread hf4; obtain rfl := h5.eq_unread hf5
  obtain rfl := hs0.eq_unread hg0; obtain rfl := hs1.eq_unread hg1
  sl_exec (disch := first | exact hc0 | exact hc2)
  sl_step
  unfold run_last.sl.v30 run_last.sl.v31
  unfold run_last.sl.S0_1 run_last.sl.S1_1
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [read_writes_full _ _ zeros2, View.readCov_unit_zero s0.view zeros2, View.readCov_unit_zero s1.view zeros2,
      readAt_full a1 h1 zeros2, readAt_full a2 h2 zeros1, readAt_full a3 h3 zeros2, readAt_full a4 h4 zeros2,
      readAt_full a5 h5 zeros1, readAt_full s0 hs0 zeros2, readAt_full s1 hs1 zeros2]
  isplitl [S0]
  · iexists _; isplitr
    swap; · iexact S0
    ipureintro
    rw [read_writes_full _ _ zeros2, readAt_full a1 h1 zeros2, readAt_full a2 h2 zeros1, readAt_full a3 h3 zeros2,
      readAt_full s0 hs0 zeros2]
  iexists _; isplitr
  swap; · iexact S1
  ipureintro
  rw [read_writes_full _ _ zeros2, readAt_full a3 h3 zeros2, readAt_full s1 hs1 zeros2]

end Cert.Kernel.Rg3

end
-- ==== Proof.KRg3.lean ====
import proofs.«429345_j86552180949235_1_alg».proof.Proof.KRg3Defs
import proofs.«429345_j86552180949235_1_alg».proof.Proof.KRg3Runs
import Idealize.ShloMosaic.Lib.Pipeline.FrameBody
import Idealize.ShloMosaic.Lib.Pipeline.Value
import Idealize.ShloMosaic.Lib.Ring
import Idealize.ShloMosaic.Lib.Tactic

/-!
# Region 3: the pooling kernel

The fourth pallas_call of the program sweeps the 50000-row axis in 25 blocks of 2000 rows. Two scratch
accumulators are carried from one grid point to the next: a 128×128 sum (the one-hot block transposed against
the rectified, biased block of the aggregate) and a 128×1 count (the one-hot block transposed against ones).
Both are reset at the first point, added to at every point, and read at the last point, where the output
window is stored: the sum divided by the clamped count, against the classifier's weights, plus its bias.

This module gives the region's proof data at the contents `V` the region is entered with, the body's
obligation, the invariant's entry and exit, and the value the region leaves in its output array as a fold
over the 25 points.
-/

set_option maxRecDepth 16384

noncomputable section

namespace Cert.Kernel.Rg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch operands and the invariant -/

/-- The two scratch operands: whole scoped buffers of the kernel's own, passed beside the windows. -/
abbrev scM0 : Memref sig .tc .vmem S128x128 .f32 := Memref.whole cc3_scratch0
abbrev scM1 : Memref sig .tc .vmem S128x1 .f32 := Memref.whole cc3_scratch1

/-- The core's scoped buffers that are neither a staging buffer of this call nor one of its two scratch operands,
    at some contents each: carried unopened. -/
abbrev restBut (c : Dev nD) : sProp 𝕄 :=
  Pipeline.scopedRestBut (Ix := Unit) (Name := ℕ) (U := UR sig nD τ) (Lvl := ℕ) (Val := Elt F) spec3 c [cc3_scratch0, cc3_scratch1]

/-- The class's invariant with the two scratch operands split off as memrefs owned at some contents. -/
theorem PhiA_eq (c : Dev nD) : (Pipeline.ΦA spec3 c : sProp 𝕄)
    = iprop((((∃ d, owns (c : Thread nD τ) scM0 fullShare d) ∗ (∃ d, owns (c : Thread nD τ) scM1 fullShare d)) ∗ restBut c)
        ∗ (∃ r, prngReg c r)) := by
  unfold Pipeline.ΦA
  rw [Pipeline.scopedRest_split_of_list spec3 c [cc3_scratch0, cc3_scratch1] (by decide) (by decide)]
  simp only [scM0, scM1, owns_whole]; rfl

/-- The region invariant before position `n`: before the first point the class's (every scratch at anything);
    afterwards the two accumulators owned whole at what the points before left, the other scoped buffers at anything,
    the generator register at some state. -/
def PhiS (c : Dev nD) : ℕ → sProp 𝕄
  | 0 => Pipeline.ΦA spec3 c
  | n + 1 => iprop(owns (c : Thread nD τ) scM0 fullShare (poolS V c n) ∗ owns (c : Thread nD τ) scM1 fullShare (poolC V c n)
      ∗ restBut c ∗ (∃ r, prngReg c r))

theorem PhiS_of_zero (c : Dev nD) {n : ℕ} (h : n = 0) : PhiS V c n = Pipeline.ΦA spec3 c := by subst h; rfl

theorem PhiS_succ (c : Dev nD) (n : ℕ) :
    PhiS V c (n + 1) = iprop(owns (c : Thread nD τ) scM0 fullShare (poolS V c n) ∗ owns (c : Thread nD τ) scM1 fullShare (poolC V c n)
      ∗ restBut c ∗ (∃ r, prngReg c r)) := rfl

theorem PhiS_of_pos (c : Dev nD) {n : ℕ} (h : n ≠ 0) :
    PhiS V c n = iprop(owns (c : Thread nD τ) scM0 fullShare (poolS V c (n - 1)) ∗ owns (c : Thread nD τ) scM1 fullShare (poolC V c (n - 1))
      ∗ restBut c ∗ (∃ r, prngReg c r)) := by
  cases n with
  | zero => exact absurd rfl h
  | succ n => rfl

/-! ## The accumulators at a grid point -/

theorem poolS_first (c : Dev nD) (t : Fin cfg3.N) (h : t.val = 0) :
    poolS V c t.val = k3_pay4 (iblk3 V c 0 t) (iblk3 V c 1 t) (iblk3 V c 2 t) k3_pay1 := by
  have e : ptOf 0 = t := by have := ptOf_val t; rwa [h] at this
  rw [h]; show k3_pay4 (iblk3 V c 0 (ptOf 0)) (iblk3 V c 1 (ptOf 0)) (iblk3 V c 2 (ptOf 0)) k3_pay1 = _
  rw [e]

theorem poolC_first (c : Dev nD) (t : Fin cfg3.N) (h : t.val = 0) :
    poolC V c t.val = k3_pay5 (iblk3 V c 2 t) k3_pay2 := by
  have e : ptOf 0 = t := by have := ptOf_val t; rwa [h] at this
  rw [h]; show k3_pay5 (iblk3 V c 2 (ptOf 0)) k3_pay2 = _
  rw [e]

theorem poolS_next (c : Dev nD) (t : Fin cfg3.N) (h : t.val ≠ 0) :
    poolS V c t.val = k3_pay4 (iblk3 V c 0 t) (iblk3 V c 1 t) (iblk3 V c 2 t) (poolS V c (t.val - 1)) := by
  obtain ⟨n, hn⟩ := t
  cases n with
  | zero => exact absurd rfl h
  | succ n =>
    have e : ptOf (n + 1) = ⟨n + 1, hn⟩ := ptOf_val ⟨n + 1, hn⟩
    show k3_pay4 (iblk3 V c 0 (ptOf (n + 1))) (iblk3 V c 1 (ptOf (n + 1))) (iblk3 V c 2 (ptOf (n + 1))) (poolS V c n) = _
    rw [e]; rfl

theorem poolC_next (c : Dev nD) (t : Fin cfg3.N) (h : t.val ≠ 0) :
    poolC V c t.val = k3_pay5 (iblk3 V c 2 t) (poolC V c (t.val - 1)) := by
  obtain ⟨n, hn⟩ := t
  cases n with
  | zero => exact absurd rfl h
  | succ n =>
    have e : ptOf (n + 1) = ⟨n + 1, hn⟩ := ptOf_val ⟨n + 1, hn⟩
    show k3_pay5 (iblk3 V c 2 (ptOf (n + 1))) (poolC V c n) = _
    rw [e]; rfl

/-- What the last point stores, over what the point before it left in the accumulators. -/
theorem outV_last (c : Dev nD) (t : Fin cfg3.N) (h : t.val = 24) :
    outV V c = k3_pay6 (k3_pay4 (iblk3 V c 0 t) (iblk3 V c 1 t) (iblk3 V c 2 t) (poolS V c 23))
      (k3_pay5 (iblk3 V c 2 t) (poolC V c 23)) (iblk3 V c 3 t) (iblk3 V c 4 t) := by
  have e : ptOf 24 = t := by have := ptOf_val t; rwa [h] at this
  show k3_pay6 (k3_pay4 (iblk3 V c 0 (ptOf 24)) (iblk3 V c 1 (ptOf 24)) (iblk3 V c 2 (ptOf 24)) (poolS V c 23))
      (k3_pay5 (iblk3 V c 2 (ptOf 24)) (poolC V c 23)) (iblk3 V c 3 (ptOf 24)) (iblk3 V c 4 (ptOf 24)) = _
  rw [e]

/-! ## The proof data -/

/-- The proof data of the region on core `c`: the arrays as the region finds them; after the body at point `t` each
    input's buffer at its block and the output's at what the last point stores; the invariant `PhiS`; nothing owed;
    full shares. -/
def dat3 (c : Dev nD) : Pipeline.Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outV V c
  Φ t := PhiS V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

theorem Phi_castSucc (c : Dev nD) (t : Fin cfg3.N) : (dat3 V c).Φ t.castSucc = PhiS V c t.val := by
  dsimp only [dat3]; simp only [Fin.coe_castSucc]
theorem Phi_succ (c : Dev nD) (t : Fin cfg3.N) : (dat3 V c).Φ t.succ = PhiS V c (t.val + 1) := by
  dsimp only [dat3]; simp only [Fin.val_succ]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outV V c := by dsimp only [dat3]

/-! ## What the body finds in the input windows' buffers, and what it leaves -/

/-- Each input's current staging buffer holds its block at every point, fetched there or not: the body leaves the
    block in place, the windows are uncut and never idle. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)

/-- The output window is idle away from the last point, where the pipeline does not write it back either; at the last
    point it is live. Decided over the 25 points. -/
theorem idle5_of : ∀ t : Fin cfg3.N, ¬isLast (grid3.coords t) → cfg3.idle 5 (cfg3.grid.coords t) = true :=
  (by decide +kernel : ∀ t : Fin grid3.N, ¬isLast (grid3.coords t) → idle3 5 (grid3.coords t) = true)
theorem noFlush5_of : ∀ t : Fin cfg3.N, ¬isLast (grid3.coords t) → (cfg3.win 5).flush t = false :=
  (by decide +kernel : ∀ t : Fin grid3.N, ¬isLast (grid3.coords t) → win3_5.flush t = false)
theorem live5_of : ∀ t : Fin cfg3.N, isLast (grid3.coords t) → cfg3.idle 5 (cfg3.grid.coords t) = false :=
  (by decide +kernel : ∀ t : Fin grid3.N, isLast (grid3.coords t) → idle3 5 (grid3.coords t) = false)

/-- An input's buffer is left at its block. -/
theorem leaves3_0 (c : Dev nD) (t : Fin cfg3.N) :
    (dat3 V c).leavesExact 0 t = owns (c : Thread nD τ) (st3_0 t) fullShare (iblk3 V c 0 t) := by
  unfold Dat.leavesExact; rw [show cfg3.idle 0 (cfg3.grid.coords t) = false from rfl, after3_0]
theorem leaves3_1 (c : Dev nD) (t : Fin cfg3.N) :
    (dat3 V c).leavesExact 1 t = owns (c : Thread nD τ) (st3_1 t) fullShare (iblk3 V c 1 t) := by
  unfold Dat.leavesExact; rw [show cfg3.idle 1 (cfg3.grid.coords t) = false from rfl, after3_1]
theorem leaves3_2 (c : Dev nD) (t : Fin cfg3.N) :
    (dat3 V c).leavesExact 2 t = owns (c : Thread nD τ) (st3_2 t) fullShare (iblk3 V c 2 t) := by
  unfold Dat.leavesExact; rw [show cfg3.idle 2 (cfg3.grid.coords t) = false from rfl, after3_2]
theorem leaves3_3 (c : Dev nD) (t : Fin cfg3.N) :
    (dat3 V c).leavesExact 3 t = owns (c : Thread nD τ) (st3_3 t) fullShare (iblk3 V c 3 t) := by
  unfold Dat.leavesExact; rw [show cfg3.idle 3 (cfg3.grid.coords t) = false from rfl, after3_3]
theorem leaves3_4 (c : Dev nD) (t : Fin cfg3.N) :
    (dat3 V c).leavesExact 4 t = owns (c : Thread nD τ) (st3_4 t) fullShare (iblk3 V c 4 t) := by
  unfold Dat.leavesExact; rw [show cfg3.idle 4 (cfg3.grid.coords t) = false from rfl, after3_4]

/-- At the last point the output's buffer is left at what that point stores. -/
theorem leaves3_5 (c : Dev nD) (t : Fin cfg3.N) (h : isLast (grid3.coords t)) :
    (dat3 V c).leavesExact 5 t = owns (c : Thread nD τ) (st3_5 t) fullShare (outV V c) := by
  unfold Dat.leavesExact; rw [live5_of t h, after3_5]

/-! ## The body obligation, at a generic point -/

set_option maxHeartbeats 4000000 in
/-- The body at any point. The inputs' memrefs hold their blocks; the point's position says which of the three cases
    it is in, and that case's whole-body run applies. The invariant hands the body the two accumulators — at anything
    at the first point, at what the point before left otherwise — and takes them back at this point's contents; the
    other scoped buffers, the generator register and what the core owes pass through unread. Away from the last point
    the output window's memref is handed back as found; at the last point it is left at what that point stores. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t
        ∗ (dat3 V c).leavesExact 3 t ∗ (dat3 V c).leavesExact 4 t ∗ (dat3 V c).leavesExact 5 t)) := by
  unfold bodyAt3
  simp only [before3_0, before3_1, before3_2, before3_3, before3_4]
  rw [show (dat3 V c).owesAt () t.succ = (dat3 V c).owesAt () t.castSucc from rfl, Phi_castSucc, Phi_succ, PhiS_succ,
    leaves3_0, leaves3_1, leaves3_2, leaves3_3, leaves3_4]
  by_cases hz : t.val = 0
  · -- the first point
    have hF : isFirst (grid3.coords t) := (isFirst_iff t).mpr hz
    have hL : ¬isLast (grid3.coords t) := fun h => by have := (isLast_iff t).mp h; omega
    rw [Dat.leavesExact_idle (dat3 V c) 5 t (idle5_of t hL) (noFlush5_of t hL), PhiS_of_zero V c hz, PhiA_eq,
      poolS_first V c t hz, poolC_first V c t hz]
    iintro ⟨⟨⟨⟨S0, S1⟩, HR⟩, Hg⟩, Ho, ⟨%d0, H0⟩, ⟨%d1, H1⟩, ⟨%d2, H2⟩, ⟨%d3, H3⟩, ⟨%d4, H4⟩, H5⟩
    iapply (run_first c (grid3.coords t) _ _ _ _ _ _ _ _ _ _ _ _ _ _ _ _ hF hL (iblk3 V c 0 t) (iblk3 V c 1 t) (iblk3 V c 2 t) Set.univ _)
    isplitl [H0]; · iexact H0
    isplitl [H1]; · iexact H1
    isplitl [H2]; · iexact H2
    isplitl [S0]; · iexact S0
    isplitl [S1]; · iexact S1
    iintro ⟨H0, H1, H2, S0, S1⟩
    isplitl [S0 S1 HR Hg]
    · isplitl [S0]; · iexact S0
      isplitl [S1]; · iexact S1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases hl : t.val = 24
    · -- the last point
      have hF : ¬isFirst (grid3.coords t) := fun h => hz ((isFirst_iff t).mp h)
      have hL : isLast (grid3.coords t) := (isLast_iff t).mpr hl
      have h23 : t.val - 1 = 23 := by omega
      rw [leaves3_5 V c t hL, PhiS_of_pos V c hz, poolS_next V c t hz, poolC_next V c t hz, h23, outV_last V c t hl]
      iintro ⟨⟨S0, S1, HR, Hg⟩, Ho, ⟨%d0, H0⟩, ⟨%d1, H1⟩, ⟨%d2, H2⟩, ⟨%d3, H3⟩, ⟨%d4, H4⟩, ⟨%d5, H5⟩⟩
      iapply (run_last c (grid3.coords t) _ _ _ _ _ _ _ _ _ _ _ _ _ _ _ _ hF hL (iblk3 V c 0 t) (iblk3 V c 1 t) (iblk3 V c 2 t)
        (iblk3 V c 3 t) (iblk3 V c 4 t) (poolS V c 23) (poolC V c 23) Set.univ _)
      isplitl [H0]; · iexact H0
      isplitl [H1]; · iexact H1
      isplitl [H2]; · iexact H2
      isplitl [H3]; · iexact H3
      isplitl [H4]; · iexact H4
      isplitl [H5]; · iexists _; iexact H5
      isplitl [S0]; · iexact S0
      isplitl [S1]; · iexact S1
      iintro ⟨H0, H1, H2, H3, H4, H5, S0, S1⟩
      isplitl [S0 S1 HR Hg]
      · isplitl [S0]; · iexact S0
        isplitl [S1]; · iexact S1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hF : ¬isFirst (grid3.coords t) := fun h => hz ((isFirst_iff t).mp h)
      have hL : ¬isLast (grid3.coords t) := fun h => hl ((isLast_iff t).mp h)
      rw [Dat.leavesExact_idle (dat3 V c) 5 t (idle5_of t hL) (noFlush5_of t hL), PhiS_of_pos V c hz,
        poolS_next V c t hz, poolC_next V c t hz]
      iintro ⟨⟨S0, S1, HR, Hg⟩, Ho, ⟨%d0, H0⟩, ⟨%d1, H1⟩, ⟨%d2, H2⟩, ⟨%d3, H3⟩, ⟨%d4, H4⟩, H5⟩
      iapply (run_mid c (grid3.coords t) _ _ _ _ _ _ _ _ _ _ _ _ _ _ _ _ hF hL (iblk3 V c 0 t) (iblk3 V c 1 t) (iblk3 V c 2 t)
        (poolS V c (t.val - 1)) (poolC V c (t.val - 1)) Set.univ _)
      isplitl [H0]; · iexact H0
      isplitl [H1]; · iexact H1
      isplitl [H2]; · iexact H2
      isplitl [S0]; · iexact S0
      isplitl [S1]; · iexact S1
      iintro ⟨H0, H1, H2, S0, S1⟩
      isplitl [S0 S1 HR Hg]
      · isplitl [S0]; · iexact S0
        isplitl [S1]; · iexact S1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the invariant -/

/-- What the launch hands the region is the invariant before the first point. -/
theorem hin3 (c : Dev nD) : Pipeline.ΦA spec3 c ⊢ (dat3 V c).Φ 0 := by
  have h : (dat3 V c).Φ 0 = Pipeline.ΦA spec3 c := rfl
  rw [h]; first | done | exact .rfl

/-- After the last point the invariant gives the class's back: the accumulators' named contents are forgotten. -/
theorem hout3 (c : Dev nD) : (dat3 V c).Φ (Fin.last cfg3.N) ⊢ Pipeline.ΦA spec3 c := by
  rw [show (dat3 V c).Φ (Fin.last cfg3.N) = PhiS V c (24 + 1) from rfl, PhiS_succ, PhiA_eq]
  iintro ⟨S0, S1, HR, Hg⟩
  isplitl [S0 S1 HR]
  · isplitl [S0 S1]
    · isplitl [S0]
      · iexists _; iexact S0
      iexists _; iexact S1
    iexact HR
  iexact Hg

/-! ## The value the region leaves in its output array -/

/-- The last grid point: the one point that writes the output window back. -/
abbrev tLast : Fin cfg3.N := ⟨24, by decide⟩

/-- What a flushing point writes back is its block of `outV`: the only such point is the last, and the output
    window's one block there is the whole array. -/
theorem flushed5_eq (c : Dev nD) (t : Fin cfg3.N) (hf : (cfg3.win 5).flush t = true) :
    (dat3 V c).flushed 5 t = ((cfg3.win 5).blk t).view.read (Elt F) (outV V c) := by
  have h24 : t.val = 24 := by have := (flush3_5 t).mp hf; have := t.isLt; have hN : cfg3.N = 25 := N_3; omega
  obtain rfl : t = tLast := Fin.ext h24
  show (cfg3.win 5).cut (grid3.coords tLast) ((dat3 V c).after 5 tLast) = _
  rw [after3_5]
  have hz : (fun a => win3_5.index tLast a * main_v81.ty.shape.size a) = fun _ => 0 :=
    funext fun a => by fin_cases a <;> decide +kernel
  exact (Memref.read_access_unit_zero (Elt F) main_v81 hz (fun a => by rw [congrFun hz a]; simp) (outV V c)).symm

/-- THE VALUE: after the region the output array holds what the last point stored — the 128×128 sum over the 25 row
    blocks divided by the clamped count, against the classifier's weights, plus its bias. -/
theorem region3_value (c : Dev nD) : (dat3 V c).arrAt 5 cfg3.N = outV V c :=
  (dat3 V c).arrAt_eq_of_cover 5 (outV V c) (flushed5_eq V c) fun i =>
    ⟨tLast, (flush3_5 tLast).mpr rfl, by
      show i ∈ ((View.whole main_v81).slice (win3_5.rect tLast)).set
      rw [View.set_slice_whole, Rect.mem_set_unit]
      intro a
      have hi : (i a : ℕ) < main_v81.ty.shape.size a := (i a).isLt
      have h0 : win3_5.index tLast a * win3_5.size a = 0 := by fin_cases a <;> decide +kernel
      have hs : win3_5.xsize (grid3.coords tLast) a = main_v81.ty.shape.size a := by fin_cases a <;> decide +kernel
      show win3_5.index tLast a * win3_5.size a ≤ (i a : ℕ)
        ∧ (i a : ℕ) < win3_5.index tLast a * win3_5.size a + win3_5.xsize (grid3.coords tLast) a
      rw [h0, hs]; omega⟩

end Cert.Kernel.Rg3

end
-- ==== Proof.KRunData.lean ====
/- @main of the program as four kernel regions among stretches of host operations, first part: what each region
   leaves in its output array, defined region after region, and the four pipelines' proof data, each at its region's
   entry contents. -/
import proofs.«429345_j86552180949235_1_alg».proof.Proof.Gen.Kernel.Regions
import proofs.«429345_j86552180949235_1_alg».proof.Proof.KRg0
import proofs.«429345_j86552180949235_1_alg».proof.Proof.KRg1
import proofs.«429345_j86552180949235_1_alg».proof.Proof.KRg2
import proofs.«429345_j86552180949235_1_alg».proof.Proof.KRg3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves in its output array, one region after the other

Region 0 is entered with the buffers as the host operations before it leave them; what it leaves in its output array
is the fold of its write-backs. The next stretch of host operations runs from there, region 1 is entered with what that
stretch leaves, and so on: four definitions, each over the one before. -/

/-- A buffer-contents function read at the TensorCore's references: the form a region's proof data take. -/
abbrev atTc (W : Dev nD → Valuation τ sig (Elt F)) : (c : Dev nD) → (b : Ref sig .tc) → Buf (Elt F) ((c : Thread nD τ).loc b) :=
  fun c b => W c b

/-- What region 0 leaves in its output array. -/
def o4 (c : Dev nD) : Buf (Elt F) ((c : Thread nD τ).loc main_v32) :=
  (Rg0.dat0 (atTc (V3 m)) c).arrAt 2 cfg0.N
/-- The regions' outputs so far: region 0's. -/
def outs4 : Outs (F := F) := fun _ r c => if h : r = main_v32 then h ▸ o4 m c else m ((c : Thread nD τ).loc r)
/-- What region 1 leaves in its output array. -/
def o6 (c : Dev nD) : Buf (Elt F) ((c : Thread nD τ).loc main_v46) :=
  (Rg1.dat1 (atTc (V5 m (outs4 m))) c).arrAt 3 cfg1.N
/-- The regions' outputs so far: regions 0 and 1. -/
def outs6 : Outs (F := F) := fun J r c => if h : r = main_v46 then h ▸ o6 m c else outs4 m J r c
/-- What region 2 leaves in its output array. -/
def o8 (c : Dev nD) : Buf (Elt F) ((c : Thread nD τ).loc main_v60) :=
  (Rg2.dat2 (atTc (V7 m (outs6 m))) c).arrAt 3 cfg2.N
/-- The regions' outputs so far: regions 0, 1 and 2. -/
def outs8 : Outs (F := F) := fun J r c => if h : r = main_v60 then h ▸ o8 m c else outs6 m J r c
/-- What region 3 leaves in its output array: the program's result. -/
def o10 (c : Dev nD) : Buf (Elt F) ((c : Thread nD τ).loc main_v81) :=
  (Rg3.dat3 (atTc (V9 m (outs8 m))) c).arrAt 5 cfg3.N
/-- All four regions' outputs. -/
def outs : Outs (F := F) := fun J r c => if h : r = main_v81 then h ▸ o10 m c else outs8 m J r c

theorem outs4_v32 (J : ℕ) (c : Dev nD) : outs4 m J main_v32 c = o4 m c := by unfold outs4; rw [dif_pos rfl]
theorem outs6_v32 (J : ℕ) (c : Dev nD) : outs6 m J main_v32 c = o4 m c := by
  unfold outs6; rw [dif_neg (by decide)]; exact outs4_v32 m J c
theorem outs6_v46 (J : ℕ) (c : Dev nD) : outs6 m J main_v46 c = o6 m c := by unfold outs6; rw [dif_pos rfl]
theorem outs8_v32 (J : ℕ) (c : Dev nD) : outs8 m J main_v32 c = o4 m c := by
  unfold outs8; rw [dif_neg (by decide)]; exact outs6_v32 m J c
theorem outs8_v46 (J : ℕ) (c : Dev nD) : outs8 m J main_v46 c = o6 m c := by
  unfold outs8; rw [dif_neg (by decide)]; exact outs6_v46 m J c
theorem outs8_v60 (J : ℕ) (c : Dev nD) : outs8 m J main_v60 c = o8 m c := by unfold outs8; rw [dif_pos rfl]
theorem outs_v32 (J : ℕ) (c : Dev nD) : outs m J main_v32 c = o4 m c := by
  unfold outs; rw [dif_neg (by decide)]; exact outs8_v32 m J c
theorem outs_v46 (J : ℕ) (c : Dev nD) : outs m J main_v46 c = o6 m c := by
  unfold outs; rw [dif_neg (by decide)]; exact outs8_v46 m J c
theorem outs_v60 (J : ℕ) (c : Dev nD) : outs m J main_v60 c = o8 m c := by
  unfold outs; rw [dif_neg (by decide)]; exact outs8_v60 m J c
theorem outs_v81 (J : ℕ) (c : Dev nD) : outs m J main_v81 c = o10 m c := by unfold outs; rw [dif_pos rfl]

/-! The buffer contents between two items depend on the regions' outputs only at the outputs of the regions already
    run: two output families that agree there give the same contents. -/

theorem V4_congr (o o' : Outs (F := F)) (c : Dev nD) (h4 : o 4 main_v32 c = o' 4 main_v32 c) : V4 m o c = V4 m o' c := by
  show Function.update (V3 m c) main_v32 (o 4 main_v32 c) = Function.update (V3 m c) main_v32 (o' 4 main_v32 c)
  rw [h4]
theorem V5_congr (o o' : Outs (F := F)) (c : Dev nD) (h4 : o 4 main_v32 c = o' 4 main_v32 c) : V5 m o c = V5 m o' c := by
  show StableHlo.after hostOps1 (V4 m o c) = StableHlo.after hostOps1 (V4 m o' c)
  rw [V4_congr m o o' c h4]
theorem V6_congr (o o' : Outs (F := F)) (c : Dev nD) (h4 : o 4 main_v32 c = o' 4 main_v32 c) (h6 : o 6 main_v46 c = o' 6 main_v46 c) :
    V6 m o c = V6 m o' c := by
  show Function.update (V5 m o c) main_v46 (o 6 main_v46 c) = Function.update (V5 m o' c) main_v46 (o' 6 main_v46 c)
  rw [V5_congr m o o' c h4, h6]
theorem V7_congr (o o' : Outs (F := F)) (c : Dev nD) (h4 : o 4 main_v32 c = o' 4 main_v32 c) (h6 : o 6 main_v46 c = o' 6 main_v46 c) :
    V7 m o c = V7 m o' c := by
  show StableHlo.after hostOps2 (V6 m o c) = StableHlo.after hostOps2 (V6 m o' c)
  rw [V6_congr m o o' c h4 h6]
theorem V8_congr (o o' : Outs (F := F)) (c : Dev nD) (h4 : o 4 main_v32 c = o' 4 main_v32 c) (h6 : o 6 main_v46 c = o' 6 main_v46 c)
    (h8 : o 8 main_v60 c = o' 8 main_v60 c) : V8 m o c = V8 m o' c := by
  show Function.update (V7 m o c) main_v60 (o 8 main_v60 c) = Function.update (V7 m o' c) main_v60 (o' 8 main_v60 c)
  rw [V7_congr m o o' c h4 h6, h8]
theorem V9_congr (o o' : Outs (F := F)) (c : Dev nD) (h4 : o 4 main_v32 c = o' 4 main_v32 c) (h6 : o 6 main_v46 c = o' 6 main_v46 c)
    (h8 : o 8 main_v60 c = o' 8 main_v60 c) : V9 m o c = V9 m o' c := by
  show StableHlo.after hostOps3 (V8 m o c) = StableHlo.after hostOps3 (V8 m o' c)
  rw [V8_congr m o o' c h4 h6 h8]

theorem V5_outs (c : Dev nD) : V5 m (outs m) c = V5 m (outs4 m) c :=
  V5_congr m _ _ c ((outs_v32 m 4 c).trans (outs4_v32 m 4 c).symm)
theorem V7_outs (c : Dev nD) : V7 m (outs m) c = V7 m (outs6 m) c :=
  V7_congr m _ _ c ((outs_v32 m 4 c).trans (outs6_v32 m 4 c).symm) ((outs_v46 m 6 c).trans (outs6_v46 m 6 c).symm)
theorem V9_outs (c : Dev nD) : V9 m (outs m) c = V9 m (outs8 m) c :=
  V9_congr m _ _ c ((outs_v32 m 4 c).trans (outs8_v32 m 4 c).symm) ((outs_v46 m 6 c).trans (outs8_v46 m 6 c).symm)
    ((outs_v60 m 8 c).trans (outs8_v60 m 8 c).symm)

/-! ## The proof data of the four pipelines, each at its region's entry contents -/

/-- A literal match, so that the pipeline at a numeral reduces to the printed configuration. -/
def pdats : (p : Fin 4) → (c : Dev nD) → Dat τ (Elt F) Unit ℕ (UR sig nD τ) ℕ (cfgs p) c
  | ⟨0, _⟩ => fun c => Rg0.dat0 (atTc (V3 m)) c
  | ⟨1, _⟩ => fun c => Rg1.dat1 (atTc (V5 m (outs4 m))) c
  | ⟨2, _⟩ => fun c => Rg2.dat2 (atTc (V7 m (outs6 m))) c
  | ⟨3, _⟩ => fun c => Rg3.dat3 (atTc (V9 m (outs8 m))) c

/-- Each pipeline's arrays are its region's entry contents, stated over the one family of all four outputs. -/
theorem hA0 (c : Dev nD) (w : Fin cfg0.W) : (pdats m 0 c).A w = atTc (V3 m) c (Pipeline.arrRef spec0 w) :=
  Rg0.A_eq0 (atTc (V3 m)) c w
theorem hA1 (c : Dev nD) (w : Fin cfg1.W) : (pdats m 1 c).A w = atTc (V5 m (outs m)) c (Pipeline.arrRef spec1 w) :=
  (Rg1.A_eq1 (atTc (V5 m (outs4 m))) c w).trans (congrFun (V5_outs m c).symm _)
theorem hA2 (c : Dev nD) (w : Fin cfg2.W) : (pdats m 2 c).A w = atTc (V7 m (outs m)) c (Pipeline.arrRef spec2 w) :=
  (Rg2.A_eq2 (atTc (V7 m (outs6 m))) c w).trans (congrFun (V7_outs m c).symm _)
theorem hA3 (c : Dev nD) (w : Fin cfg3.W) : (pdats m 3 c).A w = atTc (V9 m (outs m)) c (Pipeline.arrRef spec3 w) :=
  (Rg3.A_eq3 (atTc (V9 m (outs8 m))) c w).trans (congrFun (V9_outs m c).symm _)

end Cert.Kernel.Run

end
-- ==== Proof.KRun.lean ====
/- @main of the program as four kernel regions among stretches of host operations, second part: the buffers at each
   region's exit, the regions as segments of the run, and the frame. -/
import proofs.«429345_j86552180949235_1_alg».proof.Proof.KRunData
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers at a region's exit

At a region's exit each of its arrays holds what the pipeline leaves — an input what it held at entry, the output the
fold of its write-backs — and every other buffer what it held at entry. -/

theorem exit0_0 (c : Dev nD) : (pdats m 0 c).arrAt 0 cfg0.N = V4 m (outs m) c main_arg0 :=
  calc (pdats m 0 c).arrAt 0 cfg0.N = (pdats m 0 c).A 0 := (pdats m 0 c).arrAt_in 0 rfl _
    _ = V3 m c main_arg0 := hA0 m c 0
    _ = V4 m (outs m) c main_arg0 := (V4_of m (outs m) c main_arg0 (by decide)).symm
theorem exit0_1 (c : Dev nD) : (pdats m 0 c).arrAt 1 cfg0.N = V4 m (outs m) c main_arg3 :=
  calc (pdats m 0 c).arrAt 1 cfg0.N = (pdats m 0 c).A 1 := (pdats m 0 c).arrAt_in 1 rfl _
    _ = V3 m c main_arg3 := hA0 m c 1
    _ = V4 m (outs m) c main_arg3 := (V4_of m (outs m) c main_arg3 (by decide)).symm
theorem exit0_2 (c : Dev nD) : (pdats m 0 c).arrAt 2 cfg0.N = V4 m (outs m) c main_v32 := by
  show o4 m c = Function.update (V3 m c) (Proc.devRef .tc main_v32) (outs m 4 main_v32 c) (Proc.devRef .tc main_v32)
  rw [Function.update_self, outs_v32]

theorem hF0 (c : Dev nD) : ∀ w : Fin cfg0.W, (pdats m 0 c).arrAt w cfg0.N = atTc (V4 m (outs m)) c (Pipeline.arrRef spec0 w)
  | ⟨0, _⟩ => exit0_0 m c
  | ⟨1, _⟩ => exit0_1 m c
  | ⟨2, _⟩ => exit0_2 m c
theorem hrest0 (c : Dev nD) : ∀ b, b ∉ Finset.univ.image (Pipeline.arrRef spec0) → atTc (V4 m (outs m)) c b = atTc (V3 m) c b :=
  fun b hb => V4_of m (outs m) c b fun h => hb (Finset.mem_image.mpr ⟨2, Finset.mem_univ _, (List.mem_singleton.mp h).symm⟩)

theorem exit1_0 (c : Dev nD) : (pdats m 1 c).arrAt 0 cfg1.N = V6 m (outs m) c main_v45 :=
  calc (pdats m 1 c).arrAt 0 cfg1.N = (pdats m 1 c).A 0 := (pdats m 1 c).arrAt_in 0 rfl _
    _ = V5 m (outs m) c main_v45 := hA1 m c 0
    _ = V6 m (outs m) c main_v45 := (V6_of m (outs m) c main_v45 (by decide)).symm
theorem exit1_1 (c : Dev nD) : (pdats m 1 c).arrAt 1 cfg1.N = V6 m (outs m) c main_arg4 :=
  calc (pdats m 1 c).arrAt 1 cfg1.N = (pdats m 1 c).A 1 := (pdats m 1 c).arrAt_in 1 rfl _
    _ = V5 m (outs m) c main_arg4 := hA1 m c 1
    _ = V6 m (outs m) c main_arg4 := (V6_of m (outs m) c main_arg4 (by decide)).symm
theorem exit1_2 (c : Dev nD) : (pdats m 1 c).arrAt 2 cfg1.N = V6 m (outs m) c main_arg5 :=
  calc (pdats m 1 c).arrAt 2 cfg1.N = (pdats m 1 c).A 2 := (pdats m 1 c).arrAt_in 2 rfl _
    _ = V5 m (outs m) c main_arg5 := hA1 m c 2
    _ = V6 m (outs m) c main_arg5 := (V6_of m (outs m) c main_arg5 (by decide)).symm
theorem exit1_3 (c : Dev nD) : (pdats m 1 c).arrAt 3 cfg1.N = V6 m (outs m) c main_v46 := by
  show o6 m c = Function.update (V5 m (outs m) c) (Proc.devRef .tc main_v46) (outs m 6 main_v46 c) (Proc.devRef .tc main_v46)
  rw [Function.update_self, outs_v46]

theorem hF1 (c : Dev nD) : ∀ w : Fin cfg1.W, (pdats m 1 c).arrAt w cfg1.N = atTc (V6 m (outs m)) c (Pipeline.arrRef spec1 w)
  | ⟨0, _⟩ => exit1_0 m c
  | ⟨1, _⟩ => exit1_1 m c
  | ⟨2, _⟩ => exit1_2 m c
  | ⟨3, _⟩ => exit1_3 m c
theorem hrest1 (c : Dev nD) : ∀ b, b ∉ Finset.univ.image (Pipeline.arrRef spec1) → atTc (V6 m (outs m)) c b = atTc (V5 m (outs m)) c b :=
  fun b hb => V6_of m (outs m) c b fun h => hb (Finset.mem_image.mpr ⟨3, Finset.mem_univ _, (List.mem_singleton.mp h).symm⟩)

theorem exit2_0 (c : Dev nD) : (pdats m 2 c).arrAt 0 cfg2.N = V8 m (outs m) c main_v59 :=
  calc (pdats m 2 c).arrAt 0 cfg2.N = (pdats m 2 c).A 0 := (pdats m 2 c).arrAt_in 0 rfl _
    _ = V7 m (outs m) c main_v59 := hA2 m c 0
    _ = V8 m (outs m) c main_v59 := (V8_of m (outs m) c main_v59 (by decide)).symm
theorem exit2_1 (c : Dev nD) : (pdats m 2 c).arrAt 1 cfg2.N = V8 m (outs m) c main_arg6 :=
  calc (pdats m 2 c).arrAt 1 cfg2.N = (pdats m 2 c).A 1 := (pdats m 2 c).arrAt_in 1 rfl _
    _ = V7 m (outs m) c main_arg6 := hA2 m c 1
    _ = V8 m (outs m) c main_arg6 := (V8_of m (outs m) c main_arg6 (by decide)).symm
theorem exit2_2 (c : Dev nD) : (pdats m 2 c).arrAt 2 cfg2.N = V8 m (outs m) c main_arg7 :=
  calc (pdats m 2 c).arrAt 2 cfg2.N = (pdats m 2 c).A 2 := (pdats m 2 c).arrAt_in 2 rfl _
    _ = V7 m (outs m) c main_arg7 := hA2 m c 2
    _ = V8 m (outs m) c main_arg7 := (V8_of m (outs m) c main_arg7 (by decide)).symm
theorem exit2_3 (c : Dev nD) : (pdats m 2 c).arrAt 3 cfg2.N = V8 m (outs m) c main_v60 := by
  show o8 m c = Function.update (V7 m (outs m) c) (Proc.devRef .tc main_v60) (outs m 8 main_v60 c) (Proc.devRef .tc main_v60)
  rw [Function.update_self, outs_v60]

theorem hF2 (c : Dev nD) : ∀ w : Fin cfg2.W, (pdats m 2 c).arrAt w cfg2.N = atTc (V8 m (outs m)) c (Pipeline.arrRef spec2 w)
  | ⟨0, _⟩ => exit2_0 m c
  | ⟨1, _⟩ => exit2_1 m c
  | ⟨2, _⟩ => exit2_2 m c
  | ⟨3, _⟩ => exit2_3 m c
theorem hrest2 (c : Dev nD) : ∀ b, b ∉ Finset.univ.image (Pipeline.arrRef spec2) → atTc (V8 m (outs m)) c b = atTc (V7 m (outs m)) c b :=
  fun b hb => V8_of m (outs m) c b fun h => hb (Finset.mem_image.mpr ⟨3, Finset.mem_univ _, (List.mem_singleton.mp h).symm⟩)

theorem exit3_0 (c : Dev nD) : (pdats m 3 c).arrAt 0 cfg3.N = V10 m (outs m) c main_v73 :=
  calc (pdats m 3 c).arrAt 0 cfg3.N = (pdats m 3 c).A 0 := (pdats m 3 c).arrAt_in 0 rfl _
    _ = V9 m (outs m) c main_v73 := hA3 m c 0
    _ = V10 m (outs m) c main_v73 := (V10_of m (outs m) c main_v73 (by decide)).symm
theorem exit3_1 (c : Dev nD) : (pdats m 3 c).arrAt 1 cfg3.N = V10 m (outs m) c main_arg8 :=
  calc (pdats m 3 c).arrAt 1 cfg3.N = (pdats m 3 c).A 1 := (pdats m 3 c).arrAt_in 1 rfl _
    _ = V9 m (outs m) c main_arg8 := hA3 m c 1
    _ = V10 m (outs m) c main_arg8 := (V10_of m (outs m) c main_arg8 (by decide)).symm
theorem exit3_2 (c : Dev nD) : (pdats m 3 c).arrAt 2 cfg3.N = V10 m (outs m) c main_v80 :=
  calc (pdats m 3 c).arrAt 2 cfg3.N = (pdats m 3 c).A 2 := (pdats m 3 c).arrAt_in 2 rfl _
    _ = V9 m (outs m) c main_v80 := hA3 m c 2
    _ = V10 m (outs m) c main_v80 := (V10_of m (outs m) c main_v80 (by decide)).symm
theorem exit3_3 (c : Dev nD) : (pdats m 3 c).arrAt 3 cfg3.N = V10 m (outs m) c main_arg9 :=
  calc (pdats m 3 c).arrAt 3 cfg3.N = (pdats m 3 c).A 3 := (pdats m 3 c).arrAt_in 3 rfl _
    _ = V9 m (outs m) c main_arg9 := hA3 m c 3
    _ = V10 m (outs m) c main_arg9 := (V10_of m (outs m) c main_arg9 (by decide)).symm
theorem exit3_4 (c : Dev nD) : (pdats m 3 c).arrAt 4 cfg3.N = V10 m (outs m) c main_arg10 :=
  calc (pdats m 3 c).arrAt 4 cfg3.N = (pdats m 3 c).A 4 := (pdats m 3 c).arrAt_in 4 rfl _
    _ = V9 m (outs m) c main_arg10 := hA3 m c 4
    _ = V10 m (outs m) c main_arg10 := (V10_of m (outs m) c main_arg10 (by decide)).symm
theorem exit3_5 (c : Dev nD) : (pdats m 3 c).arrAt 5 cfg3.N = V10 m (outs m) c main_v81 := by
  show o10 m c = Function.update (V9 m (outs m) c) (Proc.devRef .tc main_v81) (outs m 10 main_v81 c) (Proc.devRef .tc main_v81)
  rw [Function.update_self, outs_v81]

theorem hF3 (c : Dev nD) : ∀ w : Fin cfg3.W, (pdats m 3 c).arrAt w cfg3.N = atTc (V10 m (outs m)) c (Pipeline.arrRef spec3 w)
  | ⟨0, _⟩ => exit3_0 m c
  | ⟨1, _⟩ => exit3_1 m c
  | ⟨2, _⟩ => exit3_2 m c
  | ⟨3, _⟩ => exit3_3 m c
  | ⟨4, _⟩ => exit3_4 m c
  | ⟨5, _⟩ => exit3_5 m c
theorem hrest3 (c : Dev nD) : ∀ b, b ∉ Finset.univ.image (Pipeline.arrRef spec3) → atTc (V10 m (outs m)) c b = atTc (V9 m (outs m)) c b :=
  fun b hb => V10_of m (outs m) c b fun h => hb (Finset.mem_image.mpr ⟨5, Finset.mem_univ _, (List.mem_singleton.mp h).symm⟩)

/-! ## The regions as segments of the run -/

/-- No core owes another anything: no level is assigned. -/
abbrev Lnone : GSem nD τ sig → Finset Unit := fun _ => ∅
abbrev lvnone : GSem nD τ sig → Unit → ℕ := fun _ _ => 0
/-- What rides beside the buffers through every item: the core's generator register at some state and what the core
    owes, which is nothing. -/
abbrev Rr (c : Dev nD) : sProp 𝕄 := iprop((∃ r, prngReg c r) ∗ ∃ W, owes (c : Thread nD τ) (0 : CellTallies nD τ sig Unit) W)

-- a library lemma stated over the pinned configuration unifies only when unification may unfold plain definitions in
-- a metavariable's type
set_option backward.isDefEq.respectTransparency.types false in
/-- Region 0 (the first layer's dense map) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg0 : Pipeline.RegionSeg (pcfgs (F := F)) adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (Rg0.body_obligation0 (atTc (V3 m)) c).loose
  hwaits := Pipeline.hwaits_of_owed_zero _ _ _ _ Lnone lvnone 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V3 m) c) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V3 m) c) (atTc (V4 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in
-- a metavariable's type
set_option backward.isDefEq.respectTransparency.types false in
/-- Region 1 (the second layer's dense map over the first's bias and rectifier) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg1 : Pipeline.RegionSeg (pcfgs (F := F)) adm (pdats m) () defs₀ Variants.none Lnone lvnone 1 where
  win := launch1.win.to₀
  block_pos := launch1.block_pos
  stage_whole := launch1.stage_whole
  K := PEmpty
  osem k := k.elim
  ho := Pipeline.OwnSemFacts.none _
  hbody c := (Rg1.body_obligation1 (atTc (V5 m (outs4 m))) c).loose
  hwaits := Pipeline.hwaits_of_owed_zero _ _ _ _ Lnone lvnone 1 fun _ _ => rfl
  pre c := iprop(StableHlo.held (c : Thread nD τ) (Pipeline.ucRefs τ sig) (V5 m (outs m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (atTc (V5 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V5 m (outs m)) c) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V5 m (outs m)) c) (atTc (V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in
-- a metavariable's type
set_option backward.isDefEq.respectTransparency.types false in
/-- Region 2 (the third layer's dense map over the second's bias and rectifier) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg2 : Pipeline.RegionSeg (pcfgs (F := F)) adm (pdats m) () defs₀ Variants.none Lnone lvnone 2 where
  win := launch2.win.to₀
  block_pos := launch2.block_pos
  stage_whole := launch2.stage_whole
  K := PEmpty
  osem k := k.elim
  ho := Pipeline.OwnSemFacts.none _
  hbody c := (Rg2.body_obligation2 (atTc (V7 m (outs6 m))) c).loose
  hwaits := Pipeline.hwaits_of_owed_zero _ _ _ _ Lnone lvnone 2 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (atTc (V7 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V7 m (outs m)) c) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V7 m (outs m)) c) (atTc (V8 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in
-- a metavariable's type
set_option backward.isDefEq.respectTransparency.types false in
/-- Region 3 (the pooling and the classifier; its invariant also carries the two accumulators) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg3 : Pipeline.RegionSeg (pcfgs (F := F)) adm (pdats m) () defs₀ Variants.none Lnone lvnone 3 where
  win := launch3.win.to₀
  block_pos := launch3.block_pos
  stage_whole := launch3.stage_whole
  K := PEmpty
  osem k := k.elim
  ho := Pipeline.OwnSemFacts.none _
  hbody c := (Rg3.body_obligation3 (atTc (V9 m (outs8 m))) c).loose
  hwaits := Pipeline.hwaits_of_owed_zero _ _ _ _ Lnone lvnone 3 fun _ _ => rfl
  pre c := iprop(StableHlo.held (c : Thread nD τ) (Pipeline.ucRefs τ sig) (V9 m (outs m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec3 c (atTc (V9 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V9 m (outs m)) c) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec3 c from by
      unfold Pipeline.ΦA
      iintro ⟨Hp, -, Hr⟩
      isplitl [Hr]; · iexact Hr
      iexact Hp).trans (Rg3.hin3 (atTc (V9 m (outs8 m))) c)
  hout c := (Rg3.hout3 (atTc (V9 m (outs8 m))) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V9 m (outs m)) c) (atTc (V10 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch deals the first thread state's rest on every core at once; the last one owes nothing. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lnone lvnone)
      ⊢ (|={Set.univ}=> bigSep Finset.univ (fun c : Dev nD => Rr (F := F) c) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => Rr (F := F) c) : sProp 𝕄) :=
    bigSep_mono fun c _ => by
      show iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄))
        ⊢ iprop((∃ r, prngReg c r) ∗ ∃ W, owes (c : Thread nD τ) (0 : CellTallies nD τ sig Unit) W)
      iintro ⟨-, HO, -, Hp, -⟩
      isplitl [Hp]; · iexists _; iexact Hp
      iexists ∅; iexact HO
  iintro ⟨H, -⟩
  ihave H' := h $$ H
  imodintro
  iexact H'

/-- The launch's ghost state is the pipelines' cells and duty tokens, nothing of the certificate's own. -/
theorem ghost_init :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE FRAME, at any instance of the float operations: from any memory with zero counters every weakly fair execution of
    @main terminates, nothing faulting, and every final memory holds each argument array as launched — the
    conditional frame over the four regions' segments. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none Lnone lvnone (fun _ _ => rfl) ρ (outs m) (pdats m) 0 (fun _ => (BI.emp : sProp 𝕄))
    (initOf (Pipeline.cells cfgs cellOf_inj) (Pipeline.launchToks cfgs cellOf_inj)) ghost_init
    (fun _ c => Rr c) (rest_init ρ) (fun c => by iintro ⟨-, H⟩; iexact H)
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.Kernel.Run

end
-- ==== Proof.Rg0.lean ====
/- Region 0 of @main: the first layer's dense map, one 2000-row block of the node features times the whole
   3×128 weight matrix per grid point. Stated at the buffer contents `V` the region is entered with: each window's
   block at a point, what the body leaves in the output block (its one store, over the payload of the two loaded
   blocks), the body's triple, the pipeline's proof data and the body obligation at every point. -/
import proofs.«429345_j86552180949235_1_alg».proof.Proof.Gen.KernelIdeal.Launch
import proofs.«429345_j86552180949235_1_alg».proof.Proof.Gen.KernelIdeal.Skeleton
import proofs.«429345_j86552180949235_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Rg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows 2000·t … 2000·t+1999 of the features (window 0) and of the result
    (window 2), the whole weight matrix (window 1), read off the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S2000x3 := Rect.unit (s := S2000x3) ![0, 0] S2000x3.size inb_S2000x3_S2000x3_0_0
abbrev rW : Rect S3x128 := Rect.unit (s := S3x128) ![0, 0] S3x128.size inb_S3x128_S3x128_0_0
abbrev rO : Rect S2000x128 := Rect.unit (s := S2000x128) ![0, 0] S2000x128.size inb_S2000x128_S2000x128_0_0

/-- The output block after the body: its one whole-block store of the product of the feature block and the weights. -/
def out0_2 (x0 : Vec F S2000x3 .f32) (x1 : Vec F S3x128 .f32) : Vec F S2000x128 .f32 :=
  View.canon [⟨rO, k0_pay1 (View.ld x0 rX) (View.ld x1 rW)⟩]

/-- The one store covers the output block. -/
theorem cover0_2 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y

set_option maxHeartbeats 1000000 in
/-- The body on whole staging buffers: the two inputs keep their contents, the output ends at `out0_2` of them. -/
theorem sound_kernel0 (c : Dev nD) (E : Set ℕ) (i : grid0.Coords)
    (arg1 : Memref sig .tc .vmem S2000x3 .f32) (harg1 : arg1.IsWhole) (arg2 : Memref sig .tc .vmem S3x128 .f32) (harg2 : arg2.IsWhole)
    (arg3 : Memref sig .tc .vmem S2000x128 .f32) (harg3 : arg3.IsWhole)
    (x0 : Vec F S2000x3 .f32) (x1 : Vec F S3x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each input's
    buffer still at its block and the output's at `out0_2` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- An input's current staging buffer holds its block at every point, fetched there or not: where it is not fetched
    its block index has not moved and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the kernel's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg0

end
-- ==== Proof.Rg1.lean ====
/- Region 1 of @main: the second layer's dense map with the first layer's bias and rectifier fused into its load:
   one 2000-row block of the aggregated features, plus the whole bias row, clipped below at zero, times the whole
   128×128 weight matrix, per grid point. Stated at the buffer contents `V` the region is entered with: each
   window's block at a point, what the body leaves in the output block, the body's triple, the pipeline's proof data
   and the body obligation at every point. -/
import proofs.«429345_j86552180949235_1_alg».proof.Proof.Gen.KernelIdeal.Launch
import proofs.«429345_j86552180949235_1_alg».proof.Proof.Gen.KernelIdeal.Skeleton
import proofs.«429345_j86552180949235_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Rg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows 2000·t … 2000·t+1999 of the aggregated features (window 0) and of the
    result (window 3), the whole bias row (window 1) and weight matrix (window 2), read off the arrays as the region
    finds them. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev rA : Rect S2000x128 := Rect.unit (s := S2000x128) ![0, 0] S2000x128.size inb_S2000x128_S2000x128_0_0
abbrev rB : Rect S128 := Rect.unit (s := S128) ![0] S128.size inb_S128_S128_0
abbrev rW : Rect S128x128 := Rect.unit (s := S128x128) ![0, 0] S128x128.size inb_S128x128_S128x128_0_0

/-- The output block after the body: its one whole-block store of the product of the rectified, biased block and
    the weights. -/
def out1_3 (x0 : Vec F S2000x128 .f32) (x1 : Vec F S128 .f32) (x2 : Vec F S128x128 .f32) : Vec F S2000x128 .f32 :=
  View.canon [⟨rA, k1_pay1 (View.ld x0 rA) (View.ld x1 rB) (View.ld x2 rW)⟩]

/-- The one store covers the output block. -/
theorem cover1_3 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging buffers: the three inputs keep their contents, the output ends at `out1_3` of them. -/
theorem sound_kernel1 (c : Dev nD) (E : Set ℕ) (i : grid1.Coords)
    (arg1 : Memref sig .tc .vmem S2000x128 .f32) (harg1 : arg1.IsWhole) (arg2 : Memref sig .tc .vmem S128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__fused_kernel i arg1 harg1 arg2 harg2 arg3 harg3 arg4 harg4) K := by
  simp only [cc1__fused_kernel_eq_skeleton]; unfold cc1__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's
    buffer still at its block and the output's at `out1_3` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- An input's current staging buffer holds its block at every point, fetched there or not: where it is not fetched
    its block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg1

end
-- ==== Proof.Rg2.lean ====
/- Region 2 of @main: the third layer's dense map with the second layer's bias and rectifier fused into its load:
   one 2000-row block of the aggregated features, plus the whole bias row, clipped below at zero, times the whole
   128×128 weight matrix, per grid point. Stated at the buffer contents `V` the region is entered with: each
   window's block at a point, what the body leaves in the output block, the body's triple, the pipeline's proof data
   and the body obligation at every point. -/
import proofs.«429345_j86552180949235_1_alg».proof.Proof.Gen.KernelIdeal.Launch
import proofs.«429345_j86552180949235_1_alg».proof.Proof.Gen.KernelIdeal.Skeleton
import proofs.«429345_j86552180949235_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Rg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: rows 2000·t … 2000·t+1999 of the aggregated features (window 0) and of the
    result (window 3), the whole bias row (window 1) and weight matrix (window 2), read off the arrays as the region
    finds them. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body loads and stores through. -/
abbrev rA : Rect S2000x128 := Rect.unit (s := S2000x128) ![0, 0] S2000x128.size inb_S2000x128_S2000x128_0_0
abbrev rB : Rect S128 := Rect.unit (s := S128) ![0] S128.size inb_S128_S128_0
abbrev rW : Rect S128x128 := Rect.unit (s := S128x128) ![0, 0] S128x128.size inb_S128x128_S128x128_0_0

/-- The output block after the body: its one whole-block store of the product of the rectified, biased block and
    the weights. -/
def out2_3 (x0 : Vec F S2000x128 .f32) (x1 : Vec F S128 .f32) (x2 : Vec F S128x128 .f32) : Vec F S2000x128 .f32 :=
  View.canon [⟨rA, k2_pay1 (View.ld x0 rA) (View.ld x1 rB) (View.ld x2 rW)⟩]

/-- The one store covers the output block. -/
theorem cover2_3 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging buffers: the three inputs keep their contents, the output ends at `out2_3` of them. -/
theorem sound_kernel2 (c : Dev nD) (E : Set ℕ) (i : grid2.Coords)
    (arg1 : Memref sig .tc .vmem S2000x128 .f32) (harg1 : arg1.IsWhole) (arg2 : Memref sig .tc .vmem S128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__fused_kernel i arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body each input's
    buffer still at its block and the output's at `out2_3` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- An input's current staging buffer holds its block at every point, fetched there or not: where it is not fetched
    its block index has not moved and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the kernel's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg2

end
-- ==== Proof.Rg3Defs.lean ====
import proofs.«429345_j86552180949235_1_alg».proof.Proof.Gen.KernelIdeal.Launch
import proofs.«429345_j86552180949235_1_alg».proof.Proof.Gen.KernelIdeal.Skeleton
import proofs.«429345_j86552180949235_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
# Region 3, the pooling kernel: the blocks and the two accumulators

The pure data of the region at the contents `V` it is entered with: each window's block at a grid point, the
128×128 sum and the 128×1 count after each point as a fold over the points, and what the last point stores into
the output window.
-/

set_option maxRecDepth 16384

noncomputable section

namespace Cert.KernelIdeal.Rg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The grid point of position `n` (position 0 for a number that is no position). -/
def ptOf (n : ℕ) : Fin cfg3.N := if h : n < cfg3.N then ⟨n, h⟩ else ⟨0, by decide⟩

theorem ptOf_val (t : Fin cfg3.N) : ptOf t.val = t := by
  unfold ptOf; rw [dif_pos t.isLt]

/-! ## The two accumulators, point by point -/

/-- The 128×128 sum after point `n`: reset and added to at point 0, added to at every later point. -/
def poolS (c : Dev nD) : ℕ → Vec F S128x128 .f32
  | 0 => k3_pay4 (iblk3 V c 0 (ptOf 0)) (iblk3 V c 1 (ptOf 0)) (iblk3 V c 2 (ptOf 0)) k3_pay1
  | n + 1 => k3_pay4 (iblk3 V c 0 (ptOf (n + 1))) (iblk3 V c 1 (ptOf (n + 1))) (iblk3 V c 2 (ptOf (n + 1))) (poolS c n)

/-- The 128×1 count after point `n`. -/
def poolC (c : Dev nD) : ℕ → Vec F S128x1 .f32
  | 0 => k3_pay5 (iblk3 V c 2 (ptOf 0)) k3_pay2
  | n + 1 => k3_pay5 (iblk3 V c 2 (ptOf (n + 1))) (poolC c n)

/-- What the last point stores into the output window. -/
def outV (c : Dev nD) : Vec F S128x5 .f32 :=
  k3_pay6 (poolS V c 24) (poolC V c 24) (iblk3 V c 3 (ptOf 24)) (iblk3 V c 4 (ptOf 24))

end Cert.KernelIdeal.Rg3

end
-- ==== Proof.Rg3Runs.lean ====
import proofs.«429345_j86552180949235_1_alg».proof.Proof.Gen.KernelIdeal.Launch
import proofs.«429345_j86552180949235_1_alg».proof.Proof.Gen.KernelIdeal.Skeleton
import proofs.«429345_j86552180949235_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
# Region 3, the pooling kernel: its body run whole, case by case

The body branches twice on the grid coordinate: it resets the two scratch accumulators at the first point and stores
the output window at the last. On a grid of 25 points that is three cases — first, middle, last — and in each the
body, handed whole staging memrefs at known contents, runs to a continuation holding the inputs as they were and
the accumulators (at the last point also the output window) at closed forms over the payloads.
-/

set_option maxRecDepth 16384

noncomputable section

namespace Cert.KernelIdeal.Rg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The first branch's condition (reset the accumulators), from the grid coordinate. -/
abbrev isFirst (i : grid3.Coords) : Prop :=
  (Scalar.cmpi .ne (Scalar.extui (Scalar.cmpi .eq (BitVec.ofNat 32 (i 0).val) 0#32)) 0#32) = 1#1
/-- It holds at point 0 only: decided over the 25 points. -/
theorem isFirst_iff : ∀ t : Fin cfg3.N, isFirst (grid3.coords t) ↔ t.val = 0 :=
  (by decide +kernel : ∀ t : Fin grid3.N, isFirst (grid3.coords t) ↔ t.val = 0)

/-- The second branch's condition (store the output). -/
abbrev isLast (i : grid3.Coords) : Prop := k3_cond2 i = 1#1
/-- It holds at point 24 only. -/
theorem isLast_iff : ∀ t : Fin cfg3.N, isLast (grid3.coords t) ↔ t.val = 24 :=
  (by decide +kernel : ∀ t : Fin grid3.N, isLast (grid3.coords t) ↔ t.val = 24)

/-! ## Loads and stores through a buffer's full rectangle -/

theorem zeros1 : (![0] : Fin 1 → ℕ) = fun _ => 0 := by funext a; fin_cases a; rfl
theorem zeros2 : (![0, 0] : Fin 2 → ℕ) = fun _ => 0 := by funext a; fin_cases a <;> rfl

/-- A load of a whole memref through its full rectangle reads what the memref reads. -/
theorem readAt_full {sh : Shape} {e : EltTy} (m : Memref sig .tc .vmem sh e) (hm : m.IsWhole)
    {off : Fin sh.rank → ℕ} (hoff : off = fun _ => 0) (inb : ∀ a, off a + sh.size a ≤ sh.size a) (x : sh.Idx → Elt F e) :
    View.readAt (Elt F) m.view (Rect.unit off sh.size inb).toLoadRect (hm.unread x) = x := by
  show View.ld (m.view.read (Elt F) (hm.unread x)) (Rect.unit off sh.size inb) = x
  rw [hm.read_unread, View.ld_unit_zero hoff]

/-- After a store through the full rectangle, whatever was stored before, any view of the shape reads the payload. -/
theorem read_writes_full {sh : Shape} {e : EltTy} (v : View sig .tc .vmem sh e) (f : v.ty.Contents (Elt F))
    {off : Fin sh.rank → ℕ} (hoff : off = fun _ => 0) (inb : ∀ a, off a + sh.size a ≤ sh.size a) (w : sh.Idx → Elt F e)
    (L : List (View.Piece (Elt F) sh e)) :
    v.read (Elt F) (v.writes (Elt F) f (⟨Rect.unit off sh.size inb, w⟩ :: L)) = w := by
  rw [View.read_writes_eq_canon _ _ _ (fun y => ⟨_, List.mem_cons_self, View.mem_set_unit_zero hoff inb y⟩),
    View.canon_cons_unit_zero hoff]

/-! ## The body, run whole -/

set_option maxHeartbeats 1000000 in
/-- THE FIRST POINT: the reset branch taken, the output branch not. Whatever the two scratch memrefs held, they end at
    the accumulation payloads over the reset values; the three inputs read are handed back as they were. The other
    three windows' memrefs are not touched and do not appear. -/
theorem run_first (c : Dev nD) (i : grid3.Coords)
    (a1 : Memref sig .tc .vmem S2000x128 .f32) (h1 : a1.IsWhole) (a2 : Memref sig .tc .vmem S128 .f32) (h2 : a2.IsWhole)
    (a3 : Memref sig .tc .vmem S2000x128 .bf16) (h3 : a3.IsWhole) (a4 : Memref sig .tc .vmem S128x5 .f32) (h4 : a4.IsWhole)
    (a5 : Memref sig .tc .vmem S5 .f32) (h5 : a5.IsWhole) (a6 : Memref sig .tc .vmem S128x5 .f32) (h6 : a6.IsWhole)
    (s0 : Memref sig .tc .vmem S128x128 .f32) (hs0 : s0.IsWhole) (s1 : Memref sig .tc .vmem S128x1 .f32) (hs1 : s1.IsWhole)
    (hc0 : isFirst i) (hc2 : ¬isLast i)
    (x1 : Vec F S2000x128 .f32) (x2 : Vec F S128 .f32) (x3 : Vec F S2000x128 .bf16)
    (E : Set ℕ) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) s0 fullShare d) ∗ (∃ d, owns (c : Thread nD τ) s1 fullShare d)
        ∗ (iprop(owns (c : Thread nD τ) a1 fullShare x1 ∗ owns (c : Thread nD τ) a2 fullShare x2 ∗ owns (c : Thread nD τ) a3 fullShare x3
            ∗ owns (c : Thread nD τ) s0 fullShare (k3_pay4 x1 x2 x3 k3_pay1) ∗ owns (c : Thread nD τ) s1 fullShare (k3_pay5 x3 k3_pay2)) -∗ K ⟨⟩))
      ⊢ wp frame (wpE (defs₀ (F := F)) Variants.none c none) E (cc3__pool_kernel i a1 h1 a2 h2 a3 h3 a4 h4 a5 h5 a6 h6 s0 hs0 s1 hs1) K := by
  simp only [cc3__pool_kernel_eq_skeleton]; unfold cc3__pool_kernel_skel
  unfold owns
  iintro ⟨⟨%f1, %hf1, H1⟩, ⟨%f2, %hf2, H2⟩, ⟨%f3, %hf3, H3⟩, ⟨%d0, %g0, -, S0⟩, ⟨%d1, %g1, -, S1⟩, Hk⟩
  obtain rfl := h1.eq_unread hf1; obtain rfl := h2.eq_unread hf2; obtain rfl := h3.eq_unread hf3
  sl_exec (disch := first | exact hc0 | exact hc2)
  sl_step
  unfold run_first.sl.v14 run_first.sl.v21
  unfold run_first.sl.S0_1 run_first.sl.S1_1
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [S0]
  · iexists _; isplitr
    swap; · iexact S0
    ipureintro
    rw [read_writes_full _ _ zeros2, readAt_full a1 h1 zeros2, readAt_full a2 h2 zeros1, readAt_full a3 h3 zeros2,
      View.readCov_unit_zero s0.view zeros2]
  iexists _; isplitr
  swap; · iexact S1
  ipureintro
  rw [read_writes_full _ _ zeros2, readAt_full a3 h3 zeros2, View.readCov_unit_zero s1.view zeros2]

set_option maxHeartbeats 1000000 in
/-- A MIDDLE POINT: neither branch taken. The scratch memrefs, at what the point before left, end at the accumulation
    payloads over those contents. -/
theorem run_mid (c : Dev nD) (i : grid3.Coords)
    (a1 : Memref sig .tc .vmem S2000x128 .f32) (h1 : a1.IsWhole) (a2 : Memref sig .tc .vmem S128 .f32) (h2 : a2.IsWhole)
    (a3 : Memref sig .tc .vmem S2000x128 .bf16) (h3 : a3.IsWhole) (a4 : Memref sig .tc .vmem S128x5 .f32) (h4 : a4.IsWhole)
    (a5 : Memref sig .tc .vmem S5 .f32) (h5 : a5.IsWhole) (a6 : Memref sig .tc .vmem S128x5 .f32) (h6 : a6.IsWhole)
    (s0 : Memref sig .tc .vmem S128x128 .f32) (hs0 : s0.IsWhole) (s1 : Memref sig .tc .vmem S128x1 .f32) (hs1 : s1.IsWhole)
    (hc0 : ¬isFirst i) (hc2 : ¬isLast i)
    (x1 : Vec F S2000x128 .f32) (x2 : Vec F S128 .f32) (x3 : Vec F S2000x128 .bf16)
    (y0 : Vec F S128x128 .f32) (y1 : Vec F S128x1 .f32) (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) s0 fullShare y0 ∗ owns (c : Thread nD τ) s1 fullShare y1
        ∗ (iprop(owns (c : Thread nD τ) a1 fullShare x1 ∗ owns (c : Thread nD τ) a2 fullShare x2 ∗ owns (c : Thread nD τ) a3 fullShare x3
            ∗ owns (c : Thread nD τ) s0 fullShare (k3_pay4 x1 x2 x3 y0) ∗ owns (c : Thread nD τ) s1 fullShare (k3_pay5 x3 y1)) -∗ K ⟨⟩))
      ⊢ wp frame (wpE (defs₀ (F := F)) Variants.none c none) E (cc3__pool_kernel i a1 h1 a2 h2 a3 h3 a4 h4 a5 h5 a6 h6 s0 hs0 s1 hs1) K := by
  simp only [cc3__pool_kernel_eq_skeleton]; unfold cc3__pool_kernel_skel
  unfold owns
  iintro ⟨⟨%f1, %hf1, H1⟩, ⟨%f2, %hf2, H2⟩, ⟨%f3, %hf3, H3⟩, ⟨%g0, %hg0, S0⟩, ⟨%g1, %hg1, S1⟩, Hk⟩
  obtain rfl := h1.eq_unread hf1; obtain rfl := h2.eq_unread hf2; obtain rfl := h3.eq_unread hf3
  obtain rfl := hs0.eq_unread hg0; obtain rfl := hs1.eq_unread hg1
  sl_exec (disch := first | exact hc0 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [S0]
  · iexists _; isplitr
    swap; · iexact S0
    ipureintro
    rw [read_writes_full _ _ zeros2, readAt_full a1 h1 zeros2, readAt_full a2 h2 zeros1, readAt_full a3 h3 zeros2,
      readAt_full s0 hs0 zeros2]
  iexists _; isplitr
  swap; · iexact S1
  ipureintro
  rw [read_writes_full _ _ zeros2, readAt_full a3 h3 zeros2, readAt_full s1 hs1 zeros2]

set_option maxHeartbeats 1000000 in
/-- THE LAST POINT: the reset branch not taken, the output branch taken. The scratch memrefs end as at a middle point,
    and the output window's memref, whatever it held, ends at the output payload over those final accumulators and
    the two classifier windows. -/
theorem run_last (c : Dev nD) (i : grid3.Coords)
    (a1 : Memref sig .tc .vmem S2000x128 .f32) (h1 : a1.IsWhole) (a2 : Memref sig .tc .vmem S128 .f32) (h2 : a2.IsWhole)
    (a3 : Memref sig .tc .vmem S2000x128 .bf16) (h3 : a3.IsWhole) (a4 : Memref sig .tc .vmem S128x5 .f32) (h4 : a4.IsWhole)
    (a5 : Memref sig .tc .vmem S5 .f32) (h5 : a5.IsWhole) (a6 : Memref sig .tc .vmem S128x5 .f32) (h6 : a6.IsWhole)
    (s0 : Memref sig .tc .vmem S128x128 .f32) (hs0 : s0.IsWhole) (s1 : Memref sig .tc .vmem S128x1 .f32) (hs1 : s1.IsWhole)
    (hc0 : ¬isFirst i) (hc2 : isLast i)
    (x1 : Vec F S2000x128 .f32) (x2 : Vec F S128 .f32) (x3 : Vec F S2000x128 .bf16) (x4 : Vec F S128x5 .f32) (x5 : Vec F S5 .f32)
    (y0 : Vec F S128x128 .f32) (y1 : Vec F S128x1 .f32) (E : Set ℕ) (K : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ (∃ d, owns (c : Thread nD τ) a6 fullShare d)
        ∗ owns (c : Thread nD τ) s0 fullShare y0 ∗ owns (c : Thread nD τ) s1 fullShare y1
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (k3_pay6 (k3_pay4 x1 x2 x3 y0) (k3_pay5 x3 y1) x4 x5)
            ∗ owns (c : Thread nD τ) s0 fullShare (k3_pay4 x1 x2 x3 y0) ∗ owns (c : Thread nD τ) s1 fullShare (k3_pay5 x3 y1)) -∗ K ⟨⟩))
      ⊢ wp frame (wpE (defs₀ (F := F)) Variants.none c none) E (cc3__pool_kernel i a1 h1 a2 h2 a3 h3 a4 h4 a5 h5 a6 h6 s0 hs0 s1 hs1) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, S0⟩, ⟨%g1, %hg1, S1⟩, Hk⟩
  obtain rfl := h1.eq_unread hf1; obtain rfl := h2.eq_unread hf2; obtain rfl := h3.eq_unread hf3
  obtain rfl := h4.eq_unread hf4; obtain rfl := h5.eq_unread hf5
  obtain rfl := hs0.eq_unread hg0; obtain rfl := hs1.eq_unread hg1
  sl_exec (disch := first | exact hc0 | exact hc2)
  sl_step
  unfold run_last.sl.v30 run_last.sl.v31
  unfold run_last.sl.S0_1 run_last.sl.S1_1
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    rw [read_writes_full _ _ zeros2, View.readCov_unit_zero s0.view zeros2, View.readCov_unit_zero s1.view zeros2,
      readAt_full a1 h1 zeros2, readAt_full a2 h2 zeros1, readAt_full a3 h3 zeros2, readAt_full a4 h4 zeros2,
      readAt_full a5 h5 zeros1, readAt_full s0 hs0 zeros2, readAt_full s1 hs1 zeros2]
  isplitl [S0]
  · iexists _; isplitr
    swap; · iexact S0
    ipureintro
    rw [read_writes_full _ _ zeros2, readAt_full a1 h1 zeros2, readAt_full a2 h2 zeros1, readAt_full a3 h3 zeros2,
      readAt_full s0 hs0 zeros2]
  iexists _; isplitr
  swap; · iexact S1
  ipureintro
  rw [read_writes_full _ _ zeros2, readAt_full a3 h3 zeros2, readAt_full s1 hs1 zeros2]

end Cert.KernelIdeal.Rg3

end
-- ==== Proof.Rg3.lean ====
import proofs.«429345_j86552180949235_1_alg».proof.Proof.Rg3Defs
import proofs.«429345_j86552180949235_1_alg».proof.Proof.Rg3Runs
import Idealize.ShloMosaic.Lib.Pipeline.FrameBody
import Idealize.ShloMosaic.Lib.Pipeline.Value
import Idealize.ShloMosaic.Lib.Ring
import Idealize.ShloMosaic.Lib.Tactic

/-!
# Region 3: the pooling kernel

The fourth pallas_call of the program sweeps the 50000-row axis in 25 blocks of 2000 rows. Two scratch
accumulators are carried from one grid point to the next: a 128×128 sum (the one-hot block transposed against
the rectified, biased block of the aggregate) and a 128×1 count (the one-hot block transposed against ones).
Both are reset at the first point, added to at every point, and read at the last point, where the output
window is stored: the sum divided by the clamped count, against the classifier's weights, plus its bias.

This module gives the region's proof data at the contents `V` the region is entered with, the body's
obligation, the invariant's entry and exit, and the value the region leaves in its output array as a fold
over the 25 points.
-/

set_option maxRecDepth 16384

noncomputable section

namespace Cert.KernelIdeal.Rg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch operands and the invariant -/

/-- The two scratch operands: whole scoped buffers of the kernel's own, passed beside the windows. -/
abbrev scM0 : Memref sig .tc .vmem S128x128 .f32 := Memref.whole cc3_scratch0
abbrev scM1 : Memref sig .tc .vmem S128x1 .f32 := Memref.whole cc3_scratch1

/-- The core's scoped buffers that are neither a staging buffer of this call nor one of its two scratch operands,
    at some contents each: carried unopened. -/
abbrev restBut (c : Dev nD) : sProp 𝕄 :=
  Pipeline.scopedRestBut (Ix := Unit) (Name := ℕ) (U := UR sig nD τ) (Lvl := ℕ) (Val := Elt F) spec3 c [cc3_scratch0, cc3_scratch1]

/-- The class's invariant with the two scratch operands split off as memrefs owned at some contents. -/
theorem PhiA_eq (c : Dev nD) : (Pipeline.ΦA spec3 c : sProp 𝕄)
    = iprop((((∃ d, owns (c : Thread nD τ) scM0 fullShare d) ∗ (∃ d, owns (c : Thread nD τ) scM1 fullShare d)) ∗ restBut c)
        ∗ (∃ r, prngReg c r)) := by
  unfold Pipeline.ΦA
  rw [Pipeline.scopedRest_split_of_list spec3 c [cc3_scratch0, cc3_scratch1] (by decide) (by decide)]
  simp only [scM0, scM1, owns_whole]; rfl

/-- The region invariant before position `n`: before the first point the class's (every scratch at anything);
    afterwards the two accumulators owned whole at what the points before left, the other scoped buffers at anything,
    the generator register at some state. -/
def PhiS (c : Dev nD) : ℕ → sProp 𝕄
  | 0 => Pipeline.ΦA spec3 c
  | n + 1 => iprop(owns (c : Thread nD τ) scM0 fullShare (poolS V c n) ∗ owns (c : Thread nD τ) scM1 fullShare (poolC V c n)
      ∗ restBut c ∗ (∃ r, prngReg c r))

theorem PhiS_of_zero (c : Dev nD) {n : ℕ} (h : n = 0) : PhiS V c n = Pipeline.ΦA spec3 c := by subst h; rfl

theorem PhiS_succ (c : Dev nD) (n : ℕ) :
    PhiS V c (n + 1) = iprop(owns (c : Thread nD τ) scM0 fullShare (poolS V c n) ∗ owns (c : Thread nD τ) scM1 fullShare (poolC V c n)
      ∗ restBut c ∗ (∃ r, prngReg c r)) := rfl

theorem PhiS_of_pos (c : Dev nD) {n : ℕ} (h : n ≠ 0) :
    PhiS V c n = iprop(owns (c : Thread nD τ) scM0 fullShare (poolS V c (n - 1)) ∗ owns (c : Thread nD τ) scM1 fullShare (poolC V c (n - 1))
      ∗ restBut c ∗ (∃ r, prngReg c r)) := by
  cases n with
  | zero => exact absurd rfl h
  | succ n => rfl

/-! ## The accumulators at a grid point -/

theorem poolS_first (c : Dev nD) (t : Fin cfg3.N) (h : t.val = 0) :
    poolS V c t.val = k3_pay4 (iblk3 V c 0 t) (iblk3 V c 1 t) (iblk3 V c 2 t) k3_pay1 := by
  have e : ptOf 0 = t := by have := ptOf_val t; rwa [h] at this
  rw [h]; show k3_pay4 (iblk3 V c 0 (ptOf 0)) (iblk3 V c 1 (ptOf 0)) (iblk3 V c 2 (ptOf 0)) k3_pay1 = _
  rw [e]

theorem poolC_first (c : Dev nD) (t : Fin cfg3.N) (h : t.val = 0) :
    poolC V c t.val = k3_pay5 (iblk3 V c 2 t) k3_pay2 := by
  have e : ptOf 0 = t := by have := ptOf_val t; rwa [h] at this
  rw [h]; show k3_pay5 (iblk3 V c 2 (ptOf 0)) k3_pay2 = _
  rw [e]

theorem poolS_next (c : Dev nD) (t : Fin cfg3.N) (h : t.val ≠ 0) :
    poolS V c t.val = k3_pay4 (iblk3 V c 0 t) (iblk3 V c 1 t) (iblk3 V c 2 t) (poolS V c (t.val - 1)) := by
  obtain ⟨n, hn⟩ := t
  cases n with
  | zero => exact absurd rfl h
  | succ n =>
    have e : ptOf (n + 1) = ⟨n + 1, hn⟩ := ptOf_val ⟨n + 1, hn⟩
    show k3_pay4 (iblk3 V c 0 (ptOf (n + 1))) (iblk3 V c 1 (ptOf (n + 1))) (iblk3 V c 2 (ptOf (n + 1))) (poolS V c n) = _
    rw [e]; rfl

theorem poolC_next (c : Dev nD) (t : Fin cfg3.N) (h : t.val ≠ 0) :
    poolC V c t.val = k3_pay5 (iblk3 V c 2 t) (poolC V c (t.val - 1)) := by
  obtain ⟨n, hn⟩ := t
  cases n with
  | zero => exact absurd rfl h
  | succ n =>
    have e : ptOf (n + 1) = ⟨n + 1, hn⟩ := ptOf_val ⟨n + 1, hn⟩
    show k3_pay5 (iblk3 V c 2 (ptOf (n + 1))) (poolC V c n) = _
    rw [e]; rfl

/-- What the last point stores, over what the point before it left in the accumulators. -/
theorem outV_last (c : Dev nD) (t : Fin cfg3.N) (h : t.val = 24) :
    outV V c = k3_pay6 (k3_pay4 (iblk3 V c 0 t) (iblk3 V c 1 t) (iblk3 V c 2 t) (poolS V c 23))
      (k3_pay5 (iblk3 V c 2 t) (poolC V c 23)) (iblk3 V c 3 t) (iblk3 V c 4 t) := by
  have e : ptOf 24 = t := by have := ptOf_val t; rwa [h] at this
  show k3_pay6 (k3_pay4 (iblk3 V c 0 (ptOf 24)) (iblk3 V c 1 (ptOf 24)) (iblk3 V c 2 (ptOf 24)) (poolS V c 23))
      (k3_pay5 (iblk3 V c 2 (ptOf 24)) (poolC V c 23)) (iblk3 V c 3 (ptOf 24)) (iblk3 V c 4 (ptOf 24)) = _
  rw [e]

/-! ## The proof data -/

/-- The proof data of the region on core `c`: the arrays as the region finds them; after the body at point `t` each
    input's buffer at its block and the output's at what the last point stores; the invariant `PhiS`; nothing owed;
    full shares. -/
def dat3 (c : Dev nD) : Pipeline.Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outV V c
  Φ t := PhiS V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

theorem Phi_castSucc (c : Dev nD) (t : Fin cfg3.N) : (dat3 V c).Φ t.castSucc = PhiS V c t.val := by
  dsimp only [dat3]; simp only [Fin.coe_castSucc]
theorem Phi_succ (c : Dev nD) (t : Fin cfg3.N) : (dat3 V c).Φ t.succ = PhiS V c (t.val + 1) := by
  dsimp only [dat3]; simp only [Fin.val_succ]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outV V c := by dsimp only [dat3]

/-! ## What the body finds in the input windows' buffers, and what it leaves -/

/-- Each input's current staging buffer holds its block at every point, fetched there or not: the body leaves the
    block in place, the windows are uncut and never idle. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)

/-- The output window is idle away from the last point, where the pipeline does not write it back either; at the last
    point it is live. Decided over the 25 points. -/
theorem idle5_of : ∀ t : Fin cfg3.N, ¬isLast (grid3.coords t) → cfg3.idle 5 (cfg3.grid.coords t) = true :=
  (by decide +kernel : ∀ t : Fin grid3.N, ¬isLast (grid3.coords t) → idle3 5 (grid3.coords t) = true)
theorem noFlush5_of : ∀ t : Fin cfg3.N, ¬isLast (grid3.coords t) → (cfg3.win 5).flush t = false :=
  (by decide +kernel : ∀ t : Fin grid3.N, ¬isLast (grid3.coords t) → win3_5.flush t = false)
theorem live5_of : ∀ t : Fin cfg3.N, isLast (grid3.coords t) → cfg3.idle 5 (cfg3.grid.coords t) = false :=
  (by decide +kernel : ∀ t : Fin grid3.N, isLast (grid3.coords t) → idle3 5 (grid3.coords t) = false)

/-- An input's buffer is left at its block. -/
theorem leaves3_0 (c : Dev nD) (t : Fin cfg3.N) :
    (dat3 V c).leavesExact 0 t = owns (c : Thread nD τ) (st3_0 t) fullShare (iblk3 V c 0 t) := by
  unfold Dat.leavesExact; rw [show cfg3.idle 0 (cfg3.grid.coords t) = false from rfl, after3_0]
theorem leaves3_1 (c : Dev nD) (t : Fin cfg3.N) :
    (dat3 V c).leavesExact 1 t = owns (c : Thread nD τ) (st3_1 t) fullShare (iblk3 V c 1 t) := by
  unfold Dat.leavesExact; rw [show cfg3.idle 1 (cfg3.grid.coords t) = false from rfl, after3_1]
theorem leaves3_2 (c : Dev nD) (t : Fin cfg3.N) :
    (dat3 V c).leavesExact 2 t = owns (c : Thread nD τ) (st3_2 t) fullShare (iblk3 V c 2 t) := by
  unfold Dat.leavesExact; rw [show cfg3.idle 2 (cfg3.grid.coords t) = false from rfl, after3_2]
theorem leaves3_3 (c : Dev nD) (t : Fin cfg3.N) :
    (dat3 V c).leavesExact 3 t = owns (c : Thread nD τ) (st3_3 t) fullShare (iblk3 V c 3 t) := by
  unfold Dat.leavesExact; rw [show cfg3.idle 3 (cfg3.grid.coords t) = false from rfl, after3_3]
theorem leaves3_4 (c : Dev nD) (t : Fin cfg3.N) :
    (dat3 V c).leavesExact 4 t = owns (c : Thread nD τ) (st3_4 t) fullShare (iblk3 V c 4 t) := by
  unfold Dat.leavesExact; rw [show cfg3.idle 4 (cfg3.grid.coords t) = false from rfl, after3_4]

/-- At the last point the output's buffer is left at what that point stores. -/
theorem leaves3_5 (c : Dev nD) (t : Fin cfg3.N) (h : isLast (grid3.coords t)) :
    (dat3 V c).leavesExact 5 t = owns (c : Thread nD τ) (st3_5 t) fullShare (outV V c) := by
  unfold Dat.leavesExact; rw [live5_of t h, after3_5]

/-! ## The body obligation, at a generic point -/

set_option maxHeartbeats 4000000 in
/-- The body at any point. The inputs' memrefs hold their blocks; the point's position says which of the three cases
    it is in, and that case's whole-body run applies. The invariant hands the body the two accumulators — at anything
    at the first point, at what the point before left otherwise — and takes them back at this point's contents; the
    other scoped buffers, the generator register and what the core owes pass through unread. Away from the last point
    the output window's memref is handed back as found; at the last point it is left at what that point stores. -/
theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t
        ∗ (dat3 V c).leavesExact 3 t ∗ (dat3 V c).leavesExact 4 t ∗ (dat3 V c).leavesExact 5 t)) := by
  unfold bodyAt3
  simp only [before3_0, before3_1, before3_2, before3_3, before3_4]
  rw [show (dat3 V c).owesAt () t.succ = (dat3 V c).owesAt () t.castSucc from rfl, Phi_castSucc, Phi_succ, PhiS_succ,
    leaves3_0, leaves3_1, leaves3_2, leaves3_3, leaves3_4]
  by_cases hz : t.val = 0
  · -- the first point
    have hF : isFirst (grid3.coords t) := (isFirst_iff t).mpr hz
    have hL : ¬isLast (grid3.coords t) := fun h => by have := (isLast_iff t).mp h; omega
    rw [Dat.leavesExact_idle (dat3 V c) 5 t (idle5_of t hL) (noFlush5_of t hL), PhiS_of_zero V c hz, PhiA_eq,
      poolS_first V c t hz, poolC_first V c t hz]
    iintro ⟨⟨⟨⟨S0, S1⟩, HR⟩, Hg⟩, Ho, ⟨%d0, H0⟩, ⟨%d1, H1⟩, ⟨%d2, H2⟩, ⟨%d3, H3⟩, ⟨%d4, H4⟩, H5⟩
    iapply (run_first c (grid3.coords t) _ _ _ _ _ _ _ _ _ _ _ _ _ _ _ _ hF hL (iblk3 V c 0 t) (iblk3 V c 1 t) (iblk3 V c 2 t) Set.univ _)
    isplitl [H0]; · iexact H0
    isplitl [H1]; · iexact H1
    isplitl [H2]; · iexact H2
    isplitl [S0]; · iexact S0
    isplitl [S1]; · iexact S1
    iintro ⟨H0, H1, H2, S0, S1⟩
    isplitl [S0 S1 HR Hg]
    · isplitl [S0]; · iexact S0
      isplitl [S1]; · iexact S1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases hl : t.val = 24
    · -- the last point
      have hF : ¬isFirst (grid3.coords t) := fun h => hz ((isFirst_iff t).mp h)
      have hL : isLast (grid3.coords t) := (isLast_iff t).mpr hl
      have h23 : t.val - 1 = 23 := by omega
      rw [leaves3_5 V c t hL, PhiS_of_pos V c hz, poolS_next V c t hz, poolC_next V c t hz, h23, outV_last V c t hl]
      iintro ⟨⟨S0, S1, HR, Hg⟩, Ho, ⟨%d0, H0⟩, ⟨%d1, H1⟩, ⟨%d2, H2⟩, ⟨%d3, H3⟩, ⟨%d4, H4⟩, ⟨%d5, H5⟩⟩
      iapply (run_last c (grid3.coords t) _ _ _ _ _ _ _ _ _ _ _ _ _ _ _ _ hF hL (iblk3 V c 0 t) (iblk3 V c 1 t) (iblk3 V c 2 t)
        (iblk3 V c 3 t) (iblk3 V c 4 t) (poolS V c 23) (poolC V c 23) Set.univ _)
      isplitl [H0]; · iexact H0
      isplitl [H1]; · iexact H1
      isplitl [H2]; · iexact H2
      isplitl [H3]; · iexact H3
      isplitl [H4]; · iexact H4
      isplitl [H5]; · iexists _; iexact H5
      isplitl [S0]; · iexact S0
      isplitl [S1]; · iexact S1
      iintro ⟨H0, H1, H2, H3, H4, H5, S0, S1⟩
      isplitl [S0 S1 HR Hg]
      · isplitl [S0]; · iexact S0
        isplitl [S1]; · iexact S1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hF : ¬isFirst (grid3.coords t) := fun h => hz ((isFirst_iff t).mp h)
      have hL : ¬isLast (grid3.coords t) := fun h => hl ((isLast_iff t).mp h)
      rw [Dat.leavesExact_idle (dat3 V c) 5 t (idle5_of t hL) (noFlush5_of t hL), PhiS_of_pos V c hz,
        poolS_next V c t hz, poolC_next V c t hz]
      iintro ⟨⟨S0, S1, HR, Hg⟩, Ho, ⟨%d0, H0⟩, ⟨%d1, H1⟩, ⟨%d2, H2⟩, ⟨%d3, H3⟩, ⟨%d4, H4⟩, H5⟩
      iapply (run_mid c (grid3.coords t) _ _ _ _ _ _ _ _ _ _ _ _ _ _ _ _ hF hL (iblk3 V c 0 t) (iblk3 V c 1 t) (iblk3 V c 2 t)
        (poolS V c (t.val - 1)) (poolC V c (t.val - 1)) Set.univ _)
      isplitl [H0]; · iexact H0
      isplitl [H1]; · iexact H1
      isplitl [H2]; · iexact H2
      isplitl [S0]; · iexact S0
      isplitl [S1]; · iexact S1
      iintro ⟨H0, H1, H2, S0, S1⟩
      isplitl [S0 S1 HR Hg]
      · isplitl [S0]; · iexact S0
        isplitl [S1]; · iexact S1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Entering and leaving the invariant -/

/-- What the launch hands the region is the invariant before the first point. -/
theorem hin3 (c : Dev nD) : Pipeline.ΦA spec3 c ⊢ (dat3 V c).Φ 0 := by
  have h : (dat3 V c).Φ 0 = Pipeline.ΦA spec3 c := rfl
  rw [h]; first | done | exact .rfl

/-- After the last point the invariant gives the class's back: the accumulators' named contents are forgotten. -/
theorem hout3 (c : Dev nD) : (dat3 V c).Φ (Fin.last cfg3.N) ⊢ Pipeline.ΦA spec3 c := by
  rw [show (dat3 V c).Φ (Fin.last cfg3.N) = PhiS V c (24 + 1) from rfl, PhiS_succ, PhiA_eq]
  iintro ⟨S0, S1, HR, Hg⟩
  isplitl [S0 S1 HR]
  · isplitl [S0 S1]
    · isplitl [S0]
      · iexists _; iexact S0
      iexists _; iexact S1
    iexact HR
  iexact Hg

/-! ## The value the region leaves in its output array -/

/-- The last grid point: the one point that writes the output window back. -/
abbrev tLast : Fin cfg3.N := ⟨24, by decide⟩

/-- What a flushing point writes back is its block of `outV`: the only such point is the last, and the output
    window's one block there is the whole array. -/
theorem flushed5_eq (c : Dev nD) (t : Fin cfg3.N) (hf : (cfg3.win 5).flush t = true) :
    (dat3 V c).flushed 5 t = ((cfg3.win 5).blk t).view.read (Elt F) (outV V c) := by
  have h24 : t.val = 24 := by have := (flush3_5 t).mp hf; have := t.isLt; have hN : cfg3.N = 25 := N_3; omega
  obtain rfl : t = tLast := Fin.ext h24
  show (cfg3.win 5).cut (grid3.coords tLast) ((dat3 V c).after 5 tLast) = _
  rw [after3_5]
  have hz : (fun a => win3_5.index tLast a * main_v81.ty.shape.size a) = fun _ => 0 :=
    funext fun a => by fin_cases a <;> decide +kernel
  exact (Memref.read_access_unit_zero (Elt F) main_v81 hz (fun a => by rw [congrFun hz a]; simp) (outV V c)).symm

/-- THE VALUE: after the region the output array holds what the last point stored — the 128×128 sum over the 25 row
    blocks divided by the clamped count, against the classifier's weights, plus its bias. -/
theorem region3_value (c : Dev nD) : (dat3 V c).arrAt 5 cfg3.N = outV V c :=
  (dat3 V c).arrAt_eq_of_cover 5 (outV V c) (flushed5_eq V c) fun i =>
    ⟨tLast, (flush3_5 tLast).mpr rfl, by
      show i ∈ ((View.whole main_v81).slice (win3_5.rect tLast)).set
      rw [View.set_slice_whole, Rect.mem_set_unit]
      intro a
      have hi : (i a : ℕ) < main_v81.ty.shape.size a := (i a).isLt
      have h0 : win3_5.index tLast a * win3_5.size a = 0 := by fin_cases a <;> decide +kernel
      have hs : win3_5.xsize (grid3.coords tLast) a = main_v81.ty.shape.size a := by fin_cases a <;> decide +kernel
      show win3_5.index tLast a * win3_5.size a ≤ (i a : ℕ)
        ∧ (i a : ℕ) < win3_5.index tLast a * win3_5.size a + win3_5.xsize (grid3.coords tLast) a
      rw [h0, hs]; omega⟩

end Cert.KernelIdeal.Rg3

end
-- ==== Proof.RunData.lean ====
/- @main of the program as four kernel regions among stretches of host operations, first part: what each region
   leaves in its output array, defined region after region, and the four pipelines' proof data, each at its region's
   entry contents. -/
import proofs.«429345_j86552180949235_1_alg».proof.Proof.Gen.KernelIdeal.Regions
import proofs.«429345_j86552180949235_1_alg».proof.Proof.Rg0
import proofs.«429345_j86552180949235_1_alg».proof.Proof.Rg1
import proofs.«429345_j86552180949235_1_alg».proof.Proof.Rg2
import proofs.«429345_j86552180949235_1_alg».proof.Proof.Rg3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves in its output array, one region after the other

Region 0 is entered with the buffers as the host operations before it leave them; what it leaves in its output array
is the fold of its write-backs. The next stretch of host operations runs from there, region 1 is entered with what that
stretch leaves, and so on: four definitions, each over the one before. -/

/-- A buffer-contents function read at the TensorCore's references: the form a region's proof data take. -/
abbrev atTc (W : Dev nD → Valuation τ sig (Elt F)) : (c : Dev nD) → (b : Ref sig .tc) → Buf (Elt F) ((c : Thread nD τ).loc b) :=
  fun c b => W c b

/-- What region 0 leaves in its output array. -/
def o4 (c : Dev nD) : Buf (Elt F) ((c : Thread nD τ).loc main_v32) :=
  (Rg0.dat0 (atTc (V3 m)) c).arrAt 2 cfg0.N
/-- The regions' outputs so far: region 0's. -/
def outs4 : Outs (F := F) := fun _ r c => if h : r = main_v32 then h ▸ o4 m c else m ((c : Thread nD τ).loc r)
/-- What region 1 leaves in its output array. -/
def o6 (c : Dev nD) : Buf (Elt F) ((c : Thread nD τ).loc main_v46) :=
  (Rg1.dat1 (atTc (V5 m (outs4 m))) c).arrAt 3 cfg1.N
/-- The regions' outputs so far: regions 0 and 1. -/
def outs6 : Outs (F := F) := fun J r c => if h : r = main_v46 then h ▸ o6 m c else outs4 m J r c
/-- What region 2 leaves in its output array. -/
def o8 (c : Dev nD) : Buf (Elt F) ((c : Thread nD τ).loc main_v60) :=
  (Rg2.dat2 (atTc (V7 m (outs6 m))) c).arrAt 3 cfg2.N
/-- The regions' outputs so far: regions 0, 1 and 2. -/
def outs8 : Outs (F := F) := fun J r c => if h : r = main_v60 then h ▸ o8 m c else outs6 m J r c
/-- What region 3 leaves in its output array: the program's result. -/
def o10 (c : Dev nD) : Buf (Elt F) ((c : Thread nD τ).loc main_v81) :=
  (Rg3.dat3 (atTc (V9 m (outs8 m))) c).arrAt 5 cfg3.N
/-- All four regions' outputs. -/
def outs : Outs (F := F) := fun J r c => if h : r = main_v81 then h ▸ o10 m c else outs8 m J r c

theorem outs4_v32 (J : ℕ) (c : Dev nD) : outs4 m J main_v32 c = o4 m c := by unfold outs4; rw [dif_pos rfl]
theorem outs6_v32 (J : ℕ) (c : Dev nD) : outs6 m J main_v32 c = o4 m c := by
  unfold outs6; rw [dif_neg (by decide)]; exact outs4_v32 m J c
theorem outs6_v46 (J : ℕ) (c : Dev nD) : outs6 m J main_v46 c = o6 m c := by unfold outs6; rw [dif_pos rfl]
theorem outs8_v32 (J : ℕ) (c : Dev nD) : outs8 m J main_v32 c = o4 m c := by
  unfold outs8; rw [dif_neg (by decide)]; exact outs6_v32 m J c
theorem outs8_v46 (J : ℕ) (c : Dev nD) : outs8 m J main_v46 c = o6 m c := by
  unfold outs8; rw [dif_neg (by decide)]; exact outs6_v46 m J c
theorem outs8_v60 (J : ℕ) (c : Dev nD) : outs8 m J main_v60 c = o8 m c := by unfold outs8; rw [dif_pos rfl]
theorem outs_v32 (J : ℕ) (c : Dev nD) : outs m J main_v32 c = o4 m c := by
  unfold outs; rw [dif_neg (by decide)]; exact outs8_v32 m J c
theorem outs_v46 (J : ℕ) (c : Dev nD) : outs m J main_v46 c = o6 m c := by
  unfold outs; rw [dif_neg (by decide)]; exact outs8_v46 m J c
theorem outs_v60 (J : ℕ) (c : Dev nD) : outs m J main_v60 c = o8 m c := by
  unfold outs; rw [dif_neg (by decide)]; exact outs8_v60 m J c
theorem outs_v81 (J : ℕ) (c : Dev nD) : outs m J main_v81 c = o10 m c := by unfold outs; rw [dif_pos rfl]

/-! The buffer contents between two items depend on the regions' outputs only at the outputs of the regions already
    run: two output families that agree there give the same contents. -/

theorem V4_congr (o o' : Outs (F := F)) (c : Dev nD) (h4 : o 4 main_v32 c = o' 4 main_v32 c) : V4 m o c = V4 m o' c := by
  show Function.update (V3 m c) main_v32 (o 4 main_v32 c) = Function.update (V3 m c) main_v32 (o' 4 main_v32 c)
  rw [h4]
theorem V5_congr (o o' : Outs (F := F)) (c : Dev nD) (h4 : o 4 main_v32 c = o' 4 main_v32 c) : V5 m o c = V5 m o' c := by
  show StableHlo.after hostOps1 (V4 m o c) = StableHlo.after hostOps1 (V4 m o' c)
  rw [V4_congr m o o' c h4]
theorem V6_congr (o o' : Outs (F := F)) (c : Dev nD) (h4 : o 4 main_v32 c = o' 4 main_v32 c) (h6 : o 6 main_v46 c = o' 6 main_v46 c) :
    V6 m o c = V6 m o' c := by
  show Function.update (V5 m o c) main_v46 (o 6 main_v46 c) = Function.update (V5 m o' c) main_v46 (o' 6 main_v46 c)
  rw [V5_congr m o o' c h4, h6]
theorem V7_congr (o o' : Outs (F := F)) (c : Dev nD) (h4 : o 4 main_v32 c = o' 4 main_v32 c) (h6 : o 6 main_v46 c = o' 6 main_v46 c) :
    V7 m o c = V7 m o' c := by
  show StableHlo.after hostOps2 (V6 m o c) = StableHlo.after hostOps2 (V6 m o' c)
  rw [V6_congr m o o' c h4 h6]
theorem V8_congr (o o' : Outs (F := F)) (c : Dev nD) (h4 : o 4 main_v32 c = o' 4 main_v32 c) (h6 : o 6 main_v46 c = o' 6 main_v46 c)
    (h8 : o 8 main_v60 c = o' 8 main_v60 c) : V8 m o c = V8 m o' c := by
  show Function.update (V7 m o c) main_v60 (o 8 main_v60 c) = Function.update (V7 m o' c) main_v60 (o' 8 main_v60 c)
  rw [V7_congr m o o' c h4 h6, h8]
theorem V9_congr (o o' : Outs (F := F)) (c : Dev nD) (h4 : o 4 main_v32 c = o' 4 main_v32 c) (h6 : o 6 main_v46 c = o' 6 main_v46 c)
    (h8 : o 8 main_v60 c = o' 8 main_v60 c) : V9 m o c = V9 m o' c := by
  show StableHlo.after hostOps3 (V8 m o c) = StableHlo.after hostOps3 (V8 m o' c)
  rw [V8_congr m o o' c h4 h6 h8]

theorem V5_outs (c : Dev nD) : V5 m (outs m) c = V5 m (outs4 m) c :=
  V5_congr m _ _ c ((outs_v32 m 4 c).trans (outs4_v32 m 4 c).symm)
theorem V7_outs (c : Dev nD) : V7 m (outs m) c = V7 m (outs6 m) c :=
  V7_congr m _ _ c ((outs_v32 m 4 c).trans (outs6_v32 m 4 c).symm) ((outs_v46 m 6 c).trans (outs6_v46 m 6 c).symm)
theorem V9_outs (c : Dev nD) : V9 m (outs m) c = V9 m (outs8 m) c :=
  V9_congr m _ _ c ((outs_v32 m 4 c).trans (outs8_v32 m 4 c).symm) ((outs_v46 m 6 c).trans (outs8_v46 m 6 c).symm)
    ((outs_v60 m 8 c).trans (outs8_v60 m 8 c).symm)

/-! ## The proof data of the four pipelines, each at its region's entry contents -/

/-- A literal match, so that the pipeline at a numeral reduces to the printed configuration. -/
def pdats : (p : Fin 4) → (c : Dev nD) → Dat τ (Elt F) Unit ℕ (UR sig nD τ) ℕ (cfgs p) c
  | ⟨0, _⟩ => fun c => Rg0.dat0 (atTc (V3 m)) c
  | ⟨1, _⟩ => fun c => Rg1.dat1 (atTc (V5 m (outs4 m))) c
  | ⟨2, _⟩ => fun c => Rg2.dat2 (atTc (V7 m (outs6 m))) c
  | ⟨3, _⟩ => fun c => Rg3.dat3 (atTc (V9 m (outs8 m))) c

/-- Each pipeline's arrays are its region's entry contents, stated over the one family of all four outputs. -/
theorem hA0 (c : Dev nD) (w : Fin cfg0.W) : (pdats m 0 c).A w = atTc (V3 m) c (Pipeline.arrRef spec0 w) :=
  Rg0.A_eq0 (atTc (V3 m)) c w
theorem hA1 (c : Dev nD) (w : Fin cfg1.W) : (pdats m 1 c).A w = atTc (V5 m (outs m)) c (Pipeline.arrRef spec1 w) :=
  (Rg1.A_eq1 (atTc (V5 m (outs4 m))) c w).trans (congrFun (V5_outs m c).symm _)
theorem hA2 (c : Dev nD) (w : Fin cfg2.W) : (pdats m 2 c).A w = atTc (V7 m (outs m)) c (Pipeline.arrRef spec2 w) :=
  (Rg2.A_eq2 (atTc (V7 m (outs6 m))) c w).trans (congrFun (V7_outs m c).symm _)
theorem hA3 (c : Dev nD) (w : Fin cfg3.W) : (pdats m 3 c).A w = atTc (V9 m (outs m)) c (Pipeline.arrRef spec3 w) :=
  (Rg3.A_eq3 (atTc (V9 m (outs8 m))) c w).trans (congrFun (V9_outs m c).symm _)

end Cert.KernelIdeal.Run

end
-- ==== Proof.Run.lean ====
/- @main of the program as four kernel regions among stretches of host operations, second part: the buffers at each
   region's exit, the regions as segments of the run, and the frame. -/
import proofs.«429345_j86552180949235_1_alg».proof.Proof.RunData
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers at a region's exit

At a region's exit each of its arrays holds what the pipeline leaves — an input what it held at entry, the output the
fold of its write-backs — and every other buffer what it held at entry. -/

theorem exit0_0 (c : Dev nD) : (pdats m 0 c).arrAt 0 cfg0.N = V4 m (outs m) c main_arg0 :=
  calc (pdats m 0 c).arrAt 0 cfg0.N = (pdats m 0 c).A 0 := (pdats m 0 c).arrAt_in 0 rfl _
    _ = V3 m c main_arg0 := hA0 m c 0
    _ = V4 m (outs m) c main_arg0 := (V4_of m (outs m) c main_arg0 (by decide)).symm
theorem exit0_1 (c : Dev nD) : (pdats m 0 c).arrAt 1 cfg0.N = V4 m (outs m) c main_arg3 :=
  calc (pdats m 0 c).arrAt 1 cfg0.N = (pdats m 0 c).A 1 := (pdats m 0 c).arrAt_in 1 rfl _
    _ = V3 m c main_arg3 := hA0 m c 1
    _ = V4 m (outs m) c main_arg3 := (V4_of m (outs m) c main_arg3 (by decide)).symm
theorem exit0_2 (c : Dev nD) : (pdats m 0 c).arrAt 2 cfg0.N = V4 m (outs m) c main_v32 := by
  show o4 m c = Function.update (V3 m c) (Proc.devRef .tc main_v32) (outs m 4 main_v32 c) (Proc.devRef .tc main_v32)
  rw [Function.update_self, outs_v32]

theorem hF0 (c : Dev nD) : ∀ w : Fin cfg0.W, (pdats m 0 c).arrAt w cfg0.N = atTc (V4 m (outs m)) c (Pipeline.arrRef spec0 w)
  | ⟨0, _⟩ => exit0_0 m c
  | ⟨1, _⟩ => exit0_1 m c
  | ⟨2, _⟩ => exit0_2 m c
theorem hrest0 (c : Dev nD) : ∀ b, b ∉ Finset.univ.image (Pipeline.arrRef spec0) → atTc (V4 m (outs m)) c b = atTc (V3 m) c b :=
  fun b hb => V4_of m (outs m) c b fun h => hb (Finset.mem_image.mpr ⟨2, Finset.mem_univ _, (List.mem_singleton.mp h).symm⟩)

theorem exit1_0 (c : Dev nD) : (pdats m 1 c).arrAt 0 cfg1.N = V6 m (outs m) c main_v45 :=
  calc (pdats m 1 c).arrAt 0 cfg1.N = (pdats m 1 c).A 0 := (pdats m 1 c).arrAt_in 0 rfl _
    _ = V5 m (outs m) c main_v45 := hA1 m c 0
    _ = V6 m (outs m) c main_v45 := (V6_of m (outs m) c main_v45 (by decide)).symm
theorem exit1_1 (c : Dev nD) : (pdats m 1 c).arrAt 1 cfg1.N = V6 m (outs m) c main_arg4 :=
  calc (pdats m 1 c).arrAt 1 cfg1.N = (pdats m 1 c).A 1 := (pdats m 1 c).arrAt_in 1 rfl _
    _ = V5 m (outs m) c main_arg4 := hA1 m c 1
    _ = V6 m (outs m) c main_arg4 := (V6_of m (outs m) c main_arg4 (by decide)).symm
theorem exit1_2 (c : Dev nD) : (pdats m 1 c).arrAt 2 cfg1.N = V6 m (outs m) c main_arg5 :=
  calc (pdats m 1 c).arrAt 2 cfg1.N = (pdats m 1 c).A 2 := (pdats m 1 c).arrAt_in 2 rfl _
    _ = V5 m (outs m) c main_arg5 := hA1 m c 2
    _ = V6 m (outs m) c main_arg5 := (V6_of m (outs m) c main_arg5 (by decide)).symm
theorem exit1_3 (c : Dev nD) : (pdats m 1 c).arrAt 3 cfg1.N = V6 m (outs m) c main_v46 := by
  show o6 m c = Function.update (V5 m (outs m) c) (Proc.devRef .tc main_v46) (outs m 6 main_v46 c) (Proc.devRef .tc main_v46)
  rw [Function.update_self, outs_v46]

theorem hF1 (c : Dev nD) : ∀ w : Fin cfg1.W, (pdats m 1 c).arrAt w cfg1.N = atTc (V6 m (outs m)) c (Pipeline.arrRef spec1 w)
  | ⟨0, _⟩ => exit1_0 m c
  | ⟨1, _⟩ => exit1_1 m c
  | ⟨2, _⟩ => exit1_2 m c
  | ⟨3, _⟩ => exit1_3 m c
theorem hrest1 (c : Dev nD) : ∀ b, b ∉ Finset.univ.image (Pipeline.arrRef spec1) → atTc (V6 m (outs m)) c b = atTc (V5 m (outs m)) c b :=
  fun b hb => V6_of m (outs m) c b fun h => hb (Finset.mem_image.mpr ⟨3, Finset.mem_univ _, (List.mem_singleton.mp h).symm⟩)

theorem exit2_0 (c : Dev nD) : (pdats m 2 c).arrAt 0 cfg2.N = V8 m (outs m) c main_v59 :=
  calc (pdats m 2 c).arrAt 0 cfg2.N = (pdats m 2 c).A 0 := (pdats m 2 c).arrAt_in 0 rfl _
    _ = V7 m (outs m) c main_v59 := hA2 m c 0
    _ = V8 m (outs m) c main_v59 := (V8_of m (outs m) c main_v59 (by decide)).symm
theorem exit2_1 (c : Dev nD) : (pdats m 2 c).arrAt 1 cfg2.N = V8 m (outs m) c main_arg6 :=
  calc (pdats m 2 c).arrAt 1 cfg2.N = (pdats m 2 c).A 1 := (pdats m 2 c).arrAt_in 1 rfl _
    _ = V7 m (outs m) c main_arg6 := hA2 m c 1
    _ = V8 m (outs m) c main_arg6 := (V8_of m (outs m) c main_arg6 (by decide)).symm
theorem exit2_2 (c : Dev nD) : (pdats m 2 c).arrAt 2 cfg2.N = V8 m (outs m) c main_arg7 :=
  calc (pdats m 2 c).arrAt 2 cfg2.N = (pdats m 2 c).A 2 := (pdats m 2 c).arrAt_in 2 rfl _
    _ = V7 m (outs m) c main_arg7 := hA2 m c 2
    _ = V8 m (outs m) c main_arg7 := (V8_of m (outs m) c main_arg7 (by decide)).symm
theorem exit2_3 (c : Dev nD) : (pdats m 2 c).arrAt 3 cfg2.N = V8 m (outs m) c main_v60 := by
  show o8 m c = Function.update (V7 m (outs m) c) (Proc.devRef .tc main_v60) (outs m 8 main_v60 c) (Proc.devRef .tc main_v60)
  rw [Function.update_self, outs_v60]

theorem hF2 (c : Dev nD) : ∀ w : Fin cfg2.W, (pdats m 2 c).arrAt w cfg2.N = atTc (V8 m (outs m)) c (Pipeline.arrRef spec2 w)
  | ⟨0, _⟩ => exit2_0 m c
  | ⟨1, _⟩ => exit2_1 m c
  | ⟨2, _⟩ => exit2_2 m c
  | ⟨3, _⟩ => exit2_3 m c
theorem hrest2 (c : Dev nD) : ∀ b, b ∉ Finset.univ.image (Pipeline.arrRef spec2) → atTc (V8 m (outs m)) c b = atTc (V7 m (outs m)) c b :=
  fun b hb => V8_of m (outs m) c b fun h => hb (Finset.mem_image.mpr ⟨3, Finset.mem_univ _, (List.mem_singleton.mp h).symm⟩)

theorem exit3_0 (c : Dev nD) : (pdats m 3 c).arrAt 0 cfg3.N = V10 m (outs m) c main_v73 :=
  calc (pdats m 3 c).arrAt 0 cfg3.N = (pdats m 3 c).A 0 := (pdats m 3 c).arrAt_in 0 rfl _
    _ = V9 m (outs m) c main_v73 := hA3 m c 0
    _ = V10 m (outs m) c main_v73 := (V10_of m (outs m) c main_v73 (by decide)).symm
theorem exit3_1 (c : Dev nD) : (pdats m 3 c).arrAt 1 cfg3.N = V10 m (outs m) c main_arg8 :=
  calc (pdats m 3 c).arrAt 1 cfg3.N = (pdats m 3 c).A 1 := (pdats m 3 c).arrAt_in 1 rfl _
    _ = V9 m (outs m) c main_arg8 := hA3 m c 1
    _ = V10 m (outs m) c main_arg8 := (V10_of m (outs m) c main_arg8 (by decide)).symm
theorem exit3_2 (c : Dev nD) : (pdats m 3 c).arrAt 2 cfg3.N = V10 m (outs m) c main_v80 :=
  calc (pdats m 3 c).arrAt 2 cfg3.N = (pdats m 3 c).A 2 := (pdats m 3 c).arrAt_in 2 rfl _
    _ = V9 m (outs m) c main_v80 := hA3 m c 2
    _ = V10 m (outs m) c main_v80 := (V10_of m (outs m) c main_v80 (by decide)).symm
theorem exit3_3 (c : Dev nD) : (pdats m 3 c).arrAt 3 cfg3.N = V10 m (outs m) c main_arg9 :=
  calc (pdats m 3 c).arrAt 3 cfg3.N = (pdats m 3 c).A 3 := (pdats m 3 c).arrAt_in 3 rfl _
    _ = V9 m (outs m) c main_arg9 := hA3 m c 3
    _ = V10 m (outs m) c main_arg9 := (V10_of m (outs m) c main_arg9 (by decide)).symm
theorem exit3_4 (c : Dev nD) : (pdats m 3 c).arrAt 4 cfg3.N = V10 m (outs m) c main_arg10 :=
  calc (pdats m 3 c).arrAt 4 cfg3.N = (pdats m 3 c).A 4 := (pdats m 3 c).arrAt_in 4 rfl _
    _ = V9 m (outs m) c main_arg10 := hA3 m c 4
    _ = V10 m (outs m) c main_arg10 := (V10_of m (outs m) c main_arg10 (by decide)).symm
theorem exit3_5 (c : Dev nD) : (pdats m 3 c).arrAt 5 cfg3.N = V10 m (outs m) c main_v81 := by
  show o10 m c = Function.update (V9 m (outs m) c) (Proc.devRef .tc main_v81) (outs m 10 main_v81 c) (Proc.devRef .tc main_v81)
  rw [Function.update_self, outs_v81]

theorem hF3 (c : Dev nD) : ∀ w : Fin cfg3.W, (pdats m 3 c).arrAt w cfg3.N = atTc (V10 m (outs m)) c (Pipeline.arrRef spec3 w)
  | ⟨0, _⟩ => exit3_0 m c
  | ⟨1, _⟩ => exit3_1 m c
  | ⟨2, _⟩ => exit3_2 m c
  | ⟨3, _⟩ => exit3_3 m c
  | ⟨4, _⟩ => exit3_4 m c
  | ⟨5, _⟩ => exit3_5 m c
theorem hrest3 (c : Dev nD) : ∀ b, b ∉ Finset.univ.image (Pipeline.arrRef spec3) → atTc (V10 m (outs m)) c b = atTc (V9 m (outs m)) c b :=
  fun b hb => V10_of m (outs m) c b fun h => hb (Finset.mem_image.mpr ⟨5, Finset.mem_univ _, (List.mem_singleton.mp h).symm⟩)

/-! ## The regions as segments of the run -/

/-- No core owes another anything: no level is assigned. -/
abbrev Lnone : GSem nD τ sig → Finset Unit := fun _ => ∅
abbrev lvnone : GSem nD τ sig → Unit → ℕ := fun _ _ => 0
/-- What rides beside the buffers through every item: the core's generator register at some state and what the core
    owes, which is nothing. -/
abbrev Rr (c : Dev nD) : sProp 𝕄 := iprop((∃ r, prngReg c r) ∗ ∃ W, owes (c : Thread nD τ) (0 : CellTallies nD τ sig Unit) W)

-- a library lemma stated over the pinned configuration unifies only when unification may unfold plain definitions in
-- a metavariable's type
set_option backward.isDefEq.respectTransparency.types false in
/-- Region 0 (the first layer's dense map) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg0 : Pipeline.RegionSeg (pcfgs (F := F)) adm (pdats m) () defs₀ Variants.none Lnone lvnone 0 where
  win := launch0.win.to₀
  block_pos := launch0.block_pos
  stage_whole := launch0.stage_whole
  K := PEmpty
  osem k := k.elim
  ho := Pipeline.OwnSemFacts.none _
  hbody c := (Rg0.body_obligation0 (atTc (V3 m)) c).loose
  hwaits := Pipeline.hwaits_of_owed_zero _ _ _ _ Lnone lvnone 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V3 m) c) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V3 m) c) (atTc (V4 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in
-- a metavariable's type
set_option backward.isDefEq.respectTransparency.types false in
/-- Region 1 (the second layer's dense map over the first's bias and rectifier) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg1 : Pipeline.RegionSeg (pcfgs (F := F)) adm (pdats m) () defs₀ Variants.none Lnone lvnone 1 where
  win := launch1.win.to₀
  block_pos := launch1.block_pos
  stage_whole := launch1.stage_whole
  K := PEmpty
  osem k := k.elim
  ho := Pipeline.OwnSemFacts.none _
  hbody c := (Rg1.body_obligation1 (atTc (V5 m (outs4 m))) c).loose
  hwaits := Pipeline.hwaits_of_owed_zero _ _ _ _ Lnone lvnone 1 fun _ _ => rfl
  pre c := iprop(StableHlo.held (c : Thread nD τ) (Pipeline.ucRefs τ sig) (V5 m (outs m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (atTc (V5 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (V5 m (outs m)) c) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (V5 m (outs m)) c) (atTc (V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in
-- a metavariable's type
set_option backward.isDefEq.respectTransparency.types false in
/-- Region 2 (the third layer's dense map over the second's bias and rectifier) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg2 : Pipeline.RegionSeg (pcfgs (F := F)) adm (pdats m) () defs₀ Variants.none Lnone lvnone 2 where
  win := launch2.win.to₀
  block_pos := launch2.block_pos
  stage_whole := launch2.stage_whole
  K := PEmpty
  osem k := k.elim
  ho := Pipeline.OwnSemFacts.none _
  hbody c := (Rg2.body_obligation2 (atTc (V7 m (outs6 m))) c).loose
  hwaits := Pipeline.hwaits_of_owed_zero _ _ _ _ Lnone lvnone 2 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec2 c (atTc (V7 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (V7 m (outs m)) c) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (V7 m (outs m)) c) (atTc (V8 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies only when unification may unfold plain definitions in
-- a metavariable's type
set_option backward.isDefEq.respectTransparency.types false in
/-- Region 3 (the pooling and the classifier; its invariant also carries the two accumulators) as a segment of the run: entered with every unscoped buffer at the contents the items before
    it leave, left with its output array at the fold of its write-backs and every other buffer as entered. Its arrays are
    split out of the unscoped buffers at entry and put back at exit; the generator register goes into the pipeline's
    invariant and comes back; nothing is owed; the kernel has no semaphore of its own. -/
def reg3 : Pipeline.RegionSeg (pcfgs (F := F)) adm (pdats m) () defs₀ Variants.none Lnone lvnone 3 where
  win := launch3.win.to₀
  block_pos := launch3.block_pos
  stage_whole := launch3.stage_whole
  K := PEmpty
  osem k := k.elim
  ho := Pipeline.OwnSemFacts.none _
  hbody c := (Rg3.body_obligation3 (atTc (V9 m (outs8 m))) c).loose
  hwaits := Pipeline.hwaits_of_owed_zero _ _ _ _ Lnone lvnone 3 fun _ _ => rfl
  pre c := iprop(StableHlo.held (c : Thread nD τ) (Pipeline.ucRefs τ sig) (V9 m (outs m) c) ∗ Rr c)
  post c := iprop(StableHlo.held (c : Thread nD τ) (Pipeline.ucRefs τ sig) (V10 m (outs m) c) ∗ Rr c)
  X c := iprop(∃ r, prngReg c r)
  Y c := iprop(∃ r, prngReg c r)
  Z c := Pipeline.unscopedRest (Ix := Unit) (Name := ℕ) (U := UR sig nD τ) (Lvl := ℕ) spec3 c (atTc (V9 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (V9 m (outs m)) c) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show _ ⊢ Pipeline.ΦA spec3 c from by
      unfold Pipeline.ΦA
      iintro ⟨Hp, -, Hr⟩
      isplitl [Hr]; · iexact Hr
      iexact Hp).trans (Rg3.hin3 (atTc (V9 m (outs8 m))) c)
  hout c := (Rg3.hout3 (atTc (V9 m (outs8 m))) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (V9 m (outs m)) c) (atTc (V10 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch deals the first thread state's rest on every core at once; the last one owes nothing. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lnone lvnone)
      ⊢ (|={Set.univ}=> bigSep Finset.univ (fun c : Dev nD => Rr (F := F) c) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => Rr (F := F) c) : sProp 𝕄) :=
    bigSep_mono fun c _ => by
      show iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄))
        ⊢ iprop((∃ r, prngReg c r) ∗ ∃ W, owes (c : Thread nD τ) (0 : CellTallies nD τ sig Unit) W)
      iintro ⟨-, HO, -, Hp, -⟩
      isplitl [Hp]; · iexists _; iexact Hp
      iexists ∅; iexact HO
  iintro ⟨H, -⟩
  ihave H' := h $$ H
  imodintro
  iexact H'

/-- The launch's ghost state is the pipelines' cells and duty tokens, nothing of the certificate's own. -/
theorem ghost_init :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
/-- THE FRAME, at any instance of the float operations: from any memory with zero counters every weakly fair execution of
    @main terminates, nothing faulting, and every final memory holds each argument array as launched — the
    conditional frame over the four regions' segments. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none Lnone lvnone (fun _ _ => rfl) ρ (outs m) (pdats m) 0 (fun _ => (BI.emp : sProp 𝕄))
    (initOf (Pipeline.cells cfgs cellOf_inj) (Pipeline.launchToks cfgs cellOf_inj)) ghost_init
    (fun _ c => Rr c) (rest_init ρ) (fun c => by iintro ⟨-, H⟩; iexact H)
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.KernelIdeal.Run

end
-- ==== Proof.RunValue.lean ====
/- The run of @main with its result named: every weakly fair execution terminates with the result buffer holding what
   region 3 leaves in its output array, the arguments unchanged. The same launch over the four regions' segments as the
   frame, read at the result buffer too. -/
import proofs.«429345_j86552180949235_1_alg».proof.Proof.Run
import proofs.«429345_j86552180949235_1_alg».proof.Proof.RunCond

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- After the last item the result buffer holds what region 3 left in its output array. -/
theorem V10_result (c : Dev nD) : V10 m (outs m) c main_v81 = o10 m c := by
  show Function.update (V9 m (outs m) c) (Proc.devRef .tc main_v81) (outs m 10 main_v81 c) (Proc.devRef .tc main_v81) = o10 m c
  rw [Function.update_self, outs_v81]

set_option backward.isDefEq.respectTransparency.types false in
/-- The run with the result named, at any instance of the float operations. -/
theorem run_value (ρ : Dev nD → PrngReg) :
    θ_run defs (onTc (τ := τ) (main (F := F))) ⟨m, fun _ => 0, ρ⟩ (fun r => ∀ c : Dev nD,
      r.2.mem ((c.tc : Thread nD τ).loc main_v81) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (V10_result m c), (h c).2⟩)
    (Cert.KernelIdeal.GenP.run_cond m emb₁ () Variants.none Lnone lvnone (fun _ _ => rfl) ρ (outs m) (pdats m) 0 (fun _ => (BI.emp : sProp 𝕄))
      (initOf (Pipeline.cells cfgs cellOf_inj) (Pipeline.launchToks cfgs cellOf_inj)) ghost_init
      (fun _ c => Rr c) (rest_init ρ) (fun c => by iintro ⟨-, H⟩; iexact H)
      (reg0 m) (fun _ => .rfl) (fun _ => .rfl) (reg1 m) (fun _ => .rfl) (fun _ => .rfl)
      (reg2 m) (fun _ => .rfl) (fun _ => .rfl) (reg3 m) (fun _ => .rfl) (fun _ => .rfl))

end Cert.KernelIdeal.Run

end
-- ==== Proof.Val0.lean ====
/- Region 0's value. The first dense map multiplies the node features [50000,3] by the first weight matrix [3,128];
   the pipeline does it block by block: at grid point t the body reads rows 2000·t … 2000·t+1999 of the features and the
   whole weight matrix, and stores their product (both operands passed through a narrowing of the float format, which
   is the identity on exact values, into a zero accumulator) as rows 2000·t … 2000·t+1999 of the result. Read at an
   index (r, j) the stored block is the sum over k < 3 of feature (2000·t + r, k) times weight (k, j), which is the
   entry (2000·t + r, j) of the product of the whole arrays; every row of the result lies in exactly the block of the
   point r / 2000, and every point writes its block back, so the result array ends holding the product: the value the
   reference's contraction of the same two arrays has. -/
import proofs.«429345_j86552180949235_1_alg».proof.Proof.Rg0
import proofs.«429345_j86552180949235_1_alg».proof.Proof.RefRead
import Idealize.ShloMosaic.Lib.Pipeline.Value
import Idealize.ShloMosaic.Lib.ValueIdx
import Idealize.ShloMosaic.PureOps.Ideal.Laws

noncomputable section

namespace Cert.KernelIdeal.Val0

open Cert.KernelIdeal Cert.KernelIdeal.Gen Cert.KernelIdeal.Rg0
open Idealize.ShloMosaic Idealize.ShloMosaic.TcCoe Idealize.SL.Sem
open Idealize.ShloMosaic.Pipeline (Dat)

/-! ## The block product at an index -/

/-- The left operand's index of the block product at output index `i` and contraction index `q`: its row is `i`'s row, -/
theorem lhs_k0_0 (i : S2000x128.Idx) (q : dot_S2000x3_S3x128_S2000x128_1_0_0_1_n_n.contr.Idx) :
    (dot_S2000x3_S3x128_S2000x128_1_0_0_1_n_n.lhsIdx i q 0).val = (i 0).val := by
  unfold DotDims.lhsIdx
  rw [dif_neg (show ¬(0 : Fin S2000x3.rank) ∈ dot_S2000x3_S3x128_S2000x128_1_0_0_1_n_n.lhsBatch by decide), dif_pos (show (0 : Fin S2000x3.rank) ∈ dot_S2000x3_S3x128_S2000x128_1_0_0_1_n_n.lhsNonContracting by decide)]
  rfl
/-- its column is the contraction coordinate; -/
theorem lhs_k0_1 (i : S2000x128.Idx) (q : dot_S2000x3_S3x128_S2000x128_1_0_0_1_n_n.contr.Idx) :
    (dot_S2000x3_S3x128_S2000x128_1_0_0_1_n_n.lhsIdx i q 1).val = (q ⟨0, by decide⟩).val :=
  dot_S2000x3_S3x128_S2000x128_1_0_0_1_n_n.lhsIdx_val_of_single rfl i q
/-- the right operand's row is the contraction coordinate, -/
theorem rhs_k0_0 (i : S2000x128.Idx) (q : dot_S2000x3_S3x128_S2000x128_1_0_0_1_n_n.contr.Idx) :
    (dot_S2000x3_S3x128_S2000x128_1_0_0_1_n_n.rhsIdx i q 0).val = (q ⟨0, by decide⟩).val :=
  dot_S2000x3_S3x128_S2000x128_1_0_0_1_n_n.rhsIdx_val_of_single rfl i q
/-- its column is `i`'s column. -/
theorem rhs_k0_1 (i : S2000x128.Idx) (q : dot_S2000x3_S3x128_S2000x128_1_0_0_1_n_n.contr.Idx) :
    (dot_S2000x3_S3x128_S2000x128_1_0_0_1_n_n.rhsIdx i q 1).val = (i 1).val := by
  unfold DotDims.rhsIdx
  rw [dif_neg (show ¬(1 : Fin S3x128.rank) ∈ dot_S2000x3_S3x128_S2000x128_1_0_0_1_n_n.rhsBatch by decide), dif_pos (show (1 : Fin S3x128.rank) ∈ dot_S2000x3_S3x128_S2000x128_1_0_0_1_n_n.rhsNonContracting by decide)]
  rfl

/-- Entry (row of `i`, `k`) of a feature block, -/
abbrev xrow (i : S2000x128.Idx) (k : Fin 3) : S2000x3.Idx := fun a => match a with
  | ⟨0, _⟩ => ⟨(i 0).val, (i 0).isLt⟩
  | ⟨1, _⟩ => ⟨k.val, k.isLt⟩
/-- and entry (`k`, column of `i`) of the weights. -/
abbrev wcol (i : S2000x128.Idx) (k : Fin 3) : S3x128.Idx := fun a => match a with
  | ⟨0, _⟩ => ⟨k.val, k.isLt⟩
  | ⟨1, _⟩ => ⟨(i 1).val, (i 1).isLt⟩

/-- The body's payload at an index: the narrowing of the format changes no exact value and the accumulator is zero,
    so the entry is the plain sum of the three products along the row and the column. -/
theorem pay_apply (x0 : Vec Ideal S2000x3 .f32) (x1 : Vec Ideal S3x128 .f32) (i : S2000x128.Idx) :
    k0_pay1 (F := Ideal) x0 x1 i = ∑ k : Fin 3, x0 (xrow i k) * x1 (wcol i k) := by
  unfold k0_pay1
  refine (Ideal.matmul_constant_zero_apply dot_S2000x3_S3x128_S2000x128_1_0_0_1_n_n none (truncf .bf16 x0 bitsLt_bf16_f32) (truncf .bf16 x1 bitsLt_bf16_f32) i).trans ?_
  rw [← Equiv.sum_comp (ValueIdx.contrEquiv1 dot_S2000x3_S3x128_S2000x128_1_0_0_1_n_n 3 rfl rfl).symm]
  refine Finset.sum_congr rfl fun k _ => ?_
  have hk := ValueIdx.contrEquiv1_symm_val dot_S2000x3_S3x128_S2000x128_1_0_0_1_n_n 3 rfl rfl k
  have el : dot_S2000x3_S3x128_S2000x128_1_0_0_1_n_n.lhsIdx i ((ValueIdx.contrEquiv1 dot_S2000x3_S3x128_S2000x128_1_0_0_1_n_n 3 rfl rfl).symm k) = xrow i k := funext fun a => Fin.ext (by
    match a with
    | ⟨0, _⟩ => exact lhs_k0_0 _ _
    | ⟨1, _⟩ => exact (lhs_k0_1 _ _).trans hk)
  have er : dot_S2000x3_S3x128_S2000x128_1_0_0_1_n_n.rhsIdx i ((ValueIdx.contrEquiv1 dot_S2000x3_S3x128_S2000x128_1_0_0_1_n_n 3 rfl rfl).symm k) = wcol i k := funext fun a => Fin.ext (by
    match a with
    | ⟨0, _⟩ => exact (rhs_k0_0 _ _).trans hk
    | ⟨1, _⟩ => exact rhs_k0_1 _ _)
  rw [el, er]
  rfl

/-! ## The whole product, and a block of it -/

/-- Entry (row of `i`, `k`) of the feature array, -/
abbrev arow (i : S50000x128.Idx) (k : Fin 3) : S50000x3.Idx := fun a => match a with
  | ⟨0, _⟩ => ⟨(i 0).val, (i 0).isLt⟩
  | ⟨1, _⟩ => ⟨k.val, k.isLt⟩
/-- and entry (`k`, column of `i`) of the weights. -/
abbrev acol (i : S50000x128.Idx) (k : Fin 3) : S3x128.Idx := fun a => match a with
  | ⟨0, _⟩ => ⟨k.val, k.isLt⟩
  | ⟨1, _⟩ => ⟨(i 1).val, (i 1).isLt⟩

/-- The product of the feature array and the weights, entry by entry. -/
def prod0 (a0 : S50000x3.Idx → EReal) (a3 : S3x128.Idx → EReal) : S50000x128.Idx → EReal :=
  fun i => ∑ k : Fin 3, a0 (arow i k) * a3 (acol i k)

/-- A block's product at `j` is the whole product at `i` when the block's row of `j` is the array's row of `i` and the
    weights' column of `j` is the weights' column of `i`. -/
theorem pay_eq_prod0 (x0 : Vec Ideal S2000x3 .f32) (x1 : Vec Ideal S3x128 .f32) (a0 : S50000x3.Idx → EReal) (a3 : S3x128.Idx → EReal)
    (j : S2000x128.Idx) (i : S50000x128.Idx)
    (h0 : ∀ k : Fin 3, x0 (xrow j k) = a0 (arow i k)) (h1 : ∀ k : Fin 3, x1 (wcol j k) = a3 (acol i k)) :
    k0_pay1 (F := Ideal) x0 x1 j = prod0 a0 a3 i := by
  rw [pay_apply]
  unfold prod0
  exact Finset.sum_congr rfl fun k _ => by rw [h0 k, h1 k]

/-- The two zero offsets, as the constant function. -/
theorem zero_offsets : (![0, 0] : Fin 2 → Nat) = fun _ => 0 := funext fun a => by fin_cases a <;> rfl

/-- The windows' block indices over the grid: the feature window and the result window sit at block row `t`, column block
    0; the weight window at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the arrays as the region finds them. -/
theorem written_back_is_block (c : Dev nD) (t : Fin cfg0.N) :
    (dat0 (F := Ideal) V c).flushed 2 t = ((cfg0.win 2).blk t).view.read (Elt Ideal) (prod0 (V c main_arg0) (V c main_arg3)) := by
  show (cfg0.win 2).cut (grid0.coords t) ((dat0 (F := Ideal) V c).after 2 t) = _
  rw [after0_2]
  unfold out0_2
  rw [View.canon_unit_zero zero_offsets]
  simp only [View.ld_unit_zero (S := S2000x3) zero_offsets, View.ld_unit_zero (S := S3x128) zero_offsets]
  obtain ⟨e0, e1, e2, e3, e4, e5⟩ := block_indices t
  funext j
  show k0_pay1 (F := Ideal) (iblk0 V c 0 t) (iblk0 V c 1 t) j = prod0 (V c main_arg0) (V c main_arg3) (((cfg0.win 2).blk t).view.emb j)
  refine pay_eq_prod0 (iblk0 V c 0 t) (iblk0 V c 1 t) (V c main_arg0) (V c main_arg3) j (((cfg0.win 2).blk t).view.emb j) (fun k => ?_) (fun k => ?_)
  · show V c main_arg0 (((cfg0.win 0).blk t).view.emb (xrow j k)) = V c main_arg0 (arow (((cfg0.win 2).blk t).view.emb j) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; rw [e0, e4]
    | ⟨1, _⟩ => show win0_0.index t (1 : Fin 2) * 3 + 1 * k.val = k.val; rw [e1]; omega
  · show V c main_arg3 (((cfg0.win 1).blk t).view.emb (wcol j k)) = V c main_arg3 (acol (((cfg0.win 2).blk t).view.emb j) k)
    refine congrArg (V c main_arg3) (funext fun a => Fin.ext ?_)
    match a with
    | ⟨0, _⟩ => show win0_1.index t (0 : Fin 2) * 3 + 1 * k.val = k.val; rw [e2]; omega
    | ⟨1, _⟩ => show win0_1.index t (1 : Fin 2) * 128 + 1 * (j 1).val = win0_2.index t (1 : Fin 2) * 128 + 1 * (j 1).val; rw [e3, e5]

/-- An index of the result array is in point `t`'s block iff each coordinate is in the block's range on its axis. -/
theorem mem_result_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Row `r` of the result lies in the block of the point `r / 2000`, which writes it back. -/
theorem row_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := block_indices t
  have e4' : win0_2.index t (0 : Fin 2) = (i 0).val / 2000 := e4
  refine ⟨t, flush0_2 t, ?_⟩
  rw [mem_result_block]
  intro a
  match a with
  | ⟨0, _⟩ => show win0_2.index t (0 : Fin 2) * 2000 ≤ (i 0).val ∧ (i 0).val < win0_2.index t (0 : Fin 2) * 2000 + 2000; rw [e4']; omega
  | ⟨1, _⟩ => show win0_2.index t (1 : Fin 2) * 128 ≤ (i 1).val ∧ (i 1).val < win0_2.index t (1 : Fin 2) * 128 + 128; rw [e5]; omega

/-- The result array after the region is the product of the features and the weights it was entered with. -/
theorem result_is_prod0 (c : Dev nD) : (dat0 (F := Ideal) V c).arrAt 2 cfg0.N = prod0 (V c main_arg0) (V c main_arg3) :=
  (dat0 (F := Ideal) V c).arrAt_eq_of_cover 2 (prod0 (V c main_arg0) (V c main_arg3)) (fun t _ => written_back_is_block V c t) row_covered

/-! ## The reference's contraction is the same product -/

/-- The reference's first contraction, read at an index, is the product entry by entry. -/
theorem ref_eq_prod0 (a0 : S50000x3.Idx → EReal) (a3 : S3x128.Idx → EReal) :
    Cert.ReferenceIdeal.ReadP.val_main_v32 (F := Ideal) a0 a3 = prod0 a0 a3 := by
  funext i
  rw [Cert.ReferenceIdeal.ReadP.val_main_v32_apply]
  rfl

/-- Region 0's result array is the reference's stage %32 of the two arrays the region was entered with. -/
theorem region0_value (V : (c : Dev nD) → (b : Ref sig .tc) → Buf (Elt Ideal) ((c : Thread nD τ).loc b)) (c : Dev nD) :
    (Cert.KernelIdeal.Rg0.dat0 (F := Ideal) V c).arrAt 2 cfg0.N = Cert.ReferenceIdeal.ReadP.val_main_v32 (F := Ideal) (V c main_arg0) (V c main_arg3) :=
  (result_is_prod0 V c).trans (ref_eq_prod0 (V c main_arg0) (V c main_arg3)).symm

end Cert.KernelIdeal.Val0

end
-- ==== Proof.LayerRef.lean ====
/- One dense step of the reference's graph network, read as a function of its three operands: the aggregated features
   `a` [50000,128], the bias row `b` [128] and the weight matrix `W` [128,128]. The reference adds the bias to every row
   (broadcast first to [1,128], then to [50000,128]), clips below at zero (the maximum with a broadcast zero constant)
   and contracts the columns with the rows of `W`. Layers two and three of the reference are this function at two triples
   of operands; at an entry (p, j) it is the sum over k of max (a[p,k] + b[k], 0) · W[k,j]. -/
import proofs.«429345_j86552180949235_1_alg».proof.Proof.RefRead

noncomputable section

namespace Cert.ReferenceIdeal.LayerRef

open Cert.ReferenceIdeal Cert.ReferenceIdeal.Gen Idealize.ShloMosaic Idealize.ShloMosaic.TcCoe Idealize.SL.Sem Idealize.ShloMosaic.StableHlo
open Idealize.ShloMosaic.ValueIdx

/-- The reference's dense step in the reference's own spelling: bias broadcast twice, sum, maximum with the broadcast
    zero, `dot_general` over the feature axis. -/
def layerRef (a : (⟨S50000x128, .f32⟩ : BufTy).Contents (Elt Ideal)) (b : (⟨S128, .f32⟩ : BufTy).Contents (Elt Ideal))
    (W : (⟨S128x128, .f32⟩ : BufTy).Contents (Elt Ideal)) : (⟨S50000x128, .f32⟩ : BufTy).Contents (Elt Ideal) :=
  Host.dotGeneral (φ₁ := .f32) (φ₂ := .f32) dot_S50000x128_S128x128_S50000x128_1_0_0_1_n_n none
    (maximumf
      (addf a (broadcastInDim S50000x128 ![0, 1] bcast_S1x128_S50000x128_0_1 (broadcastInDim S1x128 ![1] bcast_S128_S1x128_1 (b))))
      (broadcastInDim S50000x128 ![] bcast_S_S50000x128 (constant (F := Ideal) S_ .f32 0x00000000#32)))
    (W)

/-- The second layer's dense step (operations %46–%50) is `layerRef` of the first aggregation, the first bias and the
    second weights: the stages between spell exactly this term. -/
theorem ref_v50 (x0 : (⟨S50000x3, .f32⟩ : BufTy).Contents (Elt Ideal)) (x1 : (⟨S2x600000, .i32⟩ : BufTy).Contents (Elt Ideal))
    (x3 : (⟨S3x128, .f32⟩ : BufTy).Contents (Elt Ideal)) (x4 : (⟨S128, .f32⟩ : BufTy).Contents (Elt Ideal))
    (x5 : (⟨S128x128, .f32⟩ : BufTy).Contents (Elt Ideal)) :
    ReadP.val_main_v50 (F := Ideal) x0 x1 x3 x4 x5 = layerRef (ReadP.val_main_v45 (F := Ideal) x0 x1 x3) x4 x5 := by
  unfold ReadP.val_main_v50 ReadP.val_main_v49 ReadP.val_main_v48 ReadP.val_main_v47 ReadP.val_main_v46
    ReadP.val_main_call1_v0 ReadP.val_main_call1_cst layerRef
  rfl

/-- The third layer's dense step (operations %64–%68) is `layerRef` of the second aggregation, the second bias and the
    third weights. -/
theorem ref_v68 (x0 : (⟨S50000x3, .f32⟩ : BufTy).Contents (Elt Ideal)) (x1 : (⟨S2x600000, .i32⟩ : BufTy).Contents (Elt Ideal))
    (x3 : (⟨S3x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) :
    ReadP.val_main_v68 (F := Ideal) x0 x1 x3 x4 x5 x6 x7 = layerRef (ReadP.val_main_v63 (F := Ideal) x0 x1 x3 x4 x5) x6 x7 := by
  unfold ReadP.val_main_v68 ReadP.val_main_v67 ReadP.val_main_v66 ReadP.val_main_v65 ReadP.val_main_v64
    ReadP.val_main_call2_v0 ReadP.val_main_call2_cst layerRef
  rfl

/-- The bias row after its two broadcasts, at row `p` and column `k`: the bias at `k`, whatever the row. -/
theorem bias_apply (b : (⟨S128, .f32⟩ : BufTy).Contents (Elt Ideal)) (p : Fin 50000) (k : Fin 128) :
    broadcastInDim S50000x128 ![0, 1] bcast_S1x128_S50000x128_0_1 (broadcastInDim S1x128 ![1] bcast_S128_S1x128_1 b) (ix2 p k)
      = b (ix1 k) := by
  generalize hy : broadcastInDim S1x128 ![1] bcast_S128_S1x128_1 b = y
  refine (broadcastInDim_apply _ bcast_S1x128_S50000x128_0_1 y (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])).trans ?_
  subst hy
  exact broadcastInDim_apply _ bcast_S128_S1x128_1 b (ix2 (0 : Fin 1) k) (ix1 k) (fun a => match a with
    | ⟨0, _⟩ => by show k.val = if (128 : Nat) = 1 then 0 else k.val; rw [if_neg (by decide)])

/-- The broadcast zero constant, at any entry: the extended real zero. -/
theorem zero_apply (p : Fin 50000) (k : Fin 128) :
    broadcastInDim S50000x128 ![] bcast_S_S50000x128 (constant (F := Ideal) S_ .f32 0x00000000#32) (ix2 p k) = (0 : EReal) := by
  generalize hy : constant (F := Ideal) S_ .f32 0x00000000#32 = y
  refine (broadcastInDim_apply _ bcast_S_S50000x128 y (ix2 p k) ix0 (fun a => a.elim0)).trans ?_
  subst hy
  exact Ideal.ofBits_zero_f32

/-- The dense step at an entry: row `p` of the biased, rectified features against column `j` of the weights. -/
theorem layerRef_apply (a : (⟨S50000x128, .f32⟩ : BufTy).Contents (Elt Ideal)) (b : (⟨S128, .f32⟩ : BufTy).Contents (Elt Ideal))
    (W : (⟨S128x128, .f32⟩ : BufTy).Contents (Elt Ideal)) (p : Fin 50000) (j : Fin 128) :
    layerRef a b W (ix2 p j) = ∑ k : Fin 128, max (a (ix2 p k) + b (ix1 k)) (0 : EReal) * W (ix2 k j) := by
  unfold layerRef
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p j) ((ValueIdx.contrEquiv1 dot_S50000x128_S128x128_S50000x128_1_0_0_1_n_n 128 rfl rfl).symm k) = ix2 p k := funext fun a => Fin.ext (by
    match a with
    | ⟨0, _⟩ => exact ReadP.lhs_main_v50_0 _ _
    | ⟨1, _⟩ => exact (ReadP.lhs_main_v50_1 _ _).trans hk)
  have er : dot_S50000x128_S128x128_S50000x128_1_0_0_1_n_n.rhsIdx (ix2 p j) ((ValueIdx.contrEquiv1 dot_S50000x128_S128x128_S50000x128_1_0_0_1_n_n 128 rfl rfl).symm k) = ix2 k j := funext fun a => Fin.ext (by
    match a with
    | ⟨0, _⟩ => exact (ReadP.rhs_main_v50_0 _ _).trans hk
    | ⟨1, _⟩ => exact ReadP.rhs_main_v50_1 _ _)
  rw [el, er]
  refine congrArg (· * W (ix2 k j)) ?_
  show max (a (ix2 p k) + _) _ = _
  rw [bias_apply b p k, zero_apply p k]

end Cert.ReferenceIdeal.LayerRef

end
-- ==== Proof.Val1.lean ====
/- The value of region 1 of @main: what the pipeline leaves in the result array, as one function of the arrays the region
   is entered with. Each grid point t stores, into rows 2000·t … 2000·t+1999 of the result, the product of its block of
   the aggregated features — bias added to every row, clipped below at zero — with the whole weight matrix. Entry
   (r, j) of that block is the sum over k of max (x[r,k] + b[k], 0) · W[k,j]: a change of float format is the identity
   on the extended reals and the product accumulates into zero. Row 2000·t + r of the reference's dense step is the same
   sum, the 25 blocks tile the 50000 rows, so the array ends holding the reference's dense step of the entry contents. -/
import proofs.«429345_j86552180949235_1_alg».proof.Proof.Rg1
import proofs.«429345_j86552180949235_1_alg».proof.Proof.LayerRef
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Rg1
open Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-! ## The body's product at an entry -/

/-- The product's left operand index keeps the output's row … -/
theorem lhs_pay_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and takes the contraction coordinate as its column; -/
theorem lhs_pay_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand index takes the contraction coordinate as its row … -/
theorem rhs_pay_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and keeps the output's column. -/
theorem rhs_pay_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The left factor of the product at row `r`, column `k`: the block's entry plus the bias at `k`, clipped below at
    zero (the bias row is cast to one row and that row repeated down the block; the zero is a splat). -/
theorem act_apply (x0 : Vec Ideal S2000x128 .f32) (x1 : Vec Ideal S128 .f32) (r : Fin 2000) (k : Fin 128) :
    maximumf (addf (shapeCast S2000x128 x0 shapeCasts_S2000x128_S2000x128)
        (broadcastTo S2000x128 (shapeCast S1x128 x1 shapeCasts_S128_S1x128) broadcasts_S1x128_S2000x128))
      (broadcast S2000x128 (Scalar.ofBits (F := Ideal) .f32 0x00000000#32)) (ix2 r k)
      = max (x0 (ix2 r k) + x1 (ix1 k)) (0 : EReal) := by
  show max (shapeCast S2000x128 x0 shapeCasts_S2000x128_S2000x128 (ix2 r k)
      + broadcastTo S2000x128 (shapeCast S1x128 x1 shapeCasts_S128_S1x128) broadcasts_S1x128_S2000x128 (ix2 r k))
    (Ideal.ofBits .f32 0x00000000#32) = _
  rw [shapeCast_self, broadcastTo_1b_ab_apply, shapeCast_a_1a_apply, Ideal.ofBits_zero_f32]

/-- THE BODY'S RESULT AT AN ENTRY: row `r` of the biased, rectified block against column `j` of the weights. -/
theorem pay_apply (x0 : Vec Ideal S2000x128 .f32) (x1 : Vec Ideal S128 .f32) (x2 : Vec Ideal S128x128 .f32)
    (r : Fin 2000) (j : Fin 128) :
    k1_pay1 x0 x1 x2 (ix2 r j) = ∑ k : Fin 128, max (x0 (ix2 r k) + x1 (ix1 k)) (0 : EReal) * x2 (ix2 k j) := by
  unfold k1_pay1
  simp only [matmul]
  refine (Ideal.matmul_constant_zero_apply dot_S2000x128_S128x128_S2000x128_1_0_0_1_n_n none _ _ (ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_pay_0 _ _
    | ⟨1, _⟩ => exact (lhs_pay_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_pay_0 _ _).trans hk
    | ⟨1, _⟩ => exact rhs_pay_1 _ _)
  rw [el, er]
  exact congrArg (· * x2 (ix2 k j)) (act_apply x0 x1 r k)

/-! ## The blocks as rows of the arrays -/

variable (V : (c : Dev nD) → (b : Ref sig .tc) → Buf (Elt Ideal) ((c : Thread nD τ).loc b))

/-- The printed index maps over the grid: the feature window and the result window sit at block row `t`, block
    column 0; the bias and weight windows at block 0 throughout. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point `t` is rows 2000·t … 2000·t+1999 of the feature array. -/
theorem feat_apply (c : Dev nD) (t : Fin cfg1.N) (r : Fin 2000) (k : Fin 128) (i : S50000x128.Idx)
    (h0 : (i 0).val = 2000 * t.val + r.val) (h1 : (i 1).val = k.val) :
    (iblk1 V c 0 t : Vec Ideal S2000x128 .f32) (ix2 r k) = (V c main_v45 : S50000x128.Idx → EReal) i := by
  obtain ⟨e0, e1, -⟩ := idx_facts t
  unfold iblk1
  rw [View.read_apply]
  show (V c main_v45 : S50000x128.Idx → EReal) _ = _
  congr 1
  funext a
  apply Fin.ext
  match a with
  | ⟨0, _⟩ => show win1_0.index t (0 : Fin 2) * 2000 + 1 * r.val = (i 0).val; rw [e0, h0]; omega
  | ⟨1, _⟩ => show win1_0.index t (1 : Fin 2) * 128 + 1 * k.val = (i 1).val; rw [e1, h1]; omega

/-- The bias block at every point is the whole bias row. -/
theorem bias_apply (c : Dev nD) (t : Fin cfg1.N) (k : Fin 128) :
    (iblk1 V c 1 t : Vec Ideal S128 .f32) (ix1 k) = (V c main_arg4 : S128.Idx → EReal) (ix1 k) := by
  obtain ⟨-, -, e0, -⟩ := idx_facts t
  unfold iblk1
  rw [View.read_apply]
  show (V c main_arg4 : S128.Idx → EReal) _ = _
  congr 1
  funext a
  apply Fin.ext
  match a with
  | ⟨0, _⟩ => show win1_1.index t (0 : Fin 1) * 128 + 1 * k.val = k.val; rw [e0]; omega

/-- The weight block at every point is the whole weight matrix. -/
theorem wt_apply (c : Dev nD) (t : Fin cfg1.N) (k : Fin 128) (j : Fin 128) :
    (iblk1 V c 2 t : Vec Ideal S128x128 .f32) (ix2 k j) = (V c main_arg5 : S128x128.Idx → EReal) (ix2 k j) := by
  obtain ⟨-, -, -, e0, e1, -⟩ := idx_facts t
  unfold iblk1
  rw [View.read_apply]
  show (V c main_arg5 : S128x128.Idx → EReal) _ = _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * j.val = j.val; rw [e1]; omega

/-! ## From blocks to the array -/

/-- WHAT POINT `t` WRITES BACK is block `t` of the reference's dense step of the arrays the region is entered with:
    entry (r, j) of the body's result and entry (2000·t + r, j) of the dense step are the same sum, term by term. -/
theorem flushed_eq (c : Dev nD) (t : Fin cfg1.N) :
    (dat1 V c).flushed 3 t = ((cfg1.win 3).blk t).view.read (Elt Ideal)
      (Cert.ReferenceIdeal.LayerRef.layerRef (V c main_v45) (V c main_arg4) (V c main_arg5)) := by
  show (cfg1.win 3).cut (grid1.coords t) ((dat1 V c).after 3 t) = _
  rw [after1_3]
  unfold out1_3
  rw [View.canon_unit_zero hz2]
  simp only [View.ld_unit_zero (S := S2000x128) hz2, View.ld_unit_zero (S := S128) hz1, View.ld_unit_zero (S := S128x128) hz2]
  obtain ⟨-, -, -, -, -, e0, e1⟩ := idx_facts t
  have ht : t.val < 25 := lt_of_lt_of_eq t.isLt (show cfg1.N = 25 from N_1)
  funext y
  obtain ⟨r, j, rfl⟩ : ∃ (r : Fin 2000) (j : Fin 128), y = ix2 r j := ⟨y 0, y 1, eq_ix2 y⟩
  have hr : 2000 * t.val + r.val < 50000 := by have := r.isLt; omega
  have hemb : (((cfg1.win 3).blk t).view.emb (ix2 r j) : Cert.ReferenceIdeal.S50000x128.Idx)
      = ix2 (⟨2000 * t.val + r.val, hr⟩ : Fin 50000) j := funext fun a => Fin.ext (by
    match a with
    | ⟨0, _⟩ => show win1_3.index t (0 : Fin 2) * 2000 + 1 * r.val = 2000 * t.val + r.val; rw [e0]; omega
    | ⟨1, _⟩ => show win1_3.index t (1 : Fin 2) * 128 + 1 * j.val = j.val; rw [e1]; omega)
  refine (pay_apply (iblk1 V c 0 t) (iblk1 V c 1 t) (iblk1 V c 2 t) r j).trans ?_
  refine Eq.trans ?_ (congrArg (Cert.ReferenceIdeal.LayerRef.layerRef (V c main_v45) (V c main_arg4) (V c main_arg5)) hemb).symm
  rw [Cert.ReferenceIdeal.LayerRef.layerRef_apply]
  refine Finset.sum_congr rfl fun k _ => ?_
  rw [feat_apply V c t r k (ix2 (⟨2000 * t.val + r.val, hr⟩ : Fin 50000) k) rfl rfl, bias_apply V c t k, wt_apply V c t k j]

/-- A row of the result array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v46).slice (win1_3.rect t)).set ↔ _
  rw [View.set_slice_whole, Rect.mem_set_unit]
  exact Iff.rfl

/-- The 25 blocks of 2000 rows tile the 50000 rows: row `p` is in the block of point `p / 2000`, which writes back. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, e0, e1⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE RESULT ARRAY AFTER THE REGION: the reference's dense step of the feature array, the bias row and the weight
    matrix as the region finds them. -/
theorem region1_value (c : Dev nD) :
    (Cert.KernelIdeal.Rg1.dat1 (F := Ideal) V c).arrAt 3 cfg1.N
      = Cert.ReferenceIdeal.LayerRef.layerRef (V c main_v45) (V c main_arg4) (V c main_arg5) :=
  (dat1 V c).arrAt_eq_of_cover 3 _ (fun t _ => flushed_eq V c t) (fun i => cover i)

end Cert.KernelIdeal.Val1

end
-- ==== Proof.Val2.lean ====
/- The value of region 2 of @main: what the pipeline leaves in the result array, as one function of the arrays the region
   is entered with. Each grid point t stores, into rows 2000·t … 2000·t+1999 of the result, the product of its block of
   the aggregated features — bias added to every row, clipped below at zero — with the whole weight matrix. Entry
   (r, j) of that block is the sum over k of max (x[r,k] + b[k], 0) · W[k,j]: a change of float format is the identity
   on the extended reals and the product accumulates into zero. Row 2000·t + r of the reference's dense step is the same
   sum, the 25 blocks tile the 50000 rows, so the array ends holding the reference's dense step of the entry contents. -/
import proofs.«429345_j86552180949235_1_alg».proof.Proof.Rg2
import proofs.«429345_j86552180949235_1_alg».proof.Proof.LayerRef
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Rg2
open Idealize.ShloMosaic Idealize.ShloMosaic.TcCoe Idealize.SL.Sem
open Idealize.ShloMosaic.Pipeline (Dat)
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-! ## The body's product at an entry -/

/-- The product's left operand index keeps the output's row … -/
theorem lhs_pay_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and takes the contraction coordinate as its column; -/
theorem lhs_pay_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand index takes the contraction coordinate as its row … -/
theorem rhs_pay_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and keeps the output's column. -/
theorem rhs_pay_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The left factor of the product at row `r`, column `k`: the block's entry plus the bias at `k`, clipped below at
    zero (the bias row is cast to one row and that row repeated down the block; the zero is a splat). -/
theorem act_apply (x0 : Vec Ideal S2000x128 .f32) (x1 : Vec Ideal S128 .f32) (r : Fin 2000) (k : Fin 128) :
    maximumf (addf (shapeCast S2000x128 x0 shapeCasts_S2000x128_S2000x128)
        (broadcastTo S2000x128 (shapeCast S1x128 x1 shapeCasts_S128_S1x128) broadcasts_S1x128_S2000x128))
      (broadcast S2000x128 (Scalar.ofBits (F := Ideal) .f32 0x00000000#32)) (ix2 r k)
      = max (x0 (ix2 r k) + x1 (ix1 k)) (0 : EReal) := by
  show max (shapeCast S2000x128 x0 shapeCasts_S2000x128_S2000x128 (ix2 r k)
      + broadcastTo S2000x128 (shapeCast S1x128 x1 shapeCasts_S128_S1x128) broadcasts_S1x128_S2000x128 (ix2 r k))
    (Ideal.ofBits .f32 0x00000000#32) = _
  rw [shapeCast_self, broadcastTo_1b_ab_apply, shapeCast_a_1a_apply, Ideal.ofBits_zero_f32]

/-- THE BODY'S RESULT AT AN ENTRY: row `r` of the biased, rectified block against column `j` of the weights. -/
theorem pay_apply (x0 : Vec Ideal S2000x128 .f32) (x1 : Vec Ideal S128 .f32) (x2 : Vec Ideal S128x128 .f32)
    (r : Fin 2000) (j : Fin 128) :
    k2_pay1 x0 x1 x2 (ix2 r j) = ∑ k : Fin 128, max (x0 (ix2 r k) + x1 (ix1 k)) (0 : EReal) * x2 (ix2 k j) := by
  unfold k2_pay1
  simp only [matmul]
  refine (Ideal.matmul_constant_zero_apply dot_S2000x128_S128x128_S2000x128_1_0_0_1_n_n none _ _ (ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact lhs_pay_0 _ _
    | ⟨1, _⟩ => exact (lhs_pay_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (rhs_pay_0 _ _).trans hk
    | ⟨1, _⟩ => exact rhs_pay_1 _ _)
  rw [el, er]
  exact congrArg (· * x2 (ix2 k j)) (act_apply x0 x1 r k)

/-! ## The blocks as rows of the arrays -/

variable (V : (c : Dev nD) → (b : Ref sig .tc) → Buf (Elt Ideal) ((c : Thread nD τ).loc b))

/-- The printed index maps over the grid: the feature window and the result window sit at block row `t`, block
    column 0; the bias and weight windows at block 0 throughout. -/
theorem idx_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at point `t` is rows 2000·t … 2000·t+1999 of the feature array. -/
theorem feat_apply (c : Dev nD) (t : Fin cfg2.N) (r : Fin 2000) (k : Fin 128) (i : S50000x128.Idx)
    (h0 : (i 0).val = 2000 * t.val + r.val) (h1 : (i 1).val = k.val) :
    (iblk2 V c 0 t : Vec Ideal S2000x128 .f32) (ix2 r k) = (V c main_v59 : S50000x128.Idx → EReal) i := by
  obtain ⟨e0, e1, -⟩ := idx_facts t
  unfold iblk2
  rw [View.read_apply]
  show (V c main_v59 : S50000x128.Idx → EReal) _ = _
  congr 1
  funext a
  apply Fin.ext
  match a with
  | ⟨0, _⟩ => show win2_0.index t (0 : Fin 2) * 2000 + 1 * r.val = (i 0).val; rw [e0, h0]; omega
  | ⟨1, _⟩ => show win2_0.index t (1 : Fin 2) * 128 + 1 * k.val = (i 1).val; rw [e1, h1]; omega

/-- The bias block at every point is the whole bias row. -/
theorem bias_apply (c : Dev nD) (t : Fin cfg2.N) (k : Fin 128) :
    (iblk2 V c 1 t : Vec Ideal S128 .f32) (ix1 k) = (V c main_arg6 : S128.Idx → EReal) (ix1 k) := by
  obtain ⟨-, -, e0, -⟩ := idx_facts t
  unfold iblk2
  rw [View.read_apply]
  show (V c main_arg6 : S128.Idx → EReal) _ = _
  congr 1
  funext a
  apply Fin.ext
  match a with
  | ⟨0, _⟩ => show win2_1.index t (0 : Fin 1) * 128 + 1 * k.val = k.val; rw [e0]; omega

/-- The weight block at every point is the whole weight matrix. -/
theorem wt_apply (c : Dev nD) (t : Fin cfg2.N) (k : Fin 128) (j : Fin 128) :
    (iblk2 V c 2 t : Vec Ideal S128x128 .f32) (ix2 k j) = (V c main_arg7 : S128x128.Idx → EReal) (ix2 k j) := by
  obtain ⟨-, -, -, e0, e1, -⟩ := idx_facts t
  unfold iblk2
  rw [View.read_apply]
  show (V c main_arg7 : S128x128.Idx → EReal) _ = _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * j.val = j.val; rw [e1]; omega

/-! ## From blocks to the array -/

/-- WHAT POINT `t` WRITES BACK is block `t` of the reference's dense step of the arrays the region is entered with:
    entry (r, j) of the body's result and entry (2000·t + r, j) of the dense step are the same sum, term by term. -/
theorem flushed_eq (c : Dev nD) (t : Fin cfg2.N) :
    (dat2 V c).flushed 3 t = ((cfg2.win 3).blk t).view.read (Elt Ideal)
      (Cert.ReferenceIdeal.LayerRef.layerRef (V c main_v59) (V c main_arg6) (V c main_arg7)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128) hz1, View.ld_unit_zero (S := S128x128) hz2]
  obtain ⟨-, -, -, -, -, e0, e1⟩ := idx_facts t
  have ht : t.val < 25 := lt_of_lt_of_eq t.isLt (show cfg2.N = 25 from N_2)
  funext y
  obtain ⟨r, j, rfl⟩ : ∃ (r : Fin 2000) (j : Fin 128), y = ix2 r j := ⟨y 0, y 1, eq_ix2 y⟩
  have hr : 2000 * t.val + r.val < 50000 := by have := r.isLt; omega
  have hemb : (((cfg2.win 3).blk t).view.emb (ix2 r j) : Cert.ReferenceIdeal.S50000x128.Idx)
      = ix2 (⟨2000 * t.val + r.val, hr⟩ : Fin 50000) j := funext fun a => Fin.ext (by
    match a with
    | ⟨0, _⟩ => show win2_3.index t (0 : Fin 2) * 2000 + 1 * r.val = 2000 * t.val + r.val; rw [e0]; omega
    | ⟨1, _⟩ => show win2_3.index t (1 : Fin 2) * 128 + 1 * j.val = j.val; rw [e1]; omega)
  refine (pay_apply (iblk2 V c 0 t) (iblk2 V c 1 t) (iblk2 V c 2 t) r j).trans ?_
  refine Eq.trans ?_ (congrArg (Cert.ReferenceIdeal.LayerRef.layerRef (V c main_v59) (V c main_arg6) (V c main_arg7)) hemb).symm
  rw [Cert.ReferenceIdeal.LayerRef.layerRef_apply]
  refine Finset.sum_congr rfl fun k _ => ?_
  rw [feat_apply V c t r k (ix2 (⟨2000 * t.val + r.val, hr⟩ : Fin 50000) k) rfl rfl, bias_apply V c t k, wt_apply V c t k j]

/-- A row of the result array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v60).slice (win2_3.rect t)).set ↔ _
  rw [View.set_slice_whole, Rect.mem_set_unit]
  exact Iff.rfl

/-- The 25 blocks of 2000 rows tile the 50000 rows: row `p` is in the block of point `p / 2000`, which writes back. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, e0, e1⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- THE RESULT ARRAY AFTER THE REGION: the reference's dense step of the feature array, the bias row and the weight
    matrix as the region finds them. -/
theorem region2_value (c : Dev nD) :
    (Cert.KernelIdeal.Rg2.dat2 (F := Ideal) V c).arrAt 3 cfg2.N
      = Cert.ReferenceIdeal.LayerRef.layerRef (V c main_v59) (V c main_arg6) (V c main_arg7) :=
  (dat2 V c).arrAt_eq_of_cover 3 _ (fun t _ => flushed_eq V c t) (fun i => cover i)

end Cert.KernelIdeal.Val2

end
-- ==== Proof.OneHot.lean ====
/- The graph-membership matrix the program builds on the host before the pooling region: entry (i, g) is one
   where node i's graph id equals g, zero elsewhere — the ids compared, as 32-bit words, against a row of the numbers
   0 … 127, and the resulting bits converted to the 16-bit float format. -/
import proofs.«429345_j86552180949235_1_alg».proof.Proof.Gen.KernelIdeal

noncomputable section

namespace Cert.KernelIdeal.OneHot

open Cert.KernelIdeal Cert.KernelIdeal.Facts₀ Cert.KernelIdeal.Facts Idealize.ShloMosaic

variable {F : FTy → Type} [FloatOps F]

/-- The membership matrix of a vector of graph ids, in the program's own operations. -/
def onehotOf (batch : (⟨S50000, .i32⟩ : BufTy).Contents (Elt F)) : (⟨S50000x128, .bf16⟩ : BufTy).Contents (Elt F) :=
  uitofp (F := F) .bf16
    (cmpi .eq
      (broadcastInDim S50000x128 ![0, 1] bcast_S50000x1_S50000x128_0_1 (broadcastInDim S50000x1 ![0] bcast_S50000_S50000x1_0 batch))
      (broadcastInDim S50000x128 ![0, 1] bcast_S1x128_S50000x128_0_1 (broadcastInDim S1x128 ![1] bcast_S128_S1x128_1 (iotaInDim S128 32 0))))

end Cert.KernelIdeal.OneHot

end
-- ==== Proof.PoolRef.lean ====
import proofs.«429345_j86552180949235_1_alg».proof.Proof.RefRead

/-! The tail of the reference, from the third layer's aggregated rows to the class scores, as ONE
function of those rows and of the four arrays it still reads: add the bias b3 to every row, clamp at
zero, sum the rows of each graph (a scatter-add of the rows by graph id into a zero [128,128] array),
count the rows of each graph (a scatter-add of ones by graph id into a zero [128] array), divide each
graph's sum by its count clamped below at one, multiply by the classifier's matrix and add its bias.
The theorem ref_v101 says that the reference's last stage is this function of its stage %81. -/

noncomputable section

namespace Cert.ReferenceIdeal.PoolRef

open Cert.ReferenceIdeal Cert.ReferenceIdeal.Gen Idealize.ShloMosaic Idealize.ShloMosaic.TcCoe Idealize.SL.Sem Idealize.ShloMosaic.StableHlo

/-- Rows plus bias, clamped at zero: the reference's operations %82 to %85. -/
def reluRows (a : (⟨S50000x128, .f32⟩ : BufTy).Contents (Elt Ideal)) (b3 : (⟨S128, .f32⟩ : BufTy).Contents (Elt Ideal)) :
    (⟨S50000x128, .f32⟩ : BufTy).Contents (Elt Ideal) :=
  maximumf (addf a (broadcastInDim S50000x128 ![0, 1] bcast_S1x128_S50000x128_0_1 (broadcastInDim S1x128 ![1] bcast_S128_S1x128_1 b3)))
    (broadcastInDim S50000x128 ![] bcast_S_S50000x128 (constant (F := Ideal) S_ .f32 0x00000000#32))

/-- The per-graph sums of the clamped rows: operations %86 to %88. -/
def segSum (a : (⟨S50000x128, .f32⟩ : BufTy).Contents (Elt Ideal)) (b3 : (⟨S128, .f32⟩ : BufTy).Contents (Elt Ideal))
    (batch : (⟨S50000, .i32⟩ : BufTy).Contents (Elt Ideal)) : (⟨S128x128, .f32⟩ : BufTy).Contents (Elt Ideal) :=
  Host.scatterAdd (F := Ideal) scatter_S128x128_S50000x1_S50000x128_1_0_0_1
    (broadcastInDim S128x128 ![] bcast_S_S128x128 (constant (F := Ideal) S_ .f32 0x00000000#32))
    (broadcastInDim S50000x1 ![0] bcast_S50000_S50000x1_0 batch)
    (reluRows a b3)

/-- The per-graph row counts: operations %89 to %92. -/
def segCount (batch : (⟨S50000, .i32⟩ : BufTy).Contents (Elt Ideal)) : (⟨S128, .f32⟩ : BufTy).Contents (Elt Ideal) :=
  Host.scatterAdd (F := Ideal) scatter_S128_S50000x1_S50000_n_0_0_1
    (broadcastInDim S128 ![] bcast_S_S128 (constant (F := Ideal) S_ .f32 0x00000000#32))
    (broadcastInDim S50000x1 ![0] bcast_S50000_S50000x1_0 batch)
    (broadcastInDim S50000 ![] bcast_S_S50000 (constant (F := Ideal) S_ .f32 0x3F800000#32))

/-- The divisor, laid out over the [128,128] sums: the count clamped below at one, broadcast along the columns
(operations %93 to %96). -/
def segDen (batch : (⟨S50000, .i32⟩ : BufTy).Contents (Elt Ideal)) : (⟨S128x128, .f32⟩ : BufTy).Contents (Elt Ideal) :=
  broadcastInDim S128x128 ![0, 1] bcast_S128x1_S128x128_0_1 (broadcastInDim S128x1 ![0] bcast_S128_S128x1_0
    (maximumf (segCount batch) (broadcastInDim S128 ![] bcast_S_S128 (constant (F := Ideal) S_ .f32 0x3F800000#32))))

/-- The per-graph means: operation %97, each sum divided by its graph's clamped count. -/
def segMean (a : (⟨S50000x128, .f32⟩ : BufTy).Contents (Elt Ideal)) (b3 : (⟨S128, .f32⟩ : BufTy).Contents (Elt Ideal))
    (batch : (⟨S50000, .i32⟩ : BufTy).Contents (Elt Ideal)) : (⟨S128x128, .f32⟩ : BufTy).Contents (Elt Ideal) :=
  Host.divf (F := Ideal) (φ := .f32) (segSum a b3 batch) (segDen batch)

/-- Mean pooling followed by the classifier: operations %82 to %101 of the reference with %81 := a. -/
def poolRef (a : (⟨S50000x128, .f32⟩ : BufTy).Contents (Elt Ideal)) (b3 : (⟨S128, .f32⟩ : BufTy).Contents (Elt Ideal))
    (batch : (⟨S50000, .i32⟩ : BufTy).Contents (Elt Ideal)) (Wl : (⟨S128x5, .f32⟩ : BufTy).Contents (Elt Ideal))
    (bl : (⟨S5, .f32⟩ : BufTy).Contents (Elt Ideal)) : (⟨S128x5, .f32⟩ : BufTy).Contents (Elt Ideal) :=
  addf (Host.dotGeneral (F := Ideal) (φ₁ := .f32) (φ₂ := .f32) dot_S128x128_S128x5_S128x5_1_0_0_1_n_n none
      (segMean a b3 batch) Wl)
    (broadcastInDim S128x5 ![0, 1] bcast_S1x5_S128x5_0_1 (broadcastInDim S1x5 ![1] bcast_S5_S1x5_1 bl))

/-- The reference's last stage is poolRef of its stage %81: the stages %82 to %101 are, each, one of the
operations above applied to earlier stages. -/
theorem ref_v101 (x0 : (⟨S50000x3, .f32⟩ : BufTy).Contents (Elt Ideal)) (x1 : (⟨S2x600000, .i32⟩ : BufTy).Contents (Elt Ideal)) (x2 : (⟨S50000, .i32⟩ : BufTy).Contents (Elt Ideal)) (x3 : (⟨S3x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x5, .f32⟩ : BufTy).Contents (Elt Ideal)) (x10 : (⟨S5, .f32⟩ : BufTy).Contents (Elt Ideal)) :
    ReadP.val_main_v101 (F := Ideal) x0 x1 x2 x3 x4 x5 x6 x7 x8 x9 x10
      = poolRef (ReadP.val_main_v81 (F := Ideal) x0 x1 x3 x4 x5 x6 x7) x8 x2 x9 x10 := by
  unfold ReadP.val_main_v101 ReadP.val_main_v100 ReadP.val_main_v99 ReadP.val_main_v98 ReadP.val_main_v97
    ReadP.val_main_v96 ReadP.val_main_v95 ReadP.val_main_v94 ReadP.val_main_v93 ReadP.val_main_cst_19
    ReadP.val_main_v92 ReadP.val_main_v91 ReadP.val_main_v90 ReadP.val_main_cst_18 ReadP.val_main_v89 ReadP.val_main_cst_17
    ReadP.val_main_v88 ReadP.val_main_v87 ReadP.val_main_v86 ReadP.val_main_cst_16 ReadP.val_main_v85
    ReadP.val_main_call3_v0 ReadP.val_main_call3_cst ReadP.val_main_v84 ReadP.val_main_v83 ReadP.val_main_v82
  generalize ReadP.val_main_v81 (F := Ideal) x0 x1 x3 x4 x5 x6 x7 = a
  rfl

end Cert.ReferenceIdeal.PoolRef

end
-- ==== Proof.PoolScat.lean ====
/-
  Mean pooling over graphs, on the extended reals: the arithmetic shared by a membership-matrix product and a
  scatter-add.

  A node i belongs to graph g when its graph id is the 32-bit word of g. Multiplying a row by the indicator of
  membership and summing over all nodes is summing over the members; twenty-five blocks of two thousand rows are the
  fifty thousand rows; and a scatter-add into row g collects exactly the updates whose start index, read signed, is
  g — an id that is negative or not below the number of graphs lands nowhere, and matches no graph's word either.
  Both ways of pooling therefore compute, for each graph and feature, the sum over the graph's members. Nothing here
  needs a summand to be finite.
-/
import Idealize.ShloMosaic.PureOps.Ideal
import Idealize.ShloMosaic.PureOps.Ideal.Laws
import Idealize.ShloMosaic.Lib.ValueIdx
import Idealize.ShloMosaic.Lib.ValueIdxRank1

noncomputable section

open Idealize.ShloMosaic Idealize.ShloMosaic.ValueIdx

namespace Cert.PoolScat

/-- A sum weighted by a membership indicator is the sum over the members. -/
theorem sum_indicator_mul {ι : Type} [Fintype ι] (c : ι → Prop) [DecidablePred c] (u : ι → EReal) :
    ∑ i, (if c i then (1 : EReal) else 0) * u i = ∑ i ∈ Finset.univ.filter c, u i := by
  rw [Finset.sum_filter]
  refine Finset.sum_congr rfl fun i _ => ?_
  by_cases h : c i
  · rw [if_pos h, if_pos h, one_mul]
  · rw [if_neg h, if_neg h, zero_mul]

/-- Twenty-five consecutive blocks of two thousand rows are the fifty thousand rows. -/
theorem sum_blocks (f : ℕ → ℕ → EReal) :
    ∑ t ∈ Finset.range 25, ∑ r : Fin 2000, f t r.val = ∑ i : Fin 50000, f (i.val / 2000) (i.val % 2000) := by
  rw [Finset.sum_range (fun t => ∑ r : Fin 2000, f t r.val), ← Fintype.sum_prod_type']
  rw [← Equiv.sum_comp (finProdFinEquiv (m := 25) (n := 2000)) (fun i : Fin (25 * 2000) => f (i.val / 2000) (i.val % 2000))]
  refine Finset.sum_congr rfl fun p _ => ?_
  obtain ⟨t, r⟩ := p
  have hr := r.isLt
  show f t.val r.val = f ((r.val + 2000 * t.val) / 2000) ((r.val + 2000 * t.val) % 2000)
  rw [Nat.add_mul_div_left _ _ (by decide : 0 < 2000), Nat.div_eq_of_lt hr, Nat.zero_add, Nat.add_mul_mod_self_left, Nat.mod_eq_of_lt hr]

/-- A 32-bit word read signed is a number below 128 exactly when it is that number's word. -/
theorem toInt_eq_small (x : BitVec 32) (g : ℕ) (hg : g < 128) : x.toInt = (g : ℤ) ↔ x = BitVec.ofNat 32 g := by
  constructor
  · intro h
    have := BitVec.ofInt_toInt (x := x)
    rw [h] at this
    rw [← this]
    exact BitVec.ofInt_natCast 32 g
  · rintro rfl
    rw [BitVec.toInt_ofNat']
    rw [Int.bmod_def]
    omega

/-- The comparison bit of two words, read as a number: one where they are equal, zero where not. -/
theorem eqBit_toNat (x y : BitVec 32) : (((IntOp.cmpi .eq x y).toNat : ℝ) : EReal) = if x = y then 1 else 0 := by
  by_cases h : x = y
  · subst h; rw [if_pos rfl]; simp [IntOp.cmpi]
  · rw [if_neg h]; simp [IntOp.cmpi, h]

/-! ## Where a scatter's updates land -/

/-- The dimension numbers of a row scatter: updates [M, C] land on the rows of an [n, C] operand that an [M, 1]
    column of start indices names, column for column. -/
abbrev rowScat (n C M : ℕ) (wf : ScatterDims.WF ⟨2, ![n, C]⟩ ⟨2, ![M, 1]⟩ ⟨2, ![M, C]⟩ [1] [0] [0] 1) :
    ScatterDims ⟨2, ![n, C]⟩ ⟨2, ![M, 1]⟩ ⟨2, ![M, C]⟩ where
  updateWindowDims := [1]
  insertedWindowDims := [0]
  scatterDimsToOperandDims := [0]
  indexVectorDim := 1
  wf := wf

section Row
variable {n C M w : ℕ} (wf : ScatterDims.WF ⟨2, ![n, C]⟩ ⟨2, ![M, 1]⟩ ⟨2, ![M, C]⟩ [1] [0] [0] 1)
  (idx : IVec ⟨2, ![M, 1]⟩ w) (p : Fin M) (k : Fin C)

/-- On the row axis the window starts at the start index of the update's row, read signed. -/
theorem rowScat_start0 : (rowScat n C M wf).start (ix2 p k) idx 0 = (idx (ix2 p 0)).toInt := by
  unfold ScatterDims.start
  rw [dif_pos (show (0 : Fin 2) ∈ (rowScat n C M wf).scatterDimsToOperandDims from List.mem_singleton.mpr rfl)]
  have hsi : (rowScat n C M wf).siIdx (ix2 p k) ⟨List.idxOf (0 : Fin 2) (rowScat n C M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- The row axis is an inserted axis: no window coordinate. -/
theorem rowScat_window0 : (rowScat n C M wf).window (ix2 p k) 0 = 0 := by
  unfold ScatterDims.window
  rw [dif_neg]
  simp [ScatterDims.sKept, Shape.kept, List.mem_filter]

/-- The column axis is named by no start index. -/
theorem rowScat_start1 : (rowScat n C M wf).start (ix2 p k) idx 1 = 0 := by
  unfold ScatterDims.start
  rw [dif_neg]
  simp

/-- On the column axis the window coordinate is the update's column. -/
theorem rowScat_window1 : (rowScat n C M wf).window (ix2 p k) 1 = k.val := by
  unfold ScatterDims.window
  rw [dif_pos (by simp [ScatterDims.sKept, Shape.kept, List.mem_filter])]
  rfl

/-- Update (p, k) of a row scatter lands on entry i exactly when the start index of row p, read signed, is i's row
    and k is i's column; an update whose start index is negative or past the last row lands nowhere. -/
theorem rowScat_lands (i : (⟨2, ![n, C]⟩ : Shape).Idx) :
    (rowScat n C M wf).resultIdx? (ix2 p k) idx = some i
      ↔ (idx (ix2 p 0)).toInt = ((i 0).val : ℤ) ∧ (i 1).val = k.val := by
  have s0 := rowScat_start0 wf idx p k
  have w0 := rowScat_window0 wf p k
  have s1 := rowScat_start1 wf idx p k
  have w1 := rowScat_window1 wf p k
  unfold ScatterDims.resultIdx?
  constructor
  · intro h
    split at h
    · rename_i hh
      have hi := Option.some.inj h
      subst hi
      have h0 := (hh 0).1
      have h1 := (hh 1).1
      rw [s0, w0] at h0
      rw [s1, w1] at h1
      refine ⟨?_, ?_⟩
      · show (idx (ix2 p 0)).toInt
          = ((((rowScat n C M wf).start (ix2 p k) idx 0 + (rowScat n C M wf).window (ix2 p k) 0).toNat : ℕ) : ℤ)
        rw [s0, w0]; omega
      · show (((rowScat n C M wf).start (ix2 p k) idx 1 + (rowScat n C M wf).window (ix2 p k) 1).toNat : ℕ) = k.val
        rw [s1, w1]; omega
    · cases h
  · rintro ⟨h0, h1⟩
    have hi0 : (i 0).val < n := (i 0).isLt
    have hk : k.val < C := k.isLt
    have hall : ∀ a, 0 ≤ (rowScat n C M wf).start (ix2 p k) idx a + (rowScat n C M wf).window (ix2 p k) a
        ∧ (rowScat n C M wf).start (ix2 p k) idx a + (rowScat n C M wf).window (ix2 p k) a < ((⟨2, ![n, C]⟩ : Shape).size a : ℤ) := by
      refine Fin.forall_fin_two.mpr ⟨?_, ?_⟩
      · rw [s0, w0, h0]; show _ ∧ _ < ((n : ℕ) : ℤ); constructor <;> omega
      · rw [s1, w1]; show _ ∧ _ < ((C : ℕ) : ℤ); constructor <;> omega
    rw [dif_pos hall]
    refine congrArg some (funext fun a => Fin.ext ?_)
    revert a
    refine Fin.forall_fin_two.mpr ⟨?_, ?_⟩
    · show (((rowScat n C M wf).start (ix2 p k) idx 0 + (rowScat n C M wf).window (ix2 p k) 0).toNat : ℕ) = (i 0).val
      rw [s0, w0, h0]; omega
    · show (((rowScat n C M wf).start (ix2 p k) idx 1 + (rowScat n C M wf).window (ix2 p k) 1).toNat : ℕ) = (i 1).val
      rw [s1, w1, h1]; omega

end Row

/-- The dimension numbers of a count scatter: updates [M] land on the entries of an [n] operand that an [M, 1] column
    of start indices names. -/
abbrev cntScat (n M : ℕ) (wf : ScatterDims.WF ⟨1, ![n]⟩ ⟨2, ![M, 1]⟩ ⟨1, ![M]⟩ [] [0] [0] 1) :
    ScatterDims ⟨1, ![n]⟩ ⟨2, ![M, 1]⟩ ⟨1, ![M]⟩ where
  updateWindowDims := []
  insertedWindowDims := [0]
  scatterDimsToOperandDims := [0]
  indexVectorDim := 1
  wf := wf

section Count
variable {n M w : ℕ} (wf : ScatterDims.WF ⟨1, ![n]⟩ ⟨2, ![M, 1]⟩ ⟨1, ![M]⟩ [] [0] [0] 1)
  (idx : IVec ⟨2, ![M, 1]⟩ w) (p : Fin M)

/-- The window starts at the start index of the update, read signed. -/
theorem cntScat_start0 : (cntScat n M wf).start (ix1 p) idx 0 = (idx (ix2 p 0)).toInt := by
  unfold ScatterDims.start
  rw [dif_pos (show (0 : Fin 1) ∈ (cntScat n M wf).scatterDimsToOperandDims from List.mem_singleton.mpr rfl)]
  have hsi : (cntScat n M wf).siIdx (ix1 p) ⟨List.idxOf (0 : Fin 1) (cntScat n M wf).scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- The one axis is an inserted axis: no window coordinate. -/
theorem cntScat_window0 : (cntScat n M wf).window (ix1 p) 0 = 0 := by
  unfold ScatterDims.window
  rw [dif_neg]
  simp [ScatterDims.sKept, Shape.kept, List.mem_filter]

/-- Update p of a count scatter lands on entry i exactly when its start index, read signed, is i. -/
theorem cntScat_lands (i : (⟨1, ![n]⟩ : Shape).Idx) :
    (cntScat n M wf).resultIdx? (ix1 p) idx = some i ↔ (idx (ix2 p 0)).toInt = ((i 0).val : ℤ) := by
  have s0 := cntScat_start0 wf idx p
  have w0 := cntScat_window0 wf p
  unfold ScatterDims.resultIdx?
  constructor
  · intro h
    split at h
    · rename_i hh
      have hi := Option.some.inj h
      subst hi
      have h0 := (hh 0).1
      rw [s0, w0] at h0
      show (idx (ix2 p 0)).toInt
        = ((((cntScat n M wf).start (ix1 p) idx 0 + (cntScat n M wf).window (ix1 p) 0).toNat : ℕ) : ℤ)
      rw [s0, w0]; omega
    · cases h
  · intro h0
    have hi0 : (i 0).val < n := (i 0).isLt
    have hall : ∀ a, 0 ≤ (cntScat n M wf).start (ix1 p) idx a + (cntScat n M wf).window (ix1 p) a
        ∧ (cntScat n M wf).start (ix1 p) idx a + (cntScat n M wf).window (ix1 p) a < ((⟨1, ![n]⟩ : Shape).size a : ℤ) := by
      intro a
      have ha : a = 0 := Subsingleton.elim _ _
      subst ha
      rw [s0, w0, h0]; show _ ∧ _ < ((n : ℕ) : ℤ); constructor <;> omega
    rw [dif_pos hall]
    refine congrArg some (funext fun a => Fin.ext ?_)
    have ha : a = 0 := Subsingleton.elim _ _
    subst ha
    show (((cntScat n M wf).start (ix1 p) idx 0 + (cntScat n M wf).window (ix1 p) 0).toNat : ℕ) = (i 0).val
    rw [s0, w0, h0]; omega

end Count

/-! ## A scatter-add into an entry, as a sum over the updates' rows -/

/-- Entry (g, k) of a row scatter-add: the operand's entry plus the column-k entries of the update rows whose start
    index, read signed, is g. -/
theorem rowScat_sum {n C M w : ℕ} (wf : ScatterDims.WF ⟨2, ![n, C]⟩ ⟨2, ![M, 1]⟩ ⟨2, ![M, C]⟩ [1] [0] [0] 1)
    (x : (⟨2, ![n, C]⟩ : Shape).Idx → EReal) (idx : IVec ⟨2, ![M, 1]⟩ w) (upd : (⟨2, ![M, C]⟩ : Shape).Idx → EReal)
    (g : Fin n) (k : Fin C) :
    Ideal.hostScatterAdd (rowScat n C M wf) x idx upd (ix2 g k)
      = x (ix2 g k) + ∑ p ∈ Finset.univ.filter (fun p : Fin M => (idx (ix2 p 0)).toInt = (g.val : ℤ)), upd (ix2 p k) := by
  unfold Ideal.hostScatterAdd
  refine congrArg (x (ix2 g k) + ·) ?_
  rw [Finset.sum_filter, sum_idx2, Finset.sum_filter]
  refine Finset.sum_congr rfl fun p _ => ?_
  by_cases hp : (idx (ix2 p 0)).toInt = (g.val : ℤ)
  · rw [if_pos hp, Finset.sum_eq_single k]
    · rw [if_pos ((rowScat_lands wf idx p k (ix2 g k)).mpr ⟨hp, rfl⟩)]
    · intro c _ hc
      rw [if_neg]
      intro h
      exact hc (Fin.ext ((rowScat_lands wf idx p c (ix2 g k)).mp h).2.symm)
    · intro h; exact absurd (Finset.mem_univ k) h
  · rw [if_neg hp]
    refine Finset.sum_eq_zero fun c _ => ?_
    rw [if_neg]
    intro h
    exact hp ((rowScat_lands wf idx p c (ix2 g k)).mp h).1

/-- Entry g of a count scatter-add: the operand's entry plus the updates whose start index, read signed, is g. -/
theorem cntScat_sum {n M w : ℕ} (wf : ScatterDims.WF ⟨1, ![n]⟩ ⟨2, ![M, 1]⟩ ⟨1, ![M]⟩ [] [0] [0] 1)
    (x : (⟨1, ![n]⟩ : Shape).Idx → EReal) (idx : IVec ⟨2, ![M, 1]⟩ w) (upd : (⟨1, ![M]⟩ : Shape).Idx → EReal) (g : Fin n) :
    Ideal.hostScatterAdd (cntScat n M wf) x idx upd (ix1 g)
      = x (ix1 g) + ∑ p ∈ Finset.univ.filter (fun p : Fin M => (idx (ix2 p 0)).toInt = (g.val : ℤ)), upd (ix1 p) := by
  unfold Ideal.hostScatterAdd
  refine congrArg (x (ix1 g) + ·) ?_
  rw [Finset.sum_filter, ← Equiv.sum_comp (idxEquiv1 (n := M)).symm, Finset.sum_filter]
  refine Finset.sum_congr rfl fun p _ => ?_
  show (if (cntScat n M wf).resultIdx? (ix1 p) idx = some (ix1 g) then upd (ix1 p) else 0) = _
  by_cases hp : (idx (ix2 p 0)).toInt = (g.val : ℤ)
  · rw [if_pos hp, if_pos ((cntScat_lands wf idx p (ix1 g)).mpr hp)]
  · rw [if_neg hp, if_neg]
    intro h
    exact hp ((cntScat_lands wf idx p (ix1 g)).mp h)

/-! ## Mean pooling and the classifier, in closed form -/

/-- The rows of graph g: the nodes whose graph id is g's 32-bit word. -/
def members (batch : (⟨1, ![50000]⟩ : Shape).Idx → BitVec 32) (g : Fin 128) : Finset (Fin 50000) :=
  Finset.univ.filter fun i => batch (ix1 i) = BitVec.ofNat 32 g.val

/-- The same rows, named by the signed reading of the id: a word read signed is a number below 128 exactly when it is
    that number's word. -/
theorem members_eq (batch : (⟨1, ![50000]⟩ : Shape).Idx → BitVec 32) (g : Fin 128) :
    Finset.univ.filter (fun i : Fin 50000 => (batch (ix1 i)).toInt = (g.val : ℤ)) = members batch g := by
  unfold members
  refine Finset.filter_congr fun i _ => ?_
  exact toInt_eq_small _ _ g.isLt

/-- Class score c of graph g: over the feature columns k, the sum of the clamped rows of the graph divided by the
    graph's row count clamped below at one, times the classifier's entry (k, c); plus the classifier's bias. -/
def poolG (a : (⟨2, ![50000, 128]⟩ : Shape).Idx → EReal) (b3 : (⟨1, ![128]⟩ : Shape).Idx → EReal)
    (batch : (⟨1, ![50000]⟩ : Shape).Idx → BitVec 32) (Wl : (⟨2, ![128, 5]⟩ : Shape).Idx → EReal)
    (bl : (⟨1, ![5]⟩ : Shape).Idx → EReal) (g : Fin 128) (c : Fin 5) : EReal :=
  (∑ k : Fin 128, Ideal.div (∑ i ∈ members batch g, max (a (ix2 i k) + b3 (ix1 k)) (Ideal.ofBits .f32 0x00000000#32))
      (max (∑ i ∈ members batch g, (1 : EReal)) (Ideal.ofBits .f32 0x3F800000#32)) * Wl (ix2 k c)) + bl (ix1 c)

end Cert.PoolScat

end
-- ==== Proof.PoolRefAt.lean ====
import proofs.«429345_j86552180949235_1_alg».proof.Proof.PoolRef
import proofs.«429345_j86552180949235_1_alg».proof.Proof.PoolScat
import Idealize.ShloMosaic.Lib.IdealHost

/-! The reference's pooling tail read entry by entry: each per-graph sum and count is a scatter-add into zeros, so its
entry for graph g is the sum over the nodes whose graph id, read signed, is g — the members of g —; the mean, the
classifier's product and its bias then give the shared closed form. -/

noncomputable section

namespace Cert.ReferenceIdeal.PoolRef

open Cert.ReferenceIdeal Cert.ReferenceIdeal.Gen Idealize.ShloMosaic Idealize.ShloMosaic.TcCoe Idealize.SL.Sem Idealize.ShloMosaic.StableHlo
open Idealize.ShloMosaic.ValueIdx Cert.PoolScat

/-- The bias, broadcast over the rows, read at (i, k): its entry k. -/
theorem bias_apply (b3 : (⟨S128, .f32⟩ : BufTy).Contents (Elt Ideal)) (i : Fin 50000) (k : Fin 128) :
    broadcastInDim S50000x128 ![0, 1] bcast_S1x128_S50000x128_0_1 (broadcastInDim S1x128 ![1] bcast_S128_S1x128_1 b3) (ix2 i k)
      = b3 (ix1 k) := by
  refine (ReadP.val_main_v83_apply (F := Ideal) b3 (ix2 i k)).trans
    ((ReadP.val_main_v82_apply (F := Ideal) b3 _).trans (congrArg b3 ?_))
  funext a
  match a with
  | ⟨0, _⟩ => rfl

/-- A clamped row entry. -/
theorem reluRows_apply (a : (⟨S50000x128, .f32⟩ : BufTy).Contents (Elt Ideal)) (b3 : (⟨S128, .f32⟩ : BufTy).Contents (Elt Ideal))
    (i : Fin 50000) (k : Fin 128) :
    reluRows a b3 (ix2 i k) = max (a (ix2 i k) + b3 (ix1 k)) (Ideal.ofBits .f32 0x00000000#32) := by
  unfold reluRows
  show max (a (ix2 i k) + _) _ = _
  rw [bias_apply]
  exact congrArg (max _) ((ReadP.val_main_call3_v0_apply (F := Ideal) (ix2 i k)).trans rfl)

/-- The column of graph ids read at row p. -/
theorem ids_apply (batch : (⟨S50000, .i32⟩ : BufTy).Contents (Elt Ideal)) (p : Fin 50000) :
    broadcastInDim S50000x1 ![0] bcast_S50000_S50000x1_0 batch (ix2 p (0 : Fin 1)) = batch (ix1 p) := by
  refine (ReadP.val_main_v87_apply (F := Ideal) batch (ix2 p (0 : Fin 1))).trans (congrArg batch ?_)
  funext a
  match a with
  | ⟨0, _⟩ => rfl

/-- Graph g's sum at feature k: the clamped rows of g's members. -/
theorem segSum_apply (a : (⟨S50000x128, .f32⟩ : BufTy).Contents (Elt Ideal)) (b3 : (⟨S128, .f32⟩ : BufTy).Contents (Elt Ideal))
    (batch : (⟨S50000, .i32⟩ : BufTy).Contents (Elt Ideal)) (g k : Fin 128) :
    segSum a b3 batch (ix2 g k)
      = ∑ i ∈ members batch g, max (a (ix2 i k) + b3 (ix1 k)) (Ideal.ofBits .f32 0x00000000#32) := by
  unfold segSum
  refine (rowScat_sum scatter_S128x128_S50000x1_S50000x128_1_0_0_1_wf _ _ _ g k).trans ?_
  have hz : broadcastInDim S128x128 ![] bcast_S_S128x128 (constant (F := Ideal) S_ .f32 0x00000000#32) (ix2 g k) = 0 :=
    ((ReadP.val_main_v86_apply (F := Ideal) (ix2 g k)).trans rfl).trans Ideal.ofBits_zero_f32
  rw [hz, zero_add, ← members_eq]
  exact Finset.sum_congr (Finset.filter_congr fun p _ => by rw [ids_apply]) fun p _ => reluRows_apply a b3 p k

/-- Graph g's count: one for each member. -/
theorem segCount_apply (batch : (⟨S50000, .i32⟩ : BufTy).Contents (Elt Ideal)) (g : Fin 128) :
    segCount batch (ix1 g) = ∑ i ∈ members batch g, (1 : EReal) := by
  unfold segCount
  refine (cntScat_sum scatter_S128_S50000x1_S50000_n_0_0_1_wf _ _ _ g).trans ?_
  have hz : broadcastInDim S128 ![] bcast_S_S128 (constant (F := Ideal) S_ .f32 0x00000000#32) (ix1 g) = 0 :=
    ((ReadP.val_main_v90_apply (F := Ideal) (ix1 g)).trans rfl).trans Ideal.ofBits_zero_f32
  rw [hz, zero_add, ← members_eq]
  refine Finset.sum_congr (Finset.filter_congr fun p _ => by rw [ids_apply]) fun p _ => ?_
  exact ((ReadP.val_main_v89_apply (F := Ideal) (ix1 p)).trans rfl).trans (IdealRules.sign_bit.ideal_onePat .f32)

/-- The divisor at (g, k): graph g's count clamped below at one. -/
theorem segDen_apply (batch : (⟨S50000, .i32⟩ : BufTy).Contents (Elt Ideal)) (g k : Fin 128) :
    segDen batch (ix2 g k) = max (∑ i ∈ members batch g, (1 : EReal)) (Ideal.ofBits .f32 0x3F800000#32) := by
  unfold segDen
  refine (ReadP.val_main_v96_apply (F := Ideal) batch (ix2 g k)).trans
    ((ReadP.val_main_v95_apply (F := Ideal) batch _).trans ?_)
  have hi : ReadP.idx_main_v95 (ReadP.idx_main_v96 (ix2 g k)) = ix1 g := by
    funext a
    match a with
    | ⟨0, _⟩ => rfl
  rw [hi]
  show max (segCount batch (ix1 g)) _ = _
  rw [segCount_apply]
  exact congrArg (max _) ((ReadP.val_main_v93_apply (F := Ideal) (ix1 g)).trans rfl)

/-- The reference's tail at class c of graph g is the closed form. -/
theorem poolRef_apply (a : (⟨S50000x128, .f32⟩ : BufTy).Contents (Elt Ideal)) (b3 : (⟨S128, .f32⟩ : BufTy).Contents (Elt Ideal))
    (batch : (⟨S50000, .i32⟩ : BufTy).Contents (Elt Ideal)) (Wl : (⟨S128x5, .f32⟩ : BufTy).Contents (Elt Ideal))
    (bl : (⟨S5, .f32⟩ : BufTy).Contents (Elt Ideal)) (g : Fin 128) (c : Fin 5) :
    poolRef a b3 batch Wl bl (ix2 g c) = poolG a b3 batch Wl bl g c := by
  unfold poolRef poolG
  show Host.dotGeneral (F := Ideal) (φ₁ := .f32) (φ₂ := .f32) dot_S128x128_S128x5_S128x5_1_0_0_1_n_n none (segMean a b3 batch) Wl (ix2 g c)
      + broadcastInDim S128x5 ![0, 1] bcast_S1x5_S128x5_0_1 (broadcastInDim S1x5 ![1] bcast_S5_S1x5_1 bl) (ix2 g c) = _
  have hb : broadcastInDim S128x5 ![0, 1] bcast_S1x5_S128x5_0_1 (broadcastInDim S1x5 ![1] bcast_S5_S1x5_1 bl) (ix2 g c) = bl (ix1 c) := by
    refine (ReadP.val_main_v100_apply (F := Ideal) bl (ix2 g c)).trans
      ((ReadP.val_main_v99_apply (F := Ideal) bl _).trans (congrArg bl ?_))
    funext a
    match a with
    | ⟨0, _⟩ => rfl
  rw [hb]
  refine congrArg (· + bl (ix1 c)) ?_
  refine (Ideal.dotGeneral_apply dot_S128x128_S128x5_S128x5_1_0_0_1_n_n none .single (segMean a b3 batch) Wl (ix2 g c)).trans ?_
  rw [← Equiv.sum_comp (contrEquiv1 dot_S128x128_S128x5_S128x5_1_0_0_1_n_n 128 rfl rfl).symm]
  refine Finset.sum_congr rfl fun k _ => ?_
  have hk := contrEquiv1_symm_val dot_S128x128_S128x5_S128x5_1_0_0_1_n_n 128 rfl rfl k
  have el : dot_S128x128_S128x5_S128x5_1_0_0_1_n_n.lhsIdx (ix2 g c) ((contrEquiv1 dot_S128x128_S128x5_S128x5_1_0_0_1_n_n 128 rfl rfl).symm k) = ix2 g k := funext fun a => Fin.ext (by
    match a with
    | ⟨0, _⟩ => exact ReadP.lhs_main_v98_0 _ _
    | ⟨1, _⟩ => exact (ReadP.lhs_main_v98_1 _ _).trans hk)
  have er : dot_S128x128_S128x5_S128x5_1_0_0_1_n_n.rhsIdx (ix2 g c) ((contrEquiv1 dot_S128x128_S128x5_S128x5_1_0_0_1_n_n 128 rfl rfl).symm k) = ix2 k c := funext fun a => Fin.ext (by
    match a with
    | ⟨0, _⟩ => exact (ReadP.rhs_main_v98_0 _ _).trans hk
    | ⟨1, _⟩ => exact ReadP.rhs_main_v98_1 _ _)
  rw [el, er]
  refine congrArg (· * Wl (ix2 k c)) ?_
  unfold segMean
  refine (hostDivf_apply (segSum a b3 batch) (segDen batch) (ix2 g k)).trans ?_
  rw [segSum_apply, segDen_apply]

end Cert.ReferenceIdeal.PoolRef

end
-- ==== Proof.PoolMath.lean ====
/-
  The pooling kernel's arithmetic, read entry by entry on the extended reals.

  At each grid point the kernel holds a block of 2000 rows of the last layer's output, the matching 2000 rows of the
  graph-membership matrix, and two accumulators. It adds to the 128 by 128 accumulator the product (membership block,
  transposed) times (rows plus bias, clamped at zero): entry (g, k) grows by the sum over the block's rows r of
  membership (r, g) times the clamped entry (r, k). It adds to the 128 by 1 accumulator the product (membership block,
  transposed) times a column of ones: entry g grows by the sum of membership (r, g). Both accumulators start from zero.
  At the last point it divides each sum by its graph's count clamped below at one, multiplies by the classifier's
  matrix and adds the classifier's bias. A change of float format is the identity here, and a product accumulated into
  zeros is the plain sum.
-/
import proofs.«429345_j86552180949235_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PoolMath

open Cert.KernelIdeal Cert.KernelIdeal.Gen
open Idealize.ShloMosaic Idealize.ShloMosaic.ValueIdx

/-! ## The three contractions read at an index -/

theorem lhs_sum_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem lhs_sum_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
theorem rhs_sum_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem rhs_sum_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The membership block times the clamped rows, contracted over the block's rows: entry (g, k) is the sum over the
    rows r of membership (r, g) times row r's entry k. -/
theorem mmSum_apply (l r : FVec Ideal S2000x128 .bf16) (g k : Fin 128) :
    matmul dot_S2000x128_S2000x128_S128x128_0_0_1_1_n_n none l r (constant (F := Ideal) S128x128 .f32 0x00000000#32) (ix2 g k)
      = ∑ q : Fin 2000, l (ix2 q g) * r (ix2 q k) := by
  refine (Ideal.matmul_constant_zero_apply dot_S2000x128_S2000x128_S128x128_0_0_1_1_n_n none l r (ix2 g k)).trans ?_
  rw [← Equiv.sum_comp (contrEquiv1 dot_S2000x128_S2000x128_S128x128_0_0_1_1_n_n 2000 rfl rfl).symm]
  refine Finset.sum_congr rfl fun q _ => ?_
  have hq := contrEquiv1_symm_val dot_S2000x128_S2000x128_S128x128_0_0_1_1_n_n 2000 rfl rfl q
  have el : dot_S2000x128_S2000x128_S128x128_0_0_1_1_n_n.lhsIdx (ix2 g k) ((contrEquiv1 dot_S2000x128_S2000x128_S128x128_0_0_1_1_n_n 2000 rfl rfl).symm q) = ix2 q g := funext fun a => Fin.ext (by
    match a with
    | ⟨0, _⟩ => exact (lhs_sum_0 _ _).trans hq
    | ⟨1, _⟩ => exact lhs_sum_1 _ _)
  have er : dot_S2000x128_S2000x128_S128x128_0_0_1_1_n_n.rhsIdx (ix2 g k) ((contrEquiv1 dot_S2000x128_S2000x128_S128x128_0_0_1_1_n_n 2000 rfl rfl).symm q) = ix2 q k := funext fun a => Fin.ext (by
    match a with
    | ⟨0, _⟩ => exact (rhs_sum_0 _ _).trans hq
    | ⟨1, _⟩ => exact rhs_sum_1 _ _)
  rw [el, er]

/-- One point's update of the sum accumulator, at entry (g, k). -/
theorem pay4_apply (x : Vec Ideal S2000x128 .f32) (b : Vec Ideal S128 .f32) (oh : Vec Ideal S2000x128 .bf16)
    (acc : Vec Ideal S128x128 .f32) (g k : Fin 128) :
    k3_pay4 x b oh acc (ix2 g k)
      = acc (ix2 g k) + ∑ r : Fin 2000, oh (ix2 r g) * max (x (ix2 r k) + b (ix1 k)) (Ideal.ofBits .f32 0x00000000#32) := by
  unfold k3_pay4 k3_pay3
  dsimp only
  simp only [shapeCast_self]
  show acc (ix2 g k) + matmul dot_S2000x128_S2000x128_S128x128_0_0_1_1_n_n none oh _ (constant (F := Ideal) S128x128 .f32 0x00000000#32) (ix2 g k) = _
  refine congrArg (acc (ix2 g k) + ·) ((mmSum_apply _ _ g k).trans ?_)
  refine Finset.sum_congr rfl fun r _ => ?_
  refine congrArg (oh (ix2 r g) * ·) ?_
  show max (x (ix2 r k) + broadcastTo S2000x128 (shapeCast S1x128 b shapeCasts_S128_S1x128) broadcasts_S1x128_S2000x128 (ix2 r k))
      (Ideal.ofBits .f32 0x00000000#32) = _
  rw [broadcastTo_1b_ab_apply, shapeCast_a_1a_apply]

theorem lhs_cnt_0 (i : S128x1.Idx) (q : dot_S2000x128_S2000x1_S128x1_0_0_1_1_n_n.contr.Idx) :
    (dot_S2000x128_S2000x1_S128x1_0_0_1_1_n_n.lhsIdx i q 0).val = (q ⟨0, by decide⟩).val :=
  dot_S2000x128_S2000x1_S128x1_0_0_1_1_n_n.lhsIdx_val_of_single rfl i q
theorem lhs_cnt_1 (i : S128x1.Idx) (q : dot_S2000x128_S2000x1_S128x1_0_0_1_1_n_n.contr.Idx) :
    (dot_S2000x128_S2000x1_S128x1_0_0_1_1_n_n.lhsIdx i q 1).val = (i 0).val := by
  unfold DotDims.lhsIdx
  rw [dif_neg (show ¬(1 : Fin S2000x128.rank) ∈ dot_S2000x128_S2000x1_S128x1_0_0_1_1_n_n.lhsBatch by decide), dif_pos (show (1 : Fin S2000x128.rank) ∈ dot_S2000x128_S2000x1_S128x1_0_0_1_1_n_n.lhsNonContracting by decide)]
  rfl
theorem rhs_cnt_0 (i : S128x1.Idx) (q : dot_S2000x128_S2000x1_S128x1_0_0_1_1_n_n.contr.Idx) :
    (dot_S2000x128_S2000x1_S128x1_0_0_1_1_n_n.rhsIdx i q 0).val = (q ⟨0, by decide⟩).val :=
  dot_S2000x128_S2000x1_S128x1_0_0_1_1_n_n.rhsIdx_val_of_single rfl i q
theorem rhs_cnt_1 (i : S128x1.Idx) (q : dot_S2000x128_S2000x1_S128x1_0_0_1_1_n_n.contr.Idx) :
    (dot_S2000x128_S2000x1_S128x1_0_0_1_1_n_n.rhsIdx i q 1).val = (i 1).val := by
  unfold DotDims.rhsIdx
  rw [dif_neg (show ¬(1 : Fin S2000x1.rank) ∈ dot_S2000x128_S2000x1_S128x1_0_0_1_1_n_n.rhsBatch by decide), dif_pos (show (1 : Fin S2000x1.rank) ∈ dot_S2000x128_S2000x1_S128x1_0_0_1_1_n_n.rhsNonContracting by decide)]
  rfl

/-- The membership block times a column, contracted over the block's rows: entry (g, u) is the sum over the rows r of
    membership (r, g) times the column's entry r. -/
theorem mmCnt_apply (l : FVec Ideal S2000x128 .bf16) (r : FVec Ideal S2000x1 .bf16) (g : Fin 128) (u : Fin 1) :
    matmul dot_S2000x128_S2000x1_S128x1_0_0_1_1_n_n none l r (constant (F := Ideal) S128x1 .f32 0x00000000#32) (ix2 g u)
      = ∑ q : Fin 2000, l (ix2 q g) * r (ix2 q u) := by
  refine (Ideal.matmul_constant_zero_apply dot_S2000x128_S2000x1_S128x1_0_0_1_1_n_n none l r (ix2 g u)).trans ?_
  rw [← Equiv.sum_comp (contrEquiv1 dot_S2000x128_S2000x1_S128x1_0_0_1_1_n_n 2000 rfl rfl).symm]
  refine Finset.sum_congr rfl fun q _ => ?_
  have hq := contrEquiv1_symm_val dot_S2000x128_S2000x1_S128x1_0_0_1_1_n_n 2000 rfl rfl q
  have el : dot_S2000x128_S2000x1_S128x1_0_0_1_1_n_n.lhsIdx (ix2 g u) ((contrEquiv1 dot_S2000x128_S2000x1_S128x1_0_0_1_1_n_n 2000 rfl rfl).symm q) = ix2 q g := funext fun a => Fin.ext (by
    match a with
    | ⟨0, _⟩ => exact (lhs_cnt_0 _ _).trans hq
    | ⟨1, _⟩ => exact lhs_cnt_1 _ _)
  have er : dot_S2000x128_S2000x1_S128x1_0_0_1_1_n_n.rhsIdx (ix2 g u) ((contrEquiv1 dot_S2000x128_S2000x1_S128x1_0_0_1_1_n_n 2000 rfl rfl).symm q) = ix2 q u := funext fun a => Fin.ext (by
    match a with
    | ⟨0, _⟩ => exact (rhs_cnt_0 _ _).trans hq
    | ⟨1, _⟩ => exact rhs_cnt_1 _ _)
  rw [el, er]

theorem lhs_cls_0 (i : S128x5.Idx) (q : dot_S128x128_S128x5_S128x5_1_0_0_1_n_n.contr.Idx) :
    (dot_S128x128_S128x5_S128x5_1_0_0_1_n_n.lhsIdx i q 0).val = (i 0).val := by
  unfold DotDims.lhsIdx
  rw [dif_neg (show ¬(0 : Fin S128x128.rank) ∈ dot_S128x128_S128x5_S128x5_1_0_0_1_n_n.lhsBatch by decide), dif_pos (show (0 : Fin S128x128.rank) ∈ dot_S128x128_S128x5_S128x5_1_0_0_1_n_n.lhsNonContracting by decide)]
  rfl
theorem lhs_cls_1 (i : S128x5.Idx) (q : dot_S128x128_S128x5_S128x5_1_0_0_1_n_n.contr.Idx) :
    (dot_S128x128_S128x5_S128x5_1_0_0_1_n_n.lhsIdx i q 1).val = (q ⟨0, by decide⟩).val :=
  dot_S128x128_S128x5_S128x5_1_0_0_1_n_n.lhsIdx_val_of_single rfl i q
theorem rhs_cls_0 (i : S128x5.Idx) (q : dot_S128x128_S128x5_S128x5_1_0_0_1_n_n.contr.Idx) :
    (dot_S128x128_S128x5_S128x5_1_0_0_1_n_n.rhsIdx i q 0).val = (q ⟨0, by decide⟩).val :=
  dot_S128x128_S128x5_S128x5_1_0_0_1_n_n.rhsIdx_val_of_single rfl i q
theorem rhs_cls_1 (i : S128x5.Idx) (q : dot_S128x128_S128x5_S128x5_1_0_0_1_n_n.contr.Idx) :
    (dot_S128x128_S128x5_S128x5_1_0_0_1_n_n.rhsIdx i q 1).val = (i 1).val := by
  unfold DotDims.rhsIdx
  rw [dif_neg (show ¬(1 : Fin S128x5.rank) ∈ dot_S128x128_S128x5_S128x5_1_0_0_1_n_n.rhsBatch by decide), dif_pos (show (1 : Fin S128x5.rank) ∈ dot_S128x128_S128x5_S128x5_1_0_0_1_n_n.rhsNonContracting by decide)]
  rfl

/-- The classifier's product: entry (g, c) is the sum over the features k of the mean (g, k) times weight (k, c). -/
theorem mmCls_apply (l : FVec Ideal S128x128 .bf16) (r : FVec Ideal S128x5 .bf16) (g : Fin 128) (c : Fin 5) :
    matmul dot_S128x128_S128x5_S128x5_1_0_0_1_n_n none l r (constant (F := Ideal) S128x5 .f32 0x00000000#32) (ix2 g c)
      = ∑ q : Fin 128, l (ix2 g q) * r (ix2 q c) := by
  refine (Ideal.matmul_constant_zero_apply dot_S128x128_S128x5_S128x5_1_0_0_1_n_n none l r (ix2 g c)).trans ?_
  rw [← Equiv.sum_comp (contrEquiv1 dot_S128x128_S128x5_S128x5_1_0_0_1_n_n 128 rfl rfl).symm]
  refine Finset.sum_congr rfl fun q _ => ?_
  have hq := contrEquiv1_symm_val dot_S128x128_S128x5_S128x5_1_0_0_1_n_n 128 rfl rfl q
  have el : dot_S128x128_S128x5_S128x5_1_0_0_1_n_n.lhsIdx (ix2 g c) ((contrEquiv1 dot_S128x128_S128x5_S128x5_1_0_0_1_n_n 128 rfl rfl).symm q) = ix2 g q := funext fun a => Fin.ext (by
    match a with
    | ⟨0, _⟩ => exact lhs_cls_0 _ _
    | ⟨1, _⟩ => exact (lhs_cls_1 _ _).trans hq)
  have er : dot_S128x128_S128x5_S128x5_1_0_0_1_n_n.rhsIdx (ix2 g c) ((contrEquiv1 dot_S128x128_S128x5_S128x5_1_0_0_1_n_n 128 rfl rfl).symm q) = ix2 q c := funext fun a => Fin.ext (by
    match a with
    | ⟨0, _⟩ => exact (rhs_cls_0 _ _).trans hq
    | ⟨1, _⟩ => exact rhs_cls_1 _ _)
  rw [el, er]

/-- One point's update of the count accumulator, at entry (g, 0): the bf16 word of the ones column is the number one. -/
theorem pay5_apply (oh : Vec Ideal S2000x128 .bf16) (acc : Vec Ideal S128x1 .f32) (g : Fin 128) (u : Fin 1) :
    k3_pay5 oh acc (ix2 g u) = acc (ix2 g u) + ∑ r : Fin 2000, oh (ix2 r g) * 1 := by
  unfold k3_pay5 k3_pay3
  dsimp only
  simp only [shapeCast_self]
  show acc (ix2 g u) + matmul dot_S2000x128_S2000x1_S128x1_0_0_1_1_n_n none oh _ (constant (F := Ideal) S128x1 .f32 0x00000000#32) (ix2 g u) = _
  refine congrArg (acc (ix2 g u) + ·) ((mmCnt_apply _ _ g u).trans ?_)
  refine Finset.sum_congr rfl fun r _ => ?_
  refine congrArg (oh (ix2 r g) * ·) ?_
  exact IdealRules.sign_bit.ideal_onePat .bf16

/-- The last point's output at class c of graph g: mean, classifier product, bias. -/
theorem pay6_apply (S : Vec Ideal S128x128 .f32) (Cn : Vec Ideal S128x1 .f32) (Wl : Vec Ideal S128x5 .f32)
    (bl : Vec Ideal S5 .f32) (g : Fin 128) (c : Fin 5) :
    k3_pay6 S Cn Wl bl (ix2 g c)
      = (∑ k : Fin 128, Ideal.div (S (ix2 g k)) (max (Cn (ix2 g 0)) (Ideal.ofBits .f32 0x3F800000#32)) * Wl (ix2 k c))
        + bl (ix1 c) := by
  unfold k3_pay6
  show matmul dot_S128x128_S128x5_S128x5_1_0_0_1_n_n none _ _ (constant (F := Ideal) S128x5 .f32 0x00000000#32) (ix2 g c)
      + broadcastTo S128x5 (shapeCast S1x5 bl shapeCasts_S5_S1x5) broadcasts_S1x5_S128x5 (ix2 g c) = _
  rw [broadcastTo_1b_ab_apply, shapeCast_a_1a_apply]
  refine congrArg (· + bl (ix1 c)) ((mmCls_apply _ _ g c).trans ?_)
  refine Finset.sum_congr rfl fun k _ => ?_
  refine congrArg (· * Wl (ix2 k c)) ?_
  show Ideal.div (S (ix2 g k)) (broadcastTo S128x128 (maximumf (F := Ideal) (φ := .f32) Cn (broadcast S128x1 (FloatOps.ofBits (F := Ideal) .f32 0x3F800000#32)))
      broadcasts_S128x1_S128x128 (ix2 g k)) = _
  refine congrArg (Ideal.div (S (ix2 g k))) ?_
  refine (broadcastTo_apply _ broadcasts_S128x1_S128x128 (ix2 g k) (ix2 g (0 : Fin 1)) fun ax => ?_).trans rfl
  match ax with
  | ⟨0, _⟩ => show g.val = if (128 : ℕ) = 1 then 0 else g.val; rw [if_neg (by decide)]
  | ⟨1, _⟩ => show (0 : ℕ) = if (1 : ℕ) = 1 then 0 else k.val; rw [if_pos rfl]

/-- The sum accumulator is reset to zero. -/
theorem pay1_apply (j : S128x128.Idx) : k3_pay1 (F := Ideal) j = 0 := by
  unfold k3_pay1
  simp only [shapeCast_self]
  exact Ideal.ofBits_zero_f32

/-- The count accumulator is reset to zero. -/
theorem pay2_apply (j : S128x1.Idx) : k3_pay2 (F := Ideal) j = 0 := by
  unfold k3_pay2
  simp only [shapeCast_self]
  exact Ideal.ofBits_zero_f32

/-! ## The two accumulators after n + 1 grid points -/

/-- The sum accumulator: reset and added to at the first point, added to at each later one. After point n its entry
    (g, k) is the sum, over the points so far and the rows of each point's block, of membership times clamped row. -/
theorem foldS_apply (X : ℕ → Vec Ideal S2000x128 .f32) (B : ℕ → Vec Ideal S128 .f32) (OH : ℕ → Vec Ideal S2000x128 .bf16)
    (P : ℕ → Vec Ideal S128x128 .f32)
    (h0 : P 0 = k3_pay4 (X 0) (B 0) (OH 0) (k3_pay1 (F := Ideal)))
    (hs : ∀ n, P (n + 1) = k3_pay4 (X (n + 1)) (B (n + 1)) (OH (n + 1)) (P n)) (n : ℕ) (g k : Fin 128) :
    P n (ix2 g k) = ∑ t ∈ Finset.range (n + 1), ∑ r : Fin 2000,
        OH t (ix2 r g) * max (X t (ix2 r k) + B t (ix1 k)) (Ideal.ofBits .f32 0x00000000#32) := by
  induction n with
  | zero => rw [h0, pay4_apply, pay1_apply, zero_add, Finset.sum_range_one]
  | succ n ih => rw [hs n, pay4_apply, ih, Finset.sum_range_succ _ (n + 1)]

/-- The count accumulator likewise: after point n its entry (g, 0) is the sum of the memberships seen so far. -/
theorem foldC_apply (OH : ℕ → Vec Ideal S2000x128 .bf16) (P : ℕ → Vec Ideal S128x1 .f32)
    (h0 : P 0 = k3_pay5 (OH 0) (k3_pay2 (F := Ideal)))
    (hs : ∀ n, P (n + 1) = k3_pay5 (OH (n + 1)) (P n)) (n : ℕ) (g : Fin 128) (u : Fin 1) :
    P n (ix2 g u) = ∑ t ∈ Finset.range (n + 1), ∑ r : Fin 2000, OH t (ix2 r g) * 1 := by
  induction n with
  | zero => rw [h0, pay5_apply, pay2_apply, zero_add, Finset.sum_range_one]
  | succ n ih => rw [hs n, pay5_apply, ih, Finset.sum_range_succ _ (n + 1)]

end Cert.KernelIdeal.PoolMath

end
-- ==== Proof.Val3.lean ====
import proofs.«429345_j86552180949235_1_alg».proof.Proof.Rg3Defs
import proofs.«429345_j86552180949235_1_alg».proof.Proof.OneHot
import proofs.«429345_j86552180949235_1_alg».proof.Proof.PoolRefAt
import proofs.«429345_j86552180949235_1_alg».proof.Proof.PoolMath

/-! The pooling region against the reference's pooling tail.

The region walks the fifty thousand rows in twenty-five blocks of two thousand. Block t of the row windows is rows
2000 t to 2000 t + 1999 of its array; the bias, the classifier's matrix and the classifier's bias are read whole at
every point. So the two accumulators after the last point are sums over all rows: entry (g, k) of the first is the
sum over the nodes i of membership (i, g) times the clamped entry (i, k), entry g of the second the sum of the
memberships. Membership (i, g) is one when node i's graph id is the word of g and zero otherwise, which turns both
into sums over the members of g — the same sums the reference's two scatter-adds collect. The division, the
classifier's product and its bias are then the same on both sides. -/

noncomputable section

namespace Cert.KernelIdeal.Val3

open Cert.KernelIdeal Cert.KernelIdeal.Gen
open Idealize.ShloMosaic Idealize.ShloMosaic.TcCoe Idealize.ShloMosaic.ValueIdx
open Cert.PoolScat Cert.KernelIdeal.PoolMath

section Entry

variable (V : (c : Dev nD) → (b : Ref sig .tc) → Buf (Elt Ideal) ((c : Thread nD τ).loc b)) (c : Dev nD)

/-! ## The arrays the region reads, and its blocks, at their literal types -/

abbrev xarr : Vec Ideal S50000x128 .f32 := V c main_v73
abbrev oharr : Vec Ideal S50000x128 .bf16 := V c main_v80
abbrev b3arr : Vec Ideal S128 .f32 := V c main_arg8
abbrev wlarr : Vec Ideal S128x5 .f32 := V c main_arg9
abbrev blarr : Vec Ideal S5 .f32 := V c main_arg10
abbrev idarr : IVec S50000 32 := V c main_arg2

abbrev xblk (n : ℕ) : Vec Ideal S2000x128 .f32 := Rg3.iblk3 V c 0 (Rg3.ptOf n)
abbrev bblk (n : ℕ) : Vec Ideal S128 .f32 := Rg3.iblk3 V c 1 (Rg3.ptOf n)
abbrev ohblk (n : ℕ) : Vec Ideal S2000x128 .bf16 := Rg3.iblk3 V c 2 (Rg3.ptOf n)
abbrev wlblk : Vec Ideal S128x5 .f32 := Rg3.iblk3 V c 3 (Rg3.ptOf 24)
abbrev blblk : Vec Ideal S5 .f32 := Rg3.iblk3 V c 4 (Rg3.ptOf 24)

/-- The block index of each window at each grid point: the row windows move one block per point, the others stay. -/
theorem idx_facts : ∀ t : Fin cfg3.N, win3_0.index t (0 : Fin 2) = t.val ∧ win3_0.index t (1 : Fin 2) = 0
    ∧ win3_2.index t (0 : Fin 2) = t.val ∧ win3_2.index t (1 : Fin 2) = 0
    ∧ win3_1.index t (0 : Fin 1) = 0
    ∧ win3_3.index t (0 : Fin 2) = 0 ∧ win3_3.index t (1 : Fin 2) = 0
    ∧ win3_4.index t (0 : Fin 1) = 0 :=
  (by decide +kernel : ∀ t : Fin grid3.N, _)

/-- The grid point of a position below twenty-five is that position. -/
theorem ptOf_val' (n : ℕ) (hn : n < 25) : (Rg3.ptOf n).val = n := by
  unfold Rg3.ptOf
  rw [dif_pos (show n < cfg3.N from hn)]

/-- Row r of block n of the row window is row 2000 n + r of the layer's output. -/
theorem xblk_apply (n : ℕ) (hn : n < 25) (r : Fin 2000) (k : Fin 128) (h : 2000 * n + r.val < 50000) :
    xblk V c n (ix2 r k) = xarr V c (ix2 ⟨2000 * n + r.val, h⟩ k) := by
  show V c main_v73 (((cfg3.win 0).blk (Rg3.ptOf n)).view.emb (ix2 r k)) = V c main_v73 (ix2 ⟨2000 * n + r.val, h⟩ k)
  refine congrArg (V c main_v73) (funext fun a => Fin.ext ?_)
  obtain ⟨e0, e1, -⟩ := idx_facts (Rg3.ptOf n)
  rw [ptOf_val' n hn] at e0
  match a with
  | ⟨0, _⟩ => show win3_0.index (Rg3.ptOf n) (0 : Fin 2) * 2000 + 1 * r.val = 2000 * n + r.val; omega
  | ⟨1, _⟩ => show win3_0.index (Rg3.ptOf n) (1 : Fin 2) * 128 + 1 * k.val = k.val; omega

/-- Row r of block n of the membership window is row 2000 n + r of the membership matrix. -/
theorem ohblk_apply (n : ℕ) (hn : n < 25) (r : Fin 2000) (g : Fin 128) (h : 2000 * n + r.val < 50000) :
    ohblk V c n (ix2 r g) = oharr V c (ix2 ⟨2000 * n + r.val, h⟩ g) := by
  show V c main_v80 (((cfg3.win 2).blk (Rg3.ptOf n)).view.emb (ix2 r g)) = V c main_v80 (ix2 ⟨2000 * n + r.val, h⟩ g)
  refine congrArg (V c main_v80) (funext fun a => Fin.ext ?_)
  obtain ⟨-, -, e2, e3, -⟩ := idx_facts (Rg3.ptOf n)
  rw [ptOf_val' n hn] at e2
  match a with
  | ⟨0, _⟩ => show win3_2.index (Rg3.ptOf n) (0 : Fin 2) * 2000 + 1 * r.val = 2000 * n + r.val; omega
  | ⟨1, _⟩ => show win3_2.index (Rg3.ptOf n) (1 : Fin 2) * 128 + 1 * g.val = g.val; omega

/-- The bias window is the whole bias at every point. -/
theorem bblk_apply (n : ℕ) (k : Fin 128) : bblk V c n (ix1 k) = b3arr V c (ix1 k) := by
  show V c main_arg8 (((cfg3.win 1).blk (Rg3.ptOf n)).view.emb (ix1 k)) = V c main_arg8 (ix1 k)
  refine congrArg (V c main_arg8) (funext fun a => Fin.ext ?_)
  obtain ⟨-, -, -, -, e4, -⟩ := idx_facts (Rg3.ptOf n)
  match a with
  | ⟨0, _⟩ => show win3_1.index (Rg3.ptOf n) (0 : Fin 1) * 128 + 1 * k.val = k.val; omega

/-- The classifier's matrix is read whole. -/
theorem wlblk_apply (k : Fin 128) (j : Fin 5) : wlblk V c (ix2 k j) = wlarr V c (ix2 k j) := by
  show V c main_arg9 (((cfg3.win 3).blk (Rg3.ptOf 24)).view.emb (ix2 k j)) = V c main_arg9 (ix2 k j)
  refine congrArg (V c main_arg9) (funext fun a => Fin.ext ?_)
  obtain ⟨-, -, -, -, -, e5, e6, -⟩ := idx_facts (Rg3.ptOf 24)
  match a with
  | ⟨0, _⟩ => show win3_3.index (Rg3.ptOf 24) (0 : Fin 2) * 128 + 1 * k.val = k.val; omega
  | ⟨1, _⟩ => show win3_3.index (Rg3.ptOf 24) (1 : Fin 2) * 5 + 1 * j.val = j.val; omega

/-- The classifier's bias is read whole. -/
theorem blblk_apply (j : Fin 5) : blblk V c (ix1 j) = blarr V c (ix1 j) := by
  show V c main_arg10 (((cfg3.win 4).blk (Rg3.ptOf 24)).view.emb (ix1 j)) = V c main_arg10 (ix1 j)
  refine congrArg (V c main_arg10) (funext fun a => Fin.ext ?_)
  obtain ⟨-, -, -, -, -, -, -, e7⟩ := idx_facts (Rg3.ptOf 24)
  match a with
  | ⟨0, _⟩ => show win3_4.index (Rg3.ptOf 24) (0 : Fin 1) * 5 + 1 * j.val = j.val; omega

/-- The sum over the twenty-five blocks of a function of the array's rows is the sum over the rows. -/
theorem sum_rows (f : Fin 50000 → EReal) :
    ∑ t ∈ Finset.range 25, ∑ r : Fin 2000, (if h : 2000 * t + r.val < 50000 then f ⟨2000 * t + r.val, h⟩ else 0) = ∑ i, f i := by
  refine (sum_blocks (fun t r => if h : 2000 * t + r < 50000 then f ⟨2000 * t + r, h⟩ else 0)).trans ?_
  refine Finset.sum_congr rfl fun i _ => ?_
  have hi := i.isLt
  have h : 2000 * (i.val / 2000) + i.val % 2000 < 50000 := by omega
  rw [dif_pos h]
  exact congrArg f (Fin.ext (by show 2000 * (i.val / 2000) + i.val % 2000 = i.val; omega))

/-- The column of graph ids laid out over the columns, read at (i, g): node i's id. -/
theorem idcol_apply (batch : IVec S50000 32) (i : Fin 50000) (g : Fin 128)
    (h1 : S50000x1.BroadcastsInDim S50000x128 (![0, 1] : Fin 2 → Fin S50000x128.rank))
    (h2 : S50000.BroadcastsInDim S50000x1 (![0] : Fin 1 → Fin S50000x1.rank)) :
    broadcastInDim S50000x128 ![0, 1] h1 (broadcastInDim S50000x1 ![0] h2 batch) (ix2 i g) = batch (ix1 i) := by
  refine (broadcastInDim_apply _ h1 _ (ix2 i g) (ix2 i (0 : Fin 1)) fun a => ?_).trans
    (broadcastInDim_apply _ h2 batch (ix2 i (0 : Fin 1)) (ix1 i) fun a => ?_)
  · match a with
    | ⟨0, _⟩ => show i.val = if (50000 : ℕ) = 1 then 0 else i.val; rw [if_neg (by decide)]
    | ⟨1, _⟩ => show (0 : ℕ) = if (1 : ℕ) = 1 then 0 else g.val; rw [if_pos rfl]
  · match a with
    | ⟨0, _⟩ => show i.val = if (50000 : ℕ) = 1 then 0 else i.val; rw [if_neg (by decide)]

/-- The row of graph numbers laid out over the rows, read at (i, g): the word of g. -/
theorem gnum_apply (i : Fin 50000) (g : Fin 128)
    (h1 : S1x128.BroadcastsInDim S50000x128 (![0, 1] : Fin 2 → Fin S50000x128.rank))
    (h2 : S128.BroadcastsInDim S1x128 (![1] : Fin 1 → Fin S1x128.rank)) :
    broadcastInDim S50000x128 ![0, 1] h1 (broadcastInDim S1x128 ![1] h2 (iotaInDim S128 32 0)) (ix2 i g)
      = BitVec.ofNat 32 g.val := by
  refine ((broadcastInDim_apply _ h1 _ (ix2 i g) (ix2 (0 : Fin 1) g) fun a => ?_).trans
    (broadcastInDim_apply _ h2 (iotaInDim S128 32 0) (ix2 (0 : Fin 1) g) (ix1 g) fun a => ?_)).trans rfl
  · match a with
    | ⟨0, _⟩ => show (0 : ℕ) = if (1 : ℕ) = 1 then 0 else i.val; rw [if_pos rfl]
    | ⟨1, _⟩ => show g.val = if (128 : ℕ) = 1 then 0 else g.val; rw [if_neg (by decide)]
  · match a with
    | ⟨0, _⟩ => show g.val = if (128 : ℕ) = 1 then 0 else g.val; rw [if_neg (by decide)]

/-- An entry of the membership matrix: one where the node's graph id is the graph's word, zero elsewhere. -/
theorem onehot_apply (batch : IVec S50000 32) (i : Fin 50000) (g : Fin 128) :
    OneHot.onehotOf (F := Ideal) batch (ix2 i g) = if batch (ix1 i) = BitVec.ofNat 32 g.val then 1 else 0 := by
  unfold OneHot.onehotOf
  refine Eq.trans ?_ (eqBit_toNat (batch (ix1 i)) (BitVec.ofNat 32 g.val))
  show (((IntOp.cmpi .eq (broadcastInDim S50000x128 ![0, 1] _ (broadcastInDim S50000x1 ![0] _ batch) (ix2 i g))
      (broadcastInDim S50000x128 ![0, 1] _ (broadcastInDim S1x128 ![1] _ (iotaInDim S128 32 0)) (ix2 i g))).toNat : ℝ) : EReal) = _
  rw [idcol_apply, gnum_apply]

/-! ## The two accumulators after the last point -/

/-- The sum accumulator after the last point, at (g, k): the clamped rows of g's members. -/
theorem poolS_apply (hoh : V c main_v80 = OneHot.onehotOf (V c main_arg2)) (g k : Fin 128) :
    Rg3.poolS V c 24 (ix2 g k)
      = ∑ i ∈ members (idarr V c) g, max (xarr V c (ix2 i k) + b3arr V c (ix1 k)) (Ideal.ofBits .f32 0x00000000#32) := by
  refine (foldS_apply (fun n => xblk V c n) (fun n => bblk V c n) (fun n => ohblk V c n) (Rg3.poolS V c) rfl (fun n => rfl) 24 g k).trans ?_
  refine Eq.trans ?_ ((sum_rows fun i => oharr V c (ix2 i g)
      * max (xarr V c (ix2 i k) + b3arr V c (ix1 k)) (Ideal.ofBits .f32 0x00000000#32)).trans ?_)
  · refine Finset.sum_congr rfl fun t ht => Finset.sum_congr rfl fun r _ => ?_
    have ht' : t < 25 := Finset.mem_range.mp ht
    have hr := r.isLt
    have h : 2000 * t + r.val < 50000 := by omega
    rw [dif_pos h]
    show ohblk V c t (ix2 r g) * max (xblk V c t (ix2 r k) + bblk V c t (ix1 k)) _ = _
    rw [ohblk_apply V c t ht' r g h, xblk_apply V c t ht' r k h, bblk_apply V c t k]
  · have hoh' : ∀ i, oharr V c (ix2 i g) = if idarr V c (ix1 i) = BitVec.ofNat 32 g.val then 1 else 0 := fun i => by
      show V c main_v80 (ix2 i g) = _
      rw [hoh]
      exact onehot_apply (V c main_arg2) i g
    rw [Finset.sum_congr rfl fun i _ => by rw [hoh' i]]
    exact sum_indicator_mul _ _

/-- The count accumulator after the last point, at (g, 0): one for each member of g. -/
theorem poolC_apply (hoh : V c main_v80 = OneHot.onehotOf (V c main_arg2)) (g : Fin 128) (u : Fin 1) :
    Rg3.poolC V c 24 (ix2 g u) = ∑ i ∈ members (idarr V c) g, (1 : EReal) := by
  refine (foldC_apply (fun n => ohblk V c n) (Rg3.poolC V c) rfl (fun n => rfl) 24 g u).trans ?_
  refine Eq.trans ?_ ((sum_rows fun i => oharr V c (ix2 i g) * 1).trans ?_)
  · refine Finset.sum_congr rfl fun t ht => Finset.sum_congr rfl fun r _ => ?_
    have ht' : t < 25 := Finset.mem_range.mp ht
    have hr := r.isLt
    have h : 2000 * t + r.val < 50000 := by omega
    rw [dif_pos h]
    show ohblk V c t (ix2 r g) * 1 = _
    rw [ohblk_apply V c t ht' r g h]
  · have hoh' : ∀ i, oharr V c (ix2 i g) = if idarr V c (ix1 i) = BitVec.ofNat 32 g.val then 1 else 0 := fun i => by
      show V c main_v80 (ix2 i g) = _
      rw [hoh]
      exact onehot_apply (V c main_arg2) i g
    rw [Finset.sum_congr rfl fun i _ => by rw [hoh' i]]
    exact sum_indicator_mul _ _

/-! ## The region's output -/

/-- What the last point stores, at class j of graph g, is the closed form of the arrays the region was entered with. -/
theorem outV_apply (hoh : V c main_v80 = OneHot.onehotOf (V c main_arg2)) (g : Fin 128) (j : Fin 5) :
    Rg3.outV V c (ix2 g j) = poolG (xarr V c) (b3arr V c) (idarr V c) (wlarr V c) (blarr V c) g j := by
  unfold Rg3.outV poolG
  refine (pay6_apply (Rg3.poolS V c 24) (Rg3.poolC V c 24) (wlblk V c) (blblk V c) g j).trans ?_
  rw [blblk_apply]
  refine congrArg (· + blarr V c (ix1 j)) (Finset.sum_congr rfl fun k _ => ?_)
  rw [poolS_apply V c hoh g k, poolC_apply V c hoh g 0, wlblk_apply]

end Entry

/-- The pooling region's output is the reference's pooling tail of the arrays the region reads, whenever the
    membership matrix it reads is the one built from the graph ids. -/
theorem pool_value (V : (c : Dev nD) → (b : Ref sig .tc) → Buf (Elt Ideal) ((c : Thread nD τ).loc b)) (c : Dev nD)
    (hoh : V c main_v80 = OneHot.onehotOf (V c main_arg2)) :
    Cert.KernelIdeal.Rg3.outV (F := Ideal) V c
      = Cert.ReferenceIdeal.PoolRef.poolRef (V c main_v73) (V c main_arg8) (V c main_arg2) (V c main_arg9) (V c main_arg10) := by
  funext i
  obtain ⟨g, j, rfl⟩ : ∃ (g : Fin 128) (j : Fin 5), i = ix2 g j := ⟨i 0, i 1, eq_ix2 i⟩
  exact (outV_apply V c hoh g j).trans
    (Cert.ReferenceIdeal.PoolRef.poolRef_apply (V c main_v73) (V c main_arg8) (V c main_arg2) (V c main_arg9) (V c main_arg10) g j).symm

end Cert.KernelIdeal.Val3

end
-- ==== Proof.AggRef.lean ====
import proofs.«429345_j86552180949235_1_alg».proof.Proof.RefRead

/-!
# The neighbourhood aggregation of one layer, as one function

Each of the three graph-convolution layers of the reference ends with the same stretch of
operations: the rows of a node-feature matrix `p : [50000,128]` are gathered along the edge list
by the (wrapped) source index, every gathered row is scaled by the edge's normalisation weight,
and the scaled rows are added into a zero matrix at the rows named by the destination index.

`aggCore p s d w` is that stretch for a source-index vector `s`, a destination-index vector `d`
and a weight vector `w` (all of length 650000: the 600000 edges and the 50000 self-loops).
`aggRef p x1` is `aggCore` at the three vectors the reference computes from the edge list `x1`.
The three layers' aggregation stages are `aggRef` of the layer's feature product.
-/

noncomputable section

namespace Cert.ReferenceIdeal.AggRef

open Cert.ReferenceIdeal Cert.ReferenceIdeal.Gen Idealize.ShloMosaic Idealize.ShloMosaic.TcCoe Idealize.SL.Sem Idealize.ShloMosaic.StableHlo

section Core

variable {F : FTy → Type} [FloatOps F]

/-- A source index below zero is wrapped by adding the number of nodes (50000). -/
def wrapSrc (s : (⟨S650000, .i32⟩ : BufTy).Contents (Elt F)) : (⟨S650000, .i32⟩ : BufTy).Contents (Elt F) :=
  select
    (cmpi .slt s (broadcastInDim S650000 ![] bcast_S_S650000 (constantI S_ 32 0#32)))
    (addi s (broadcastInDim S650000 ![] bcast_S_S650000 (constantI S_ 32 50000#32)))
    s

/-- Gather the rows of `p` by the wrapped source index, scale row `e` by `w e`, and add the
scaled rows into a zero `[50000,128]` matrix at the rows `d e`. -/
def aggCore (p : (⟨S50000x128, .f32⟩ : BufTy).Contents (Elt F))
    (s : (⟨S650000, .i32⟩ : BufTy).Contents (Elt F))
    (d : (⟨S650000, .i32⟩ : BufTy).Contents (Elt F))
    (w : (⟨S650000, .f32⟩ : BufTy).Contents (Elt F)) : (⟨S50000x128, .f32⟩ : BufTy).Contents (Elt F) :=
  Host.scatterAdd scatter_S50000x128_S650000x1_S650000x128_1_0_0_1
    (broadcastInDim S50000x128 ![] bcast_S_S50000x128 (constant (F := F) S_ .f32 0x00000000#32))
    (broadcastInDim S650000x1 ![0] bcast_S650000_S650000x1_0 d)
    (mulf
      (Host.gather gather_S50000x128_S650000x1_S650000x128_1_0_n_n_0_1_1128 p
        (broadcastInDim S650000x1 ![0] bcast_S650000_S650000x1_0 (wrapSrc s)))
      (broadcastInDim S650000x128 ![0, 1] bcast_S650000x1_S650000x128_0_1
        (broadcastInDim S650000x1 ![0] bcast_S650000_S650000x1_0 w)))

end Core

/-- The aggregation at the source, destination and weight vectors of the edge list `x1`. -/
def aggRef (p : (⟨S50000x128, .f32⟩ : BufTy).Contents (Elt Ideal))
    (x1 : (⟨S2x600000, .i32⟩ : BufTy).Contents (Elt Ideal)) : (⟨S50000x128, .f32⟩ : BufTy).Contents (Elt Ideal) :=
  aggCore (F := Ideal) p (ReadP.val_main_v3 (F := Ideal) x1) (ReadP.val_main_v6 (F := Ideal) x1)
    (ReadP.val_main_v31 (F := Ideal) x1)

theorem aggRef_eq (p : (⟨S50000x128, .f32⟩ : BufTy).Contents (Elt Ideal))
    (x1 : (⟨S2x600000, .i32⟩ : BufTy).Contents (Elt Ideal)) :
    aggRef p x1 = aggCore (F := Ideal) p (ReadP.val_main_v3 (F := Ideal) x1)
      (ReadP.val_main_v6 (F := Ideal) x1) (ReadP.val_main_v31 (F := Ideal) x1) := rfl

/-- Layer 1: the stage after the first scatter is the aggregation of `x W1`. -/
theorem ref_v45 (x0 : (⟨S50000x3, .f32⟩ : BufTy).Contents (Elt Ideal))
    (x1 : (⟨S2x600000, .i32⟩ : BufTy).Contents (Elt Ideal))
    (x3 : (⟨S3x128, .f32⟩ : BufTy).Contents (Elt Ideal)) :
    ReadP.val_main_v45 (F := Ideal) x0 x1 x3 = aggRef (ReadP.val_main_v32 (F := Ideal) x0 x3) x1 := by
  unfold ReadP.val_main_v45 ReadP.val_main_v44 ReadP.val_main_v43 ReadP.val_main_cst_9
    ReadP.val_main_v42 ReadP.val_main_v41 ReadP.val_main_v40 ReadP.val_main_v39 ReadP.val_main_v38
    ReadP.val_main_v37 ReadP.val_main_v36 ReadP.val_main_v35 ReadP.val_main_c_8 ReadP.val_main_v34
    ReadP.val_main_v33 ReadP.val_main_c_7 aggRef aggCore wrapSrc
  rfl

/-- Layer 2: the stage after the second scatter is the aggregation of the second feature product. -/
theorem ref_v63 (x0 : (⟨S50000x3, .f32⟩ : BufTy).Contents (Elt Ideal))
    (x1 : (⟨S2x600000, .i32⟩ : BufTy).Contents (Elt Ideal))
    (x3 : (⟨S3x128, .f32⟩ : BufTy).Contents (Elt Ideal))
    (x4 : (⟨S128, .f32⟩ : BufTy).Contents (Elt Ideal))
    (x5 : (⟨S128x128, .f32⟩ : BufTy).Contents (Elt Ideal)) :
    ReadP.val_main_v63 (F := Ideal) x0 x1 x3 x4 x5
      = aggRef (ReadP.val_main_v50 (F := Ideal) x0 x1 x3 x4 x5) x1 := by
  unfold ReadP.val_main_v63 ReadP.val_main_v62 ReadP.val_main_v61 ReadP.val_main_cst_12
    ReadP.val_main_v60 ReadP.val_main_v59 ReadP.val_main_v58 ReadP.val_main_v57 ReadP.val_main_v56
    ReadP.val_main_v55 ReadP.val_main_v54 ReadP.val_main_v53 ReadP.val_main_c_11 ReadP.val_main_v52
    ReadP.val_main_v51 ReadP.val_main_c_10 aggRef aggCore wrapSrc
  rfl

/-- Layer 3: the stage after the third scatter is the aggregation of the third feature product. -/
theorem ref_v81 (x0 : (⟨S50000x3, .f32⟩ : BufTy).Contents (Elt Ideal))
    (x1 : (⟨S2x600000, .i32⟩ : BufTy).Contents (Elt Ideal))
    (x3 : (⟨S3x128, .f32⟩ : BufTy).Contents (Elt Ideal))
    (x4 : (⟨S128, .f32⟩ : BufTy).Contents (Elt Ideal))
    (x5 : (⟨S128x128, .f32⟩ : BufTy).Contents (Elt Ideal))
    (x6 : (⟨S128, .f32⟩ : BufTy).Contents (Elt Ideal))
    (x7 : (⟨S128x128, .f32⟩ : BufTy).Contents (Elt Ideal)) :
    ReadP.val_main_v81 (F := Ideal) x0 x1 x3 x4 x5 x6 x7
      = aggRef (ReadP.val_main_v68 (F := Ideal) x0 x1 x3 x4 x5 x6 x7) x1 := by
  unfold ReadP.val_main_v81 ReadP.val_main_v80 ReadP.val_main_v79 ReadP.val_main_cst_15
    ReadP.val_main_v78 ReadP.val_main_v77 ReadP.val_main_v76 ReadP.val_main_v75 ReadP.val_main_v74
    ReadP.val_main_v73 ReadP.val_main_v72 ReadP.val_main_v71 ReadP.val_main_c_14 ReadP.val_main_v70
    ReadP.val_main_v69 ReadP.val_main_c_13 aggRef aggCore wrapSrc
  rfl

end Cert.ReferenceIdeal.AggRef
-- ==== Proof.HostStages.lean ====
import proofs.«429345_j86552180949235_1_alg».proof.Proof.Gen.KernelIdeal.Regions
import proofs.«429345_j86552180949235_1_alg».proof.Proof.OneHot
import proofs.«429345_j86552180949235_1_alg».proof.Proof.AggRef

/-!
# What the host stretches of the program leave in the buffers the regions read

Between its four kernel regions the program runs plain array operations. They are, operation for
operation, stretches of the reference:

* before the first region: the source and destination index vectors of the edge list with the
  self-loops appended, and the symmetric normalisation weight of every edge (the node degrees by a
  scatter-add of ones, their inverse square roots where the degree is positive, gathered at both
  ends of the edge and multiplied);
* after each of the first three regions: the neighbourhood aggregation of the region's result
  (gather by source, scale by the weight, scatter-add by destination);
* before the last region also the graph-membership matrix of the nodes.

Each stretch is first read generically in the float algebra, as a function of the contents it
starts from; the statements about the program's valuations are instances.
-/

noncomputable section

namespace Cert.KernelIdeal.HostStages

open Cert.KernelIdeal Idealize.ShloMosaic Idealize.ShloMosaic.TcCoe Idealize.ShloMosaic.StableHlo Idealize.SL.Sem

/-! ## The stretches, generic in the float algebra -/

section Generic

variable {F : FTy → Type} [FloatOps F]

/-- The first stretch leaves the source indices (edges, then self-loops) of the edge list. -/
theorem ops0_v3 (V : Valuation τ sig (Elt F)) :
    StableHlo.after Gen.hostOps0 V (Proc.devRef .tc main_v3)
      = Cert.ReferenceIdeal.ReadP.val_main_v3 (F := F) (V (Proc.devRef .tc main_arg1)) := by
  after_results
  rfl

/-- The first stretch leaves the destination indices (edges, then self-loops) of the edge list. -/
theorem ops0_v6 (V : Valuation τ sig (Elt F)) :
    StableHlo.after Gen.hostOps0 V (Proc.devRef .tc main_v6)
      = Cert.ReferenceIdeal.ReadP.val_main_v6 (F := F) (V (Proc.devRef .tc main_arg1)) := by
  after_results
  rfl

/-- The first stretch leaves the mask "the node's degree is positive". -/
theorem ops0_v12 (V : Valuation τ sig (Elt F)) :
    StableHlo.after Gen.hostOps0 V (Proc.devRef .tc main_v12)
      = Cert.ReferenceIdeal.ReadP.val_main_v12 (F := F) (V (Proc.devRef .tc main_arg1)) := by
  after_results
  rfl

/-- The first stretch leaves the inverse square root of the degree clamped below by one. -/
theorem ops0_v15 (V : Valuation τ sig (Elt F)) :
    StableHlo.after Gen.hostOps0 V (Proc.devRef .tc main_v15)
      = Cert.ReferenceIdeal.ReadP.val_main_v15 (F := F) (V (Proc.devRef .tc main_arg1)) := by
  after_results
  rfl

/-- The first stretch leaves the zero that replaces the weight of an isolated node. -/
theorem ops0_cst_3 (V : Valuation τ sig (Elt F)) :
    StableHlo.after Gen.hostOps0 V (Proc.devRef .tc main_cst_3)
      = Cert.ReferenceIdeal.ReadP.val_main_cst_3 (F := F) := by
  after_results
  rfl

/-- The inlined selection: the inverse square root where the degree is positive, zero elsewhere. -/
theorem ops01_v16 (W : Valuation τ sig (Elt F)) (x1 : (⟨Cert.ReferenceIdeal.S2x600000, .i32⟩ : BufTy).Contents (Elt F))
    (h12 : W (Proc.devRef .tc main_v12) = Cert.ReferenceIdeal.ReadP.val_main_v12 (F := F) x1)
    (h15 : W (Proc.devRef .tc main_v15) = Cert.ReferenceIdeal.ReadP.val_main_v15 (F := F) x1)
    (hc : W (Proc.devRef .tc main_cst_3) = Cert.ReferenceIdeal.ReadP.val_main_cst_3 (F := F)) :
    StableHlo.after Gen.hostOps0_1 W (Proc.devRef .tc main_v16)
      = Cert.ReferenceIdeal.ReadP.val_main_v16 (F := F) x1 := by
  after_results
  simp only [TRef.ofBuf, TRef.toBuf, cast_eq]
  rw [h12, h15, hc]
  rfl

/-- The third stretch: the weight of an edge is the product of its two ends' inverse square roots. -/
theorem ops02_v31 (W : Valuation τ sig (Elt F)) (x1 : (⟨Cert.ReferenceIdeal.S2x600000, .i32⟩ : BufTy).Contents (Elt F))
    (h3 : W (Proc.devRef .tc main_v3) = Cert.ReferenceIdeal.ReadP.val_main_v3 (F := F) x1)
    (h6 : W (Proc.devRef .tc main_v6) = Cert.ReferenceIdeal.ReadP.val_main_v6 (F := F) x1)
    (h16 : W (Proc.devRef .tc main_v16) = Cert.ReferenceIdeal.ReadP.val_main_v16 (F := F) x1) :
    StableHlo.after Gen.hostOps0_2 W (Proc.devRef .tc main_v31)
      = Cert.ReferenceIdeal.ReadP.val_main_v31 (F := F) x1 := by
  after_results_simp
  rw [h3, h6, h16]
  rfl

/-- The stretch after the first region is the aggregation of what the region left in its output. -/
theorem ops1_v45 (W : Valuation τ sig (Elt F)) :
    StableHlo.after Gen.hostOps1 W (Proc.devRef .tc main_v45)
      = Cert.ReferenceIdeal.AggRef.aggCore (F := F) (W (Proc.devRef .tc main_v32))
          (W (Proc.devRef .tc main_v3)) (W (Proc.devRef .tc main_v6)) (W (Proc.devRef .tc main_v31)) := by
  after_results_simp
  rfl

/-- The stretch after the second region is the aggregation of what that region left. -/
theorem ops2_v59 (W : Valuation τ sig (Elt F)) :
    StableHlo.after Gen.hostOps2 W (Proc.devRef .tc main_v59)
      = Cert.ReferenceIdeal.AggRef.aggCore (F := F) (W (Proc.devRef .tc main_v46))
          (W (Proc.devRef .tc main_v3)) (W (Proc.devRef .tc main_v6)) (W (Proc.devRef .tc main_v31)) := by
  after_results_simp
  rfl

/-- The stretch after the third region is the aggregation of what that region left. -/
theorem ops3_v73 (W : Valuation τ sig (Elt F)) :
    StableHlo.after Gen.hostOps3 W (Proc.devRef .tc main_v73)
      = Cert.ReferenceIdeal.AggRef.aggCore (F := F) (W (Proc.devRef .tc main_v60))
          (W (Proc.devRef .tc main_v3)) (W (Proc.devRef .tc main_v6)) (W (Proc.devRef .tc main_v31)) := by
  after_results_simp
  rfl

/-- The same stretch also builds the graph-membership matrix of the nodes. -/
theorem ops3_v80 (W : Valuation τ sig (Elt F)) :
    StableHlo.after Gen.hostOps3 W (Proc.devRef .tc main_v80)
      = OneHot.onehotOf (F := F) (W (Proc.devRef .tc main_arg2)) := by
  after_results
  rfl

end Generic

/-! ## The program's valuations -/

variable (m : (ℓ : Loc nD τ sig) → Buf (Elt Ideal) ℓ) (outs : Gen.Outs (F := Ideal)) (c : Dev nD)

/-- Before the first region the source-index buffer holds the reference's source stage. -/
theorem norm_v3 : Gen.V3 m c main_v3
    = Cert.ReferenceIdeal.ReadP.val_main_v3 (F := Ideal) (m ((c : Thread nD τ).loc main_arg1)) :=
  (Gen.V3_of m c main_v3 (by decide)).trans <| (Gen.V2_of m c main_v3 (by decide)).trans <|
    ops0_v3 (F := Ideal) (Gen.V0 m c)

/-- Before the first region the destination-index buffer holds the reference's destination stage. -/
theorem norm_v6 : Gen.V3 m c main_v6
    = Cert.ReferenceIdeal.ReadP.val_main_v6 (F := Ideal) (m ((c : Thread nD τ).loc main_arg1)) :=
  (Gen.V3_of m c main_v6 (by decide)).trans <| (Gen.V2_of m c main_v6 (by decide)).trans <|
    ops0_v6 (F := Ideal) (Gen.V0 m c)

/-- After the inlined selection the buffer holds the reference's per-node factor. -/
theorem norm_v16 : Gen.V2 m c main_v16
    = Cert.ReferenceIdeal.ReadP.val_main_v16 (F := Ideal) (m ((c : Thread nD τ).loc main_arg1)) :=
  ops01_v16 (F := Ideal) (Gen.V1 m c) (m ((c : Thread nD τ).loc main_arg1))
    (ops0_v12 (F := Ideal) (Gen.V0 m c)) (ops0_v15 (F := Ideal) (Gen.V0 m c)) (ops0_cst_3 (F := Ideal) (Gen.V0 m c))

/-- Before the first region the weight buffer holds the reference's normalisation stage. -/
theorem norm_v31 : Gen.V3 m c main_v31
    = Cert.ReferenceIdeal.ReadP.val_main_v31 (F := Ideal) (m ((c : Thread nD τ).loc main_arg1)) :=
  ops02_v31 (F := Ideal) (Gen.V2 m c) (m ((c : Thread nD τ).loc main_arg1))
    ((Gen.V2_of m c main_v3 (by decide)).trans (ops0_v3 (F := Ideal) (Gen.V0 m c)))
    ((Gen.V2_of m c main_v6 (by decide)).trans (ops0_v6 (F := Ideal) (Gen.V0 m c)))
    (norm_v16 m c)

/-! ## The aggregation stages and the membership matrix -/

/-- The aggregation respects equality of each of its four operands. -/
theorem aggCore_congr {p p' : (⟨Cert.ReferenceIdeal.S50000x128, .f32⟩ : BufTy).Contents (Elt Ideal)}
    {s s' d d' : (⟨Cert.ReferenceIdeal.S650000, .i32⟩ : BufTy).Contents (Elt Ideal)}
    {w w' : (⟨Cert.ReferenceIdeal.S650000, .f32⟩ : BufTy).Contents (Elt Ideal)}
    (hp : p = p') (hs : s = s') (hd : d = d') (hw : w = w') :
    Cert.ReferenceIdeal.AggRef.aggCore (F := Ideal) p s d w
      = Cert.ReferenceIdeal.AggRef.aggCore (F := Ideal) p' s' d' w' := by
  subst hp hs hd hw; rfl

/-- What the first region left in its output is read back from the valuation it entered. -/
theorem V4_v32 : Gen.V4 m outs c main_v32 = outs 4 main_v32 c := by
  simp only [Gen.V4, Function.update_self]

theorem V6_v46 : Gen.V6 m outs c main_v46 = outs 6 main_v46 c := by
  simp only [Gen.V6, Function.update_self]

theorem V8_v60 : Gen.V8 m outs c main_v60 = outs 8 main_v60 c := by
  simp only [Gen.V8, Function.update_self]

/-- The index and weight vectors computed before the first region are still there after it. -/
theorem V4_v3 : Gen.V4 m outs c main_v3
    = Cert.ReferenceIdeal.ReadP.val_main_v3 (F := Ideal) (m ((c : Thread nD τ).loc main_arg1)) :=
  (Gen.V4_of m outs c main_v3 (by decide)).trans (norm_v3 m c)
theorem V4_v6 : Gen.V4 m outs c main_v6
    = Cert.ReferenceIdeal.ReadP.val_main_v6 (F := Ideal) (m ((c : Thread nD τ).loc main_arg1)) :=
  (Gen.V4_of m outs c main_v6 (by decide)).trans (norm_v6 m c)
theorem V4_v31 : Gen.V4 m outs c main_v31
    = Cert.ReferenceIdeal.ReadP.val_main_v31 (F := Ideal) (m ((c : Thread nD τ).loc main_arg1)) :=
  (Gen.V4_of m outs c main_v31 (by decide)).trans (norm_v31 m c)

/-- … and after the second region. -/
theorem V6_v3 : Gen.V6 m outs c main_v3
    = Cert.ReferenceIdeal.ReadP.val_main_v3 (F := Ideal) (m ((c : Thread nD τ).loc main_arg1)) :=
  (Gen.V6_of m outs c main_v3 (by decide)).trans <| (Gen.V5_of m outs c main_v3 (by decide)).trans (V4_v3 m outs c)
theorem V6_v6 : Gen.V6 m outs c main_v6
    = Cert.ReferenceIdeal.ReadP.val_main_v6 (F := Ideal) (m ((c : Thread nD τ).loc main_arg1)) :=
  (Gen.V6_of m outs c main_v6 (by decide)).trans <| (Gen.V5_of m outs c main_v6 (by decide)).trans (V4_v6 m outs c)
theorem V6_v31 : Gen.V6 m outs c main_v31
    = Cert.ReferenceIdeal.ReadP.val_main_v31 (F := Ideal) (m ((c : Thread nD τ).loc main_arg1)) :=
  (Gen.V6_of m outs c main_v31 (by decide)).trans <| (Gen.V5_of m outs c main_v31 (by decide)).trans (V4_v31 m outs c)

/-- … and after the third region. -/
theorem V8_v3 : Gen.V8 m outs c main_v3
    = Cert.ReferenceIdeal.ReadP.val_main_v3 (F := Ideal) (m ((c : Thread nD τ).loc main_arg1)) :=
  (Gen.V8_of m outs c main_v3 (by decide)).trans <| (Gen.V7_of m outs c main_v3 (by decide)).trans (V6_v3 m outs c)
theorem V8_v6 : Gen.V8 m outs c main_v6
    = Cert.ReferenceIdeal.ReadP.val_main_v6 (F := Ideal) (m ((c : Thread nD τ).loc main_arg1)) :=
  (Gen.V8_of m outs c main_v6 (by decide)).trans <| (Gen.V7_of m outs c main_v6 (by decide)).trans (V6_v6 m outs c)
theorem V8_v31 : Gen.V8 m outs c main_v31
    = Cert.ReferenceIdeal.ReadP.val_main_v31 (F := Ideal) (m ((c : Thread nD τ).loc main_arg1)) :=
  (Gen.V8_of m outs c main_v31 (by decide)).trans <| (Gen.V7_of m outs c main_v31 (by decide)).trans (V6_v31 m outs c)

/-- The second region reads the aggregation of the first region's result. -/
theorem stage_v45 : Gen.V5 m outs c main_v45
    = Cert.ReferenceIdeal.AggRef.aggRef (outs 4 main_v32 c) (m ((c : Thread nD τ).loc main_arg1)) :=
  (ops1_v45 (F := Ideal) (Gen.V4 m outs c)).trans <|
    (aggCore_congr (V4_v32 m outs c) (V4_v3 m outs c) (V4_v6 m outs c) (V4_v31 m outs c)).trans
      (Cert.ReferenceIdeal.AggRef.aggRef_eq _ _).symm

/-- The third region reads the aggregation of the second region's result. -/
theorem stage_v59 : Gen.V7 m outs c main_v59
    = Cert.ReferenceIdeal.AggRef.aggRef (outs 6 main_v46 c) (m ((c : Thread nD τ).loc main_arg1)) :=
  (ops2_v59 (F := Ideal) (Gen.V6 m outs c)).trans <|
    (aggCore_congr (V6_v46 m outs c) (V6_v3 m outs c) (V6_v6 m outs c) (V6_v31 m outs c)).trans
      (Cert.ReferenceIdeal.AggRef.aggRef_eq _ _).symm

/-- The last region reads the aggregation of the third region's result … -/
theorem stage_v73 : Gen.V9 m outs c main_v73
    = Cert.ReferenceIdeal.AggRef.aggRef (outs 8 main_v60 c) (m ((c : Thread nD τ).loc main_arg1)) :=
  (ops3_v73 (F := Ideal) (Gen.V8 m outs c)).trans <|
    (aggCore_congr (V8_v60 m outs c) (V8_v3 m outs c) (V8_v6 m outs c) (V8_v31 m outs c)).trans
      (Cert.ReferenceIdeal.AggRef.aggRef_eq _ _).symm

/-! ## The arguments the regions read are as launched -/

theorem pass_V3_arg0 : Gen.V3 m c main_arg0 = m ((c : Thread nD τ).loc main_arg0) :=
  (Gen.V3_of m c main_arg0 (by decide)).trans <| (Gen.V2_of m c main_arg0 (by decide)).trans <|
    (Gen.V1_of m c main_arg0 (by decide)).trans rfl
theorem pass_V3_arg3 : Gen.V3 m c main_arg3 = m ((c : Thread nD τ).loc main_arg3) :=
  (Gen.V3_of m c main_arg3 (by decide)).trans <| (Gen.V2_of m c main_arg3 (by decide)).trans <|
    (Gen.V1_of m c main_arg3 (by decide)).trans rfl
theorem pass_V3_arg2 : Gen.V3 m c main_arg2 = m ((c : Thread nD τ).loc main_arg2) :=
  (Gen.V3_of m c main_arg2 (by decide)).trans <| (Gen.V2_of m c main_arg2 (by decide)).trans <|
    (Gen.V1_of m c main_arg2 (by decide)).trans rfl
theorem pass_V3_arg4 : Gen.V3 m c main_arg4 = m ((c : Thread nD τ).loc main_arg4) :=
  (Gen.V3_of m c main_arg4 (by decide)).trans <| (Gen.V2_of m c main_arg4 (by decide)).trans <|
    (Gen.V1_of m c main_arg4 (by decide)).trans rfl
theorem pass_V3_arg5 : Gen.V3 m c main_arg5 = m ((c : Thread nD τ).loc main_arg5) :=
  (Gen.V3_of m c main_arg5 (by decide)).trans <| (Gen.V2_of m c main_arg5 (by decide)).trans <|
    (Gen.V1_of m c main_arg5 (by decide)).trans rfl
theorem pass_V3_arg6 : Gen.V3 m c main_arg6 = m ((c : Thread nD τ).loc main_arg6) :=
  (Gen.V3_of m c main_arg6 (by decide)).trans <| (Gen.V2_of m c main_arg6 (by decide)).trans <|
    (Gen.V1_of m c main_arg6 (by decide)).trans rfl
theorem pass_V3_arg7 : Gen.V3 m c main_arg7 = m ((c : Thread nD τ).loc main_arg7) :=
  (Gen.V3_of m c main_arg7 (by decide)).trans <| (Gen.V2_of m c main_arg7 (by decide)).trans <|
    (Gen.V1_of m c main_arg7 (by decide)).trans rfl
theorem pass_V3_arg8 : Gen.V3 m c main_arg8 = m ((c : Thread nD τ).loc main_arg8) :=
  (Gen.V3_of m c main_arg8 (by decide)).trans <| (Gen.V2_of m c main_arg8 (by decide)).trans <|
    (Gen.V1_of m c main_arg8 (by decide)).trans rfl
theorem pass_V3_arg9 : Gen.V3 m c main_arg9 = m ((c : Thread nD τ).loc main_arg9) :=
  (Gen.V3_of m c main_arg9 (by decide)).trans <| (Gen.V2_of m c main_arg9 (by decide)).trans <|
    (Gen.V1_of m c main_arg9 (by decide)).trans rfl
theorem pass_V3_arg10 : Gen.V3 m c main_arg10 = m ((c : Thread nD τ).loc main_arg10) :=
  (Gen.V3_of m c main_arg10 (by decide)).trans <| (Gen.V2_of m c main_arg10 (by decide)).trans <|
    (Gen.V1_of m c main_arg10 (by decide)).trans rfl

theorem pass_V5_arg4 : Gen.V5 m outs c main_arg4 = m ((c : Thread nD τ).loc main_arg4) :=
  (Gen.V5_of m outs c main_arg4 (by decide)).trans <| (Gen.V4_of m outs c main_arg4 (by decide)).trans (pass_V3_arg4 m c)
theorem pass_V5_arg5 : Gen.V5 m outs c main_arg5 = m ((c : Thread nD τ).loc main_arg5) :=
  (Gen.V5_of m outs c main_arg5 (by decide)).trans <| (Gen.V4_of m outs c main_arg5 (by decide)).trans (pass_V3_arg5 m c)

theorem pass_V7_arg6 : Gen.V7 m outs c main_arg6 = m ((c : Thread nD τ).loc main_arg6) :=
  (Gen.V7_of m outs c main_arg6 (by decide)).trans <| (Gen.V6_of m outs c main_arg6 (by decide)).trans <|
    (Gen.V5_of m outs c main_arg6 (by decide)).trans <| (Gen.V4_of m outs c main_arg6 (by decide)).trans (pass_V3_arg6 m c)
theorem pass_V7_arg7 : Gen.V7 m outs c main_arg7 = m ((c : Thread nD τ).loc main_arg7) :=
  (Gen.V7_of m outs c main_arg7 (by decide)).trans <| (Gen.V6_of m outs c main_arg7 (by decide)).trans <|
    (Gen.V5_of m outs c main_arg7 (by decide)).trans <| (Gen.V4_of m outs c main_arg7 (by decide)).trans (pass_V3_arg7 m c)

/-- An argument no stretch writes is, after the third region, as before the first. -/
theorem V8_of_V3 (r : Ref sig .tc) (h1 : r ∉ ([main_v32] : List (Ref sig .tc))) (h2 : r ∉ Gen.hostOps1_W)
    (h3 : r ∉ ([main_v46] : List (Ref sig .tc))) (h4 : r ∉ Gen.hostOps2_W)
    (h5 : r ∉ ([main_v60] : List (Ref sig .tc))) : Gen.V8 m outs c r = Gen.V3 m c r :=
  (Gen.V8_of m outs c r h5).trans <| (Gen.V7_of m outs c r h4).trans <| (Gen.V6_of m outs c r h3).trans <|
    (Gen.V5_of m outs c r h2).trans (Gen.V4_of m outs c r h1)

theorem pass_V9_arg8 : Gen.V9 m outs c main_arg8 = m ((c : Thread nD τ).loc main_arg8) :=
  (Gen.V9_of m outs c main_arg8 (by decide)).trans <|
    (V8_of_V3 m outs c main_arg8 (by decide) (by decide) (by decide) (by decide) (by decide)).trans (pass_V3_arg8 m c)
theorem pass_V9_arg9 : Gen.V9 m outs c main_arg9 = m ((c : Thread nD τ).loc main_arg9) :=
  (Gen.V9_of m outs c main_arg9 (by decide)).trans <|
    (V8_of_V3 m outs c main_arg9 (by decide) (by decide) (by decide) (by decide) (by decide)).trans (pass_V3_arg9 m c)
theorem pass_V9_arg10 : Gen.V9 m outs c main_arg10 = m ((c : Thread nD τ).loc main_arg10) :=
  (Gen.V9_of m outs c main_arg10 (by decide)).trans <|
    (V8_of_V3 m outs c main_arg10 (by decide) (by decide) (by decide) (by decide) (by decide)).trans (pass_V3_arg10 m c)
theorem pass_V9_arg2 : Gen.V9 m outs c main_arg2 = m ((c : Thread nD τ).loc main_arg2) :=
  (Gen.V9_of m outs c main_arg2 (by decide)).trans <|
    (V8_of_V3 m outs c main_arg2 (by decide) (by decide) (by decide) (by decide) (by decide)).trans (pass_V3_arg2 m c)

/-- … and the graph-membership matrix of the launched graph ids. -/
theorem stage_v80 : Gen.V9 m outs c main_v80
    = OneHot.onehotOf (F := Ideal) (m ((c : Thread nD τ).loc main_arg2)) :=
  (ops3_v80 (F := Ideal) (Gen.V8 m outs c)).trans <| congrArg (OneHot.onehotOf (F := Ideal)) <|
    (V8_of_V3 m outs c main_arg2 (by decide) (by decide) (by decide) (by decide) (by decide)).trans (pass_V3_arg2 m c)

end Cert.KernelIdeal.HostStages
-- ==== Proof.ValueChain.lean ====
/- The program's result, region after region, is the reference's last stage. Each kernel region's output array is a
   function of the arrays it was entered with (the region's value theorem); the arrays a region is entered with are
   @main's arguments, passed through the host operations unchanged, and the aggregation of the previous region's
   output over the graph's edges, which the host operations between two regions compute; the reference's stages
   factor the same way: stage %32 is the first feature product, %45 / %63 / %81 the aggregation of the product
   before, %50 / %68 a dense layer of the aggregation before, %101 the pooled classifier of %81. So region 0 leaves
   %32, region 1 leaves %50, region 2 leaves %68 and region 3 leaves %101, each equation from the one before by
   rewriting the arguments of one and the same function on both sides; no stage is ever opened. -/
import proofs.«429345_j86552180949235_1_alg».proof.Proof.RunData
import proofs.«429345_j86552180949235_1_alg».proof.Proof.Val0
import proofs.«429345_j86552180949235_1_alg».proof.Proof.Val1
import proofs.«429345_j86552180949235_1_alg».proof.Proof.Val2
import proofs.«429345_j86552180949235_1_alg».proof.Proof.Val3
import proofs.«429345_j86552180949235_1_alg».proof.Proof.HostStages
import proofs.«429345_j86552180949235_1_alg».proof.Proof.LayerRef
import proofs.«429345_j86552180949235_1_alg».proof.Proof.AggRef
import proofs.«429345_j86552180949235_1_alg».proof.Proof.PoolRef

noncomputable section

namespace Cert.KernelIdeal.ValueChain

open Cert.KernelIdeal Cert.KernelIdeal.Gen
open Idealize.ShloMosaic Idealize.ShloMosaic.TcCoe Idealize.SL.Sem
open Cert.ReferenceIdeal (ReadP.val_main_v32 ReadP.val_main_v45 ReadP.val_main_v50 ReadP.val_main_v63 ReadP.val_main_v68 ReadP.val_main_v81 ReadP.val_main_v101)

variable (m : (ℓ : Loc nD τ sig) → Buf (Elt Ideal) ℓ) (c : Dev nD)

/-! ## Region 0: the first feature product -/

/-- Region 0 is entered with the features and the first weights as launched, so it leaves the reference's stage %32. -/
theorem o4_eq : Run.o4 m c = ReadP.val_main_v32 (F := Ideal) (m ((c : Thread nD τ).loc main_arg0)) (m ((c : Thread nD τ).loc main_arg3)) :=
  (Val0.region0_value (Run.atTc (Gen.V3 m)) c).trans
    (congrArg₂ (ReadP.val_main_v32 (F := Ideal)) (HostStages.pass_V3_arg0 m c) (HostStages.pass_V3_arg3 m c))

/-- The host operations after region 0 aggregate its output over the edges: the reference's stage %45. -/
theorem v45_eq : Gen.V5 m (Run.outs4 m) c main_v45 = ReadP.val_main_v45 (F := Ideal) (m ((c : Thread nD τ).loc main_arg0)) (m ((c : Thread nD τ).loc main_arg1)) (m ((c : Thread nD τ).loc main_arg3)) :=
  (HostStages.stage_v45 m (Run.outs4 m) c).trans
    ((congrArg (fun p => Cert.ReferenceIdeal.AggRef.aggRef p (m ((c : Thread nD τ).loc main_arg1))) ((Run.outs4_v32 m 4 c).trans (o4_eq m c))).trans
      (Cert.ReferenceIdeal.AggRef.ref_v45 (m ((c : Thread nD τ).loc main_arg0)) (m ((c : Thread nD τ).loc main_arg1)) (m ((c : Thread nD τ).loc main_arg3))).symm)

/-! ## Regions 1 and 2: a dense layer of the aggregation before -/

/-- A dense layer of equal arguments. -/
theorem layerRef_congr {a a' : (⟨Cert.ReferenceIdeal.S50000x128, .f32⟩ : BufTy).Contents (Elt Ideal)}
    {b b' : (⟨Cert.ReferenceIdeal.S128, .f32⟩ : BufTy).Contents (Elt Ideal)}
    {W W' : (⟨Cert.ReferenceIdeal.S128x128, .f32⟩ : BufTy).Contents (Elt Ideal)} (ha : a = a') (hb : b = b') (hW : W = W') :
    Cert.ReferenceIdeal.LayerRef.layerRef a b W = Cert.ReferenceIdeal.LayerRef.layerRef a' b' W' := by
  rw [ha, hb, hW]

/-- Region 1 is entered with stage %45, the first bias and the second weights, so it leaves stage %50. -/
theorem o6_eq : Run.o6 m c = ReadP.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (Val1.region1_value (Run.atTc (Gen.V5 m (Run.outs4 m))) c).trans
    ((layerRef_congr (v45_eq m c) (HostStages.pass_V5_arg4 m (Run.outs4 m) c) (HostStages.pass_V5_arg5 m (Run.outs4 m) c)).trans
      (Cert.ReferenceIdeal.LayerRef.ref_v50 (m ((c : Thread nD τ).loc main_arg0)) (m ((c : Thread nD τ).loc main_arg1)) (m ((c : Thread nD τ).loc main_arg3)) (m ((c : Thread nD τ).loc main_arg4)) (m ((c : Thread nD τ).loc main_arg5))).symm)

/-- The host operations after region 1 aggregate its output: stage %63. -/
theorem v59_eq : Gen.V7 m (Run.outs6 m) c main_v59 = ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (HostStages.stage_v59 m (Run.outs6 m) c).trans
    ((congrArg (fun p => Cert.ReferenceIdeal.AggRef.aggRef p (m ((c : Thread nD τ).loc main_arg1))) ((Run.outs6_v46 m 6 c).trans (o6_eq m c))).trans
      (Cert.ReferenceIdeal.AggRef.ref_v63 (m ((c : Thread nD τ).loc main_arg0)) (m ((c : Thread nD τ).loc main_arg1)) (m ((c : Thread nD τ).loc main_arg3)) (m ((c : Thread nD τ).loc main_arg4)) (m ((c : Thread nD τ).loc main_arg5))).symm)

/-- Region 2 is entered with stage %63, the second bias and the third weights, so it leaves stage %68. -/
theorem o8_eq : Run.o8 m c = ReadP.val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (Val2.region2_value (Run.atTc (Gen.V7 m (Run.outs6 m))) c).trans
    ((layerRef_congr (v59_eq m c) (HostStages.pass_V7_arg6 m (Run.outs6 m) c) (HostStages.pass_V7_arg7 m (Run.outs6 m) c)).trans
      (Cert.ReferenceIdeal.LayerRef.ref_v68 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))).symm)

/-- The host operations after region 2 aggregate its output: stage %81. -/
theorem v73_eq : Gen.V9 m (Run.outs8 m) c main_v73 = ReadP.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (HostStages.stage_v73 m (Run.outs8 m) c).trans
    ((congrArg (fun p => Cert.ReferenceIdeal.AggRef.aggRef p (m ((c : Thread nD τ).loc main_arg1))) ((Run.outs8_v60 m 8 c).trans (o8_eq m c))).trans
      (Cert.ReferenceIdeal.AggRef.ref_v81 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))).symm)

/-! ## Region 3: the pooled classifier -/

/-- The pooled classifier of equal arguments. -/
theorem poolRef_congr {a a' : (⟨Cert.ReferenceIdeal.S50000x128, .f32⟩ : BufTy).Contents (Elt Ideal)}
    {b b' : (⟨Cert.ReferenceIdeal.S128, .f32⟩ : BufTy).Contents (Elt Ideal)}
    {g g' : (⟨Cert.ReferenceIdeal.S50000, .i32⟩ : BufTy).Contents (Elt Ideal)}
    {W W' : (⟨Cert.ReferenceIdeal.S128x5, .f32⟩ : BufTy).Contents (Elt Ideal)}
    {l l' : (⟨Cert.ReferenceIdeal.S5, .f32⟩ : BufTy).Contents (Elt Ideal)}
    (ha : a = a') (hb : b = b') (hg : g = g') (hW : W = W') (hl : l = l') :
    Cert.ReferenceIdeal.PoolRef.poolRef a b g W l = Cert.ReferenceIdeal.PoolRef.poolRef a' b' g' W' l' := by
  rw [ha, hb, hg, hW, hl]

/-- The membership matrix region 3 is entered with is the one of the graph ids it is entered with. -/
theorem onehot_entry : Run.atTc (Gen.V9 m (Run.outs8 m)) c main_v80 = OneHot.onehotOf (F := Ideal) (Run.atTc (Gen.V9 m (Run.outs8 m)) c main_arg2) :=
  (HostStages.stage_v80 m (Run.outs8 m) c).trans
    (congrArg (OneHot.onehotOf (F := Ideal)) (HostStages.pass_V9_arg2 m (Run.outs8 m) c)).symm

/-- Region 3 is entered with stage %81, the third bias, the graph ids and the classifier's weights and bias, so it
    leaves the reference's last stage. -/
theorem o10_eq : Run.o10 m c = ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Rg3.region3_value (F := Ideal) (Run.atTc (Gen.V9 m (Run.outs8 m))) c).trans
    ((Val3.pool_value (Run.atTc (Gen.V9 m (Run.outs8 m))) c (onehot_entry m c)).trans
      ((poolRef_congr (v73_eq m c) (HostStages.pass_V9_arg8 m (Run.outs8 m) c) (HostStages.pass_V9_arg2 m (Run.outs8 m) c)
          (HostStages.pass_V9_arg9 m (Run.outs8 m) c) (HostStages.pass_V9_arg10 m (Run.outs8 m) c)).trans
        (Cert.ReferenceIdeal.PoolRef.ref_v101 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm))

end Cert.KernelIdeal.ValueChain

end
-- ==== Proof.lean ====
/- The certificate of a three-layer graph convolution with mean pooling and a linear classifier, written as four
   pipelined kernels among host operations, against its plain array program.

   Both programs normalise the graph the same way and aggregate messages with the same gather, scale and scatter-add;
   they differ in where the dense maps sit and in how the pooling is spelt. At the exact instance (floats are extended
   reals, a change of float format is the identity) each dense kernel's output array — one 2000-row block per grid point,
   the block a sum over the contracted axis into a zero accumulator — is the reference's matrix product, with the layer's
   bias and rectifier applied on the kernel's load exactly where the reference applies them after its aggregation. The
   pooling kernel accumulates, over the 25 row blocks, the product of the transposed graph-membership matrix with the
   rectified features and the column sums of that matrix; a membership entry is one where the node's graph id equals the
   column and zero elsewhere, zero times any extended real is zero and one times it is itself, and addition of extended
   reals is commutative and associative, so these are the reference's two scatter-added segment sums, ids outside
   0 … 127 contributing to neither. The quotient by the count clipped below at one, the classifier's product and bias
   are then the same operations on equal arrays. No step needs an input to be finite.

   The frames: each program's @main is run as its host stretches and its four kernel regions in order; a region's
   arrays leave the host's buffers at entry and return at exit with the output at the fold of its write-backs, the
   pooling region's invariant carrying its two accumulators between grid points. The reference has no kernel: its
   frame is its run with the result dropped. The idealization rewrote no operation, so nothing is to be preserved. -/
import proofs.«429345_j86552180949235_1_alg».proof.Defs
import proofs.«429345_j86552180949235_1_alg».proof.Proof.Gen.Kernel
import proofs.«429345_j86552180949235_1_alg».proof.Proof.Gen.KernelIdeal
import proofs.«429345_j86552180949235_1_alg».proof.Proof.Gen.ReferenceIdeal
import proofs.«429345_j86552180949235_1_alg».proof.Proof.Gen.Pre_finite_inputs
import proofs.«429345_j86552180949235_1_alg».proof.Proof.KRun
import proofs.«429345_j86552180949235_1_alg».proof.Proof.RunValue
import proofs.«429345_j86552180949235_1_alg».proof.Proof.ValueChain
import proofs.«429345_j86552180949235_1_alg».proof.Proof.RefRead
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ => Cert.Kernel.Run.frame m ρ

/-- So does the idealized program. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the exact instance the idealized program's result array is what its pooling region leaves, the reference's is
    its last stage of the arguments, and the two are one array when the arguments agree. -/
theorem algebraic : Cert.algebraic_KernelIdeal_ReferenceIdeal := by
  intro m ρ m' ρ' _ hagree
  refine ⟨fun c => Cert.KernelIdeal.Run.o10 m c, Cert.KernelIdeal.Run.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v101_eq, h0, h1, h2, h3, h4, h5, h6, h7, h8, h9, h10]
  exact (Cert.KernelIdeal.ValueChain.o10_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
